-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S4000000x3 : Shape := ⟨2, ![4000000, 3]⟩
abbrev S4000000x1 : Shape := ⟨2, ![4000000, 1]⟩
abbrev S200000x4 : Shape := ⟨2, ![200000, 4]⟩
abbrev S200000x3 : Shape := ⟨2, ![200000, 3]⟩
abbrev S200000x1 : Shape := ⟨2, ![200000, 1]⟩
abbrev S4000000 : Shape := ⟨1, ![4000000]⟩
abbrev S_ : Shape := ⟨0, ![]⟩
abbrev S1 : Shape := ⟨1, ![1]⟩
abbrev S3999999 : Shape := ⟨1, ![3999999]⟩
abbrev S60001x32x4 : Shape := ⟨3, ![60001, 32, 4]⟩
abbrev S4000000x2 : Shape := ⟨2, ![4000000, 2]⟩
abbrev S60000x32x4 : Shape := ⟨3, ![60000, 32, 4]⟩
abbrev S60000x4x32 : Shape := ⟨3, ![60000, 4, 32]⟩
abbrev S60001 : Shape := ⟨1, ![60001]⟩
abbrev S60000 : Shape := ⟨1, ![60000]⟩
abbrev S60001x3 : Shape := ⟨2, ![60001, 3]⟩
abbrev S60000x3 : Shape := ⟨2, ![60000, 3]⟩

abbrev nBuf : Space → Nat
  | .hbm => 151
  | .vmem => 6
  | .smem => 0
  | _ => 0

abbrev hbmTy0_0 (i : Nat) : BufTy := match i % 128 with
  | 0 => ⟨S4000000x4, .f32⟩
  | 1 => ⟨S4000000x3, .i32⟩
  | 2 => ⟨S4000000x1, .i32⟩
  | 3 => ⟨S4000000, .i32⟩
  | 4 => ⟨S_, .i32⟩
  | 5 => ⟨S4000000, .i32⟩
  | 6 => ⟨S4000000, .i1⟩
  | 7 => ⟨S4000000, .i32⟩
  | 8 => ⟨S4000000, .i32⟩
  | 9 => ⟨S4000000, .i32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S4000000x1, .i32⟩
  | 18 => ⟨S4000000, .i32⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S4000000x1, .i32⟩
  | 27 => ⟨S4000000x4, .f32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000x3, .i32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S4000000, .i1⟩
  | 46 => ⟨S4000000, .i32⟩
  | 47 => ⟨S_, .i32⟩
  | 48 => ⟨S4000000, .i32⟩
  | 49 => ⟨S4000000, .i1⟩
  | 50 => ⟨S1, .i32⟩
  | 51 => ⟨S3999999, .i32⟩
  | 52 => ⟨S4000000, .i32⟩
  | 53 => ⟨S4000000, .i1⟩
  | 54 => ⟨S4000000, .i1⟩
  | 55 => ⟨S4000000, .i1⟩
  | 56 => ⟨S4000000, .i32⟩
  | 57 => ⟨S_, .i32⟩
  | 58 => ⟨S_, .i32⟩
  | 59 => ⟨S4000000, .i32⟩
  | 60 => ⟨S_, .i32⟩
  | 61 => ⟨S4000000, .i32⟩
  | 62 => ⟨S4000000, .i32⟩
  | 63 => ⟨S_, .i32⟩
  | 64 => ⟨S_, .i32⟩
  | 65 => ⟨S4000000, .i32⟩
  | 66 => ⟨S4000000, .i32⟩
  | 67 => ⟨S_, .i32⟩
  | 68 => ⟨S_, .i32⟩
  | 69 => ⟨S4000000, .i32⟩
  | 70 => ⟨S4000000, .i32⟩
  | 71 => ⟨S_, .i32⟩
  | 72 => ⟨S4000000, .i32⟩
  | 73 => ⟨S4000000, .i1⟩
  | 74 => ⟨S4000000, .i1⟩
  | 75 => ⟨S_, .i32⟩
  | 76 => ⟨S4000000, .i32⟩
  | 77 => ⟨S4000000, .i1⟩
  | 78 => ⟨S4000000, .i1⟩
  | 79 => ⟨S_, .i32⟩
  | 80 => ⟨S4000000, .i32⟩
  | 81 => ⟨S4000000, .i1⟩
  | 82 => ⟨S4000000, .i1⟩
  | 83 => ⟨S_, .i32⟩
  | 84 => ⟨S_, .i32⟩
  | 85 => ⟨S4000000, .i32⟩
  | 86 => ⟨S4000000, .i32⟩
  | 87 => ⟨S_, .i32⟩
  | 88 => ⟨S_, .i32⟩
  | 89 => ⟨S4000000, .i32⟩
  | 90 => ⟨S4000000, .i32⟩
  | 91 => ⟨S_, .f32⟩
  | 92 => ⟨S60001x32x4, .f32⟩
  | 93 => ⟨S4000000x1, .i1⟩
  | 94 => ⟨S_, .f32⟩
  | 95 => ⟨S4000000x4, .i1⟩
  | 96 => ⟨S4000000x4, .f32⟩
  | 97 => ⟨S4000000x4, .f32⟩
  | 98 => ⟨S_, .i32⟩
  | 99 => ⟨S4000000, .i32⟩
  | 100 => ⟨S4000000, .i1⟩
  | 101 => ⟨S_, .i32⟩
  | 102 => ⟨S4000000, .i32⟩
  | 103 => ⟨S4000000, .i32⟩
  | 104 => ⟨S4000000, .i32⟩
  | 105 => ⟨S_, .i32⟩
  | 106 => ⟨S4000000, .i32⟩
  | 107 => ⟨S4000000, .i1⟩
  | 108 => ⟨S_, .i32⟩
  | 109 => ⟨S4000000, .i32⟩
  | 110 => ⟨S4000000, .i32⟩
  | 111 => ⟨S4000000, .i32⟩
  | 112 => ⟨S4000000x1, .i32⟩
  | 113 => ⟨S4000000x1, .i32⟩
  | 114 => ⟨S4000000x2, .i32⟩
  | 115 => ⟨S60001x32x4, .f32⟩
  | 116 => ⟨S60000x32x4, .f32⟩
  | 117 => ⟨S60000x4x32, .f32⟩
  | 118 => ⟨S_, .i32⟩
  | 119 => ⟨S_, .i32⟩
  | 120 => ⟨S4000000, .i32⟩
  | 121 => ⟨S4000000, .i32⟩
  | 122 => ⟨S4000000, .i32⟩
  | 123 => ⟨S_, .i32⟩
  | 124 => ⟨S60001, .i32⟩
  | 125 => ⟨S4000000x1, .i32⟩
  | 126 => ⟨S60001, .i32⟩
  | 127 => ⟨S60000, .i32⟩
  | _ => ⟨S4000000x4, .f32⟩

abbrev hbmTy0_1 (i : Nat) : BufTy := match i % 128 with
  | 0 => ⟨S_, .i32⟩
  | 1 => ⟨S60000, .i32⟩
  | 2 => ⟨S60000, .i32⟩
  | 3 => ⟨S_, .i32⟩
  | 4 => ⟨S4000000, .i32⟩
  | 5 => ⟨S4000000, .i1⟩
  | 6 => ⟨S4000000, .i1⟩
  | 7 => ⟨S_, .i32⟩
  | 8 => ⟨S_, .i32⟩
  | 9 => ⟨S4000000, .i32⟩
  | 10 => ⟨S4000000, .i32⟩
  | 11 => ⟨S_, .i32⟩
  | 12 => ⟨S60001x3, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S60001x3, .i32⟩
  | 22 => ⟨S60000x3, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S200000x4, .f32⟩
  | .local _ .vmem, ⟨1, _⟩ => ⟨S200000x4, .f32⟩
  | .local _ .vmem, ⟨2, _⟩ => ⟨S200000x3, .i32⟩
  | .local _ .vmem, ⟨3, _⟩ => ⟨S200000x3, .i32⟩
  | .local _ .vmem, ⟨4, _⟩ => ⟨S200000x1, .i32⟩
  | .local _ .vmem, ⟨5, _⟩ => ⟨S200000x1, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1_0 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_call1_v0 : Ref sig .tc := ⟨.hbm, 50, rfl⟩
abbrev main_call1_v1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call2_call0_c : Ref sig .tc := ⟨.hbm, 57, rfl⟩
abbrev main_call2_call0_v0 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_call3_v0 : Ref sig .tc := ⟨.hbm, 64, rfl⟩
abbrev main_call3_v1 : Ref sig .tc := ⟨.hbm, 65, rfl⟩
abbrev main_v44 : Ref sig .tc := ⟨.hbm, 66, rfl⟩
abbrev main_call4_c : Ref sig .tc := ⟨.hbm, 67, rfl⟩
abbrev main_call4_v0 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_call5_v0 : Ref sig .tc := ⟨.hbm, 84, rfl⟩
abbrev main_call5_v1 : Ref sig .tc := ⟨.hbm, 85, rfl⟩
abbrev main_v56 : Ref sig .tc := ⟨.hbm, 86, rfl⟩
abbrev main_c_15 : Ref sig .tc := ⟨.hbm, 87, rfl⟩
abbrev main_call6_v0 : Ref sig .tc := ⟨.hbm, 88, rfl⟩
abbrev main_call6_v1 : Ref sig .tc := ⟨.hbm, 89, rfl⟩
abbrev main_v57 : Ref sig .tc := ⟨.hbm, 90, rfl⟩
abbrev main_cst : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_call7_v0 : Ref sig .tc := ⟨.hbm, 95, rfl⟩
abbrev main_call7_v1 : Ref sig .tc := ⟨.hbm, 96, rfl⟩
abbrev main_v60 : Ref sig .tc := ⟨.hbm, 97, rfl⟩
abbrev main_c_17 : Ref sig .tc := ⟨.hbm, 98, rfl⟩
abbrev main_v61 : Ref sig .tc := ⟨.hbm, 99, rfl⟩
abbrev main_v62 : Ref sig .tc := ⟨.hbm, 100, rfl⟩
abbrev main_c_18 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_19 : Ref sig .tc := ⟨.hbm, 105, rfl⟩
abbrev main_v66 : Ref sig .tc := ⟨.hbm, 106, rfl⟩
abbrev main_v67 : Ref sig .tc := ⟨.hbm, 107, rfl⟩
abbrev main_c_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_21 : Ref sig .tc := ⟨.hbm, 118, rfl⟩
abbrev main_call8_v0 : Ref sig .tc := ⟨.hbm, 119, rfl⟩
abbrev main_call8_v1 : Ref sig .tc := ⟨.hbm, 120, rfl⟩
abbrev main_v77 : Ref sig .tc := ⟨.hbm, 121, rfl⟩
abbrev main_v78 : Ref sig .tc := ⟨.hbm, 122, rfl⟩
abbrev main_c_22 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_23 : Ref sig .tc := ⟨.hbm, 128, rfl⟩
abbrev main_v83 : Ref sig .tc := ⟨.hbm, 129, rfl⟩
abbrev main_v84 : Ref sig .tc := ⟨.hbm, 130, rfl⟩
abbrev main_c_24 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_25 : Ref sig .tc := ⟨.hbm, 135, rfl⟩
abbrev main_call9_v0 : Ref sig .tc := ⟨.hbm, 136, rfl⟩
abbrev main_call9_v1 : Ref sig .tc := ⟨.hbm, 137, rfl⟩
abbrev main_v88 : Ref sig .tc := ⟨.hbm, 138, rfl⟩
abbrev main_c_26 : Ref sig .tc := ⟨.hbm, 139, rfl⟩
abbrev main_v89 : Ref sig .tc := ⟨.hbm, 140, rfl⟩
abbrev main_c_27 : Ref sig .tc := ⟨.hbm, 141, rfl⟩
abbrev main_v90 : Ref sig .tc := ⟨.hbm, 142, rfl⟩
abbrev main_v91 : Ref sig .tc := ⟨.hbm, 143, rfl⟩
abbrev main_c_28 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S200000x4_S200000x1_0_0 : ∀ a, (![0, 0] : Fin 2 → Nat) a + S200000x1.size a ≤ S200000x4.size a
  h_S200000x1 : 0 < S200000x1.numel
  inb_S200000x4_S200000x1_0_1 : ∀ a, (![0, 1] : Fin 2 → Nat) a + S200000x1.size a ≤ S200000x4.size a
  inb_S200000x4_S200000x1_0_2 : ∀ a, (![0, 2] : Fin 2 → Nat) a + S200000x1.size a ≤ S200000x4.size a
  concatenates_S200000x1_S200000x1_S200000x1_S200000x3_d1 : Shape.Concatenates [S200000x1, S200000x1, S200000x1] S200000x3 1
  inb_S200000x3_S200000x3_0_0 : ∀ a, (![0, 0] : Fin 2 → Nat) a + S200000x3.size a ≤ S200000x3.size a
  h_S200000x3 : 0 < S200000x3.numel
  inb_S200000x1_S200000x1_0_0 : ∀ a, (![0, 0] : Fin 2 → Nat) a + S200000x1.size a ≤ S200000x1.size a
  shapeCasts_S4000000x1_S4000000 : S4000000x1.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000_S1_3999999 : S4000000.Slices ![3999999] S1
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  bcast_S_S60001x32x4 : S_.BroadcastsInDim S60001x32x4 (![] : Fin 0 → Fin S60001x32x4.rank)
  bcast_S4000000x1_S4000000x4_0_1 : S4000000x1.BroadcastsInDim S4000000x4 (![0, 1] : Fin 2 → Fin S4000000x4.rank)
  bcast_S_S4000000x4 : S_.BroadcastsInDim S4000000x4 (![] : Fin 0 → Fin S4000000x4.rank)
  concatenates_S4000000x1_S4000000x1_S4000000x2_d1 : Shape.Concatenates [S4000000x1, S4000000x1] S4000000x2 1
  slices_S60001x32x4_S60000x32x4_0_0_0 : S60001x32x4.Slices ![0, 0, 0] S60000x32x4
  transposes_S60000x32x4_S60000x4x32_0_2_1 : S60000x32x4.Transposes [0, 2, 1] S60000x4x32
  bcast_S_S60001 : S_.BroadcastsInDim S60001 (![] : Fin 0 → Fin S60001.rank)
  slices_S60001_S60000_0 : S60001.Slices ![0] S60000
  bcast_S_S60000 : S_.BroadcastsInDim S60000 (![] : Fin 0 → Fin S60000.rank)
  bcast_S_S60001x3 : S_.BroadcastsInDim S60001x3 (![] : Fin 0 → Fin S60001x3.rank)
  slices_S60001x3_S60000x3_0_0 : S60001x3.Slices ![0, 0] S60000x3
  gather_S4000000_S4000000x1_S4000000_n_0_n_n_0_1_1_wf : GatherDims.WF S4000000 S4000000x1 S4000000 [] [0] [] [0] [] 1 ![1]
  gather_S4000000x4_S4000000x1_S4000000x4_1_0_n_n_0_1_14_wf : GatherDims.WF S4000000x4 S4000000x1 S4000000x4 [1] [0] [] [0] [] 1 ![1, 4]
  gather_S4000000x3_S4000000x1_S4000000x3_1_0_n_n_0_1_13_wf : GatherDims.WF S4000000x3 S4000000x1 S4000000x3 [1] [0] [] [0] [] 1 ![1, 3]
  scatter_S60001x32x4_S4000000x2_S4000000x4_1_01_01_1_wf : ScatterDims.WF S60001x32x4 S4000000x2 S4000000x4 [1] [0, 1] [0, 1] 1
  scatter_S60001_S4000000x1_S4000000_n_0_0_1_wf : ScatterDims.WF S60001 S4000000x1 S4000000 [] [0] [0] 1
  scatter_S60001x3_S4000000x1_S4000000x3_1_0_0_1_wf : ScatterDims.WF S60001x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200000x4.size a ≤ S4000000x4.size a
  hwx0_0 : ∀ i : grid0.Coords, EltTy.bits .f32 = 32 ∨ (Rect.block (s := S4000000x4) S200000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200000x3.size a ≤ S4000000x3.size a
  hwx0_1 : ∀ i : grid0.Coords, EltTy.bits .i32 = 32 ∨ (Rect.block (s := S4000000x3) S200000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200000x1.size a ≤ S4000000x1.size a
  hwx0_2 : ∀ i : grid0.Coords, EltTy.bits .i32 = 32 ∨ (Rect.block (s := S4000000x1) S200000x1.size (cc0_transform_2 i) (hinb0_2 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def scatter_S60001x32x4_S4000000x2_S4000000x4_1_01_01_1 : ScatterDims S60001x32x4 S4000000x2 S4000000x4 where
  updateWindowDims := [1]
  insertedWindowDims := [0, 1]
  scatterDimsToOperandDims := [0, 1]
  indexVectorDim := 1
  wf := scatter_S60001x32x4_S4000000x2_S4000000x4_1_01_01_1_wf
def scatter_S60001_S4000000x1_S4000000_n_0_0_1 : ScatterDims S60001 S4000000x1 S4000000 where
  updateWindowDims := []
  insertedWindowDims := [0]
  scatterDimsToOperandDims := [0]
  indexVectorDim := 1
  wf := scatter_S60001_S4000000x1_S4000000_n_0_0_1_wf
def scatter_S60001x3_S4000000x1_S4000000x3_1_0_0_1 : ScatterDims S60001x3 S4000000x1 S4000000x3 where
  updateWindowDims := [1]
  insertedWindowDims := [0]
  scatterDimsToOperandDims := [0]
  indexVectorDim := 1
  wf := scatter_S60001x3_S4000000x1_S4000000x3_1_0_0_1_wf

abbrev win0_0 : Pipeline.Window sig grid0 :=
  Pipeline.Window.ofSpec (Memref.whole main_arg0) S200000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S200000x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S200000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S1 : Shape := ⟨1, ![1]⟩
abbrev S3999999 : Shape := ⟨1, ![3999999]⟩
abbrev S60001x32x4 : Shape := ⟨3, ![60001, 32, 4]⟩
abbrev S4000000x2 : Shape := ⟨2, ![4000000, 2]⟩
abbrev S60000x32x4 : Shape := ⟨3, ![60000, 32, 4]⟩
abbrev S60000x4x32 : Shape := ⟨3, ![60000, 4, 32]⟩
abbrev S60001 : Shape := ⟨1, ![60001]⟩
abbrev S60000 : Shape := ⟨1, ![60000]⟩
abbrev S60001x3 : Shape := ⟨2, ![60001, 3]⟩
abbrev S60000x3 : Shape := ⟨2, ![60000, 3]⟩

abbrev nBuf : Space → Nat
  | .hbm => 191
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .i32⟩
  | 4 => ⟨S4000000x3, .f32⟩
  | 5 => ⟨S1x3, .f32⟩
  | 6 => ⟨S4000000x3, .f32⟩
  | 7 => ⟨S4000000x3, .f32⟩
  | 8 => ⟨S1x3, .f32⟩
  | 9 => ⟨S4000000x3, .f32⟩
  | 10 => ⟨S4000000x3, .f32⟩
  | 11 => ⟨S4000000x3, .i32⟩
  | 12 => ⟨S_, .i32⟩
  | 13 => ⟨S4000000x3, .i32⟩
  | 14 => ⟨S4000000x3, .i1⟩
  | 15 => ⟨S1x3, .i32⟩
  | 16 => ⟨S4000000x3, .i32⟩
  | 17 => ⟨S4000000x3, .i1⟩
  | 18 => ⟨S4000000x3, .i1⟩
  | 19 => ⟨S_, .i1⟩
  | 20 => ⟨S4000000, .i1⟩
  | 21 => ⟨S4000000x1, .i32⟩
  | 22 => ⟨S4000000, .i32⟩
  | 23 => ⟨S4000000x1, .i32⟩
  | 24 => ⟨S4000000, .i32⟩
  | 25 => ⟨S_, .i32⟩
  | 26 => ⟨S4000000, .i32⟩
  | 27 => ⟨S4000000, .i32⟩
  | 28 => ⟨S4000000, .i32⟩
  | 29 => ⟨S4000000x1, .i32⟩
  | 30 => ⟨S4000000, .i32⟩
  | 31 => ⟨S_, .i32⟩
  | 32 => ⟨S4000000, .i32⟩
  | 33 => ⟨S4000000, .i32⟩
  | 34 => ⟨S_, .i32⟩
  | 35 => ⟨S4000000, .i32⟩
  | 36 => ⟨S4000000, .i32⟩
  | 37 => ⟨S4000000, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S4000000, .i32⟩
  | 46 => ⟨S4000000, .i32⟩
  | 47 => ⟨S4000000, .i32⟩
  | 48 => ⟨S4000000, .i32⟩
  | 49 => ⟨S4000000, .i32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S4000000x1, .i32⟩
  | 58 => ⟨S4000000, .i32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S4000000x4, .f32⟩
  | 68 => ⟨S_, .i32⟩
  | 69 => ⟨S4000000, .i32⟩
  | 70 => ⟨S4000000, .i1⟩
  | 71 => ⟨S_, .i32⟩
  | 72 => ⟨S4000000, .i32⟩
  | 73 => ⟨S4000000, .i32⟩
  | 74 => ⟨S4000000, .i32⟩
  | 75 => ⟨S4000000x1, .i32⟩
  | 76 => ⟨S4000000x3, .i32⟩
  | 77 => ⟨S_, .i32⟩
  | 78 => ⟨S4000000, .i32⟩
  | 79 => ⟨S4000000, .i1⟩
  | 80 => ⟨S_, .i32⟩
  | 81 => ⟨S4000000, .i32⟩
  | 82 => ⟨S4000000, .i32⟩
  | 83 => ⟨S4000000, .i32⟩
  | 84 => ⟨S4000000x1, .i32⟩
  | 85 => ⟨S4000000, .i1⟩
  | 86 => ⟨S4000000, .i32⟩
  | 87 => ⟨S_, .i32⟩
  | 88 => ⟨S4000000, .i32⟩
  | 89 => ⟨S4000000, .i1⟩
  | 90 => ⟨S1, .i32⟩
  | 91 => ⟨S3999999, .i32⟩
  | 92 => ⟨S4000000, .i32⟩
  | 93 => ⟨S4000000, .i1⟩
  | 94 => ⟨S4000000, .i1⟩
  | 95 => ⟨S4000000, .i1⟩
  | 96 => ⟨S4000000, .i32⟩
  | 97 => ⟨S_, .i32⟩
  | 98 => ⟨S_, .i32⟩
  | 99 => ⟨S4000000, .i32⟩
  | 100 => ⟨S_, .i32⟩
  | 101 => ⟨S4000000, .i32⟩
  | 102 => ⟨S4000000, .i32⟩
  | 103 => ⟨S_, .i32⟩
  | 104 => ⟨S_, .i32⟩
  | 105 => ⟨S4000000, .i32⟩
  | 106 => ⟨S4000000, .i32⟩
  | 107 => ⟨S_, .i32⟩
  | 108 => ⟨S_, .i32⟩
  | 109 => ⟨S4000000, .i32⟩
  | 110 => ⟨S4000000, .i32⟩
  | 111 => ⟨S_, .i32⟩
  | 112 => ⟨S4000000, .i32⟩
  | 113 => ⟨S4000000, .i1⟩
  | 114 => ⟨S4000000, .i1⟩
  | 115 => ⟨S_, .i32⟩
  | 116 => ⟨S4000000, .i32⟩
  | 117 => ⟨S4000000, .i1⟩
  | 118 => ⟨S4000000, .i1⟩
  | 119 => ⟨S_, .i32⟩
  | 120 => ⟨S4000000, .i32⟩
  | 121 => ⟨S4000000, .i1⟩
  | 122 => ⟨S4000000, .i1⟩
  | 123 => ⟨S_, .i32⟩
  | 124 => ⟨S_, .i32⟩
  | 125 => ⟨S4000000, .i32⟩
  | 126 => ⟨S4000000, .i32⟩
  | 127 => ⟨S_, .i32⟩
  | _ => ⟨S4000000x4, .f32⟩

abbrev hbmTy0_1 (i : Nat) : BufTy := match i % 128 with
  | 0 => ⟨S_, .i32⟩
  | 1 => ⟨S4000000, .i32⟩
  | 2 => ⟨S4000000, .i32⟩
  | 3 => ⟨S_, .f32⟩
  | 4 => ⟨S60001x32x4, .f32⟩
  | 5 => ⟨S4000000x1, .i1⟩
  | 6 => ⟨S_, .f32⟩
  | 7 => ⟨S4000000x4, .i1⟩
  | 8 => ⟨S4000000x4, .f32⟩
  | 9 => ⟨S4000000x4, .f32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S_, .i32⟩
  | 18 => ⟨S4000000, .i32⟩
  | 19 => ⟨S4000000, .i1⟩
  | 20 => ⟨S_, .i32⟩
  | 21 => ⟨S4000000, .i32⟩
  | 22 => ⟨S4000000, .i32⟩
  | 23 => ⟨S4000000, .i32⟩
  | 24 => ⟨S4000000x1, .i32⟩
  | 25 => ⟨S4000000x1, .i32⟩
  | 26 => ⟨S4000000x2, .i32⟩
  | 27 => ⟨S60001x32x4, .f32⟩
  | 28 => ⟨S60000x32x4, .f32⟩
  | 29 => ⟨S60000x4x32, .f32⟩
  | 30 => ⟨S_, .i32⟩
  | 31 => ⟨S_, .i32⟩
  | 32 => ⟨S4000000, .i32⟩
  | 33 => ⟨S4000000, .i32⟩
  | 34 => ⟨S4000000, .i32⟩
  | 35 => ⟨S_, .i32⟩
  | 36 => ⟨S60001, .i32⟩
  | 37 => ⟨S4000000x1, .i32⟩
  | 38 => ⟨S60001, .i32⟩
  | 39 => ⟨S60000, .i32⟩
  | 40 => ⟨S_, .i32⟩
  | 41 => ⟨S60000, .i32⟩
  | 42 => ⟨S60000, .i32⟩
  | 43 => ⟨S_, .i32⟩
  | 44 => ⟨S4000000, .i32⟩
  | 45 => ⟨S4000000, .i1⟩
  | 46 => ⟨S4000000, .i1⟩
  | 47 => ⟨S_, .i32⟩
  | 48 => ⟨S_, .i32⟩
  | 49 => ⟨S4000000, .i32⟩
  | 50 => ⟨S4000000, .i32⟩
  | 51 => ⟨S_, .i32⟩
  | 52 => ⟨S60001x3, .i32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S60001x3, .i32⟩
  | 62 => ⟨S60000x3, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_c_7 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_call0_v0 : Ref sig .tc := ⟨.hbm, 45, rfl⟩
abbrev main_v32 : Ref sig .tc := ⟨.hbm, 46, rfl⟩
abbrev main_call1_v0 : Ref sig .tc := ⟨.hbm, 47, rfl⟩
abbrev main_call1_v1_0 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_c_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_c_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_16 : Ref sig .tc := ⟨.hbm, 77, rfl⟩
abbrev main_v55 : Ref sig .tc := ⟨.hbm, 78, rfl⟩
abbrev main_v56 : Ref sig .tc := ⟨.hbm, 79, rfl⟩
abbrev main_c_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_18 : Ref sig .tc := ⟨.hbm, 87, rfl⟩
abbrev main_v63 : Ref sig .tc := ⟨.hbm, 88, rfl⟩
abbrev main_v64 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call3_call0_c : Ref sig .tc := ⟨.hbm, 97, rfl⟩
abbrev main_call3_call0_v0 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_c_20 : Ref sig .tc := ⟨.hbm, 103, rfl⟩
abbrev main_call4_v0 : Ref sig .tc := ⟨.hbm, 104, rfl⟩
abbrev main_call4_v1 : Ref sig .tc := ⟨.hbm, 105, rfl⟩
abbrev main_v73 : Ref sig .tc := ⟨.hbm, 106, rfl⟩
abbrev main_call5_c : Ref sig .tc := ⟨.hbm, 107, rfl⟩
abbrev main_call5_v0 : Ref sig .tc := ⟨.hbm, 108, rfl⟩
abbrev main_v74 : Ref sig .tc := ⟨.hbm, 109, rfl⟩
abbrev main_v75 : Ref sig .tc := ⟨.hbm, 110, rfl⟩
abbrev main_c_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_23 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_24 : Ref sig .tc := ⟨.hbm, 123, rfl⟩
abbrev main_call6_v0 : Ref sig .tc := ⟨.hbm, 124, rfl⟩
abbrev main_call6_v1 : Ref sig .tc := ⟨.hbm, 125, rfl⟩
abbrev main_v85 : Ref sig .tc := ⟨.hbm, 126, rfl⟩
abbrev main_c_25 : Ref sig .tc := ⟨.hbm, 127, rfl⟩
abbrev main_call7_v0 : Ref sig .tc := ⟨.hbm, 128, rfl⟩
abbrev main_call7_v1 : Ref sig .tc := ⟨.hbm, 129, rfl⟩
abbrev main_v86 : Ref sig .tc := ⟨.hbm, 130, rfl⟩
abbrev main_cst_26 : Ref sig .tc := ⟨.hbm, 131, rfl⟩
abbrev main_v87 : Ref sig .tc := ⟨.hbm, 132, rfl⟩
abbrev main_v88 : Ref sig .tc := ⟨.hbm, 133, rfl⟩
abbrev main_cst_27 : Ref sig .tc := ⟨.hbm, 134, rfl⟩
abbrev main_call8_v0 : Ref sig .tc := ⟨.hbm, 135, rfl⟩
abbrev main_call8_v1 : Ref sig .tc := ⟨.hbm, 136, rfl⟩
abbrev main_v89 : Ref sig .tc := ⟨.hbm, 137, rfl⟩
abbrev main_c_28 : Ref sig .tc := ⟨.hbm, 138, rfl⟩
abbrev main_v90 : Ref sig .tc := ⟨.hbm, 139, rfl⟩
abbrev main_v91 : Ref sig .tc := ⟨.hbm, 140, rfl⟩
abbrev main_c_29 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_30 : Ref sig .tc := ⟨.hbm, 145, rfl⟩
abbrev main_v95 : Ref sig .tc := ⟨.hbm, 146, rfl⟩
abbrev main_v96 : Ref sig .tc := ⟨.hbm, 147, rfl⟩
abbrev main_c_31 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_32 : Ref sig .tc := ⟨.hbm, 158, rfl⟩
abbrev main_call9_v0 : Ref sig .tc := ⟨.hbm, 159, rfl⟩
abbrev main_call9_v1 : Ref sig .tc := ⟨.hbm, 160, rfl⟩
abbrev main_v106 : Ref sig .tc := ⟨.hbm, 161, rfl⟩
abbrev main_v107 : Ref sig .tc := ⟨.hbm, 162, rfl⟩
abbrev main_c_33 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_34 : Ref sig .tc := ⟨.hbm, 168, rfl⟩
abbrev main_v112 : Ref sig .tc := ⟨.hbm, 169, rfl⟩
abbrev main_v113 : Ref sig .tc := ⟨.hbm, 170, rfl⟩
abbrev main_c_35 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_c_36 : Ref sig .tc := ⟨.hbm, 175, rfl⟩
abbrev main_call10_v0 : Ref sig .tc := ⟨.hbm, 176, rfl⟩
abbrev main_call10_v1 : Ref sig .tc := ⟨.hbm, 177, rfl⟩
abbrev main_v117 : Ref sig .tc := ⟨.hbm, 178, rfl⟩
abbrev main_c_37 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_c_39 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S_S4000000x3 : S_.BroadcastsInDim S4000000x3 (![] : Fin 0 → Fin S4000000x3.rank)
  reducesTo_S4000000x3_S4000000_d1 : S4000000x3.ReducesTo [1] S4000000
  h_S_ : 0 < S_.numel
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  bcast_S_S4000000 : S_.BroadcastsInDim S4000000 (![] : Fin 0 → Fin S4000000.rank)
  slices_S4000000x3_S4000000x1_0_2 : S4000000x3.Slices ![0, 2] S4000000x1
  bcast_S4000000_S4000000x1_0 : S4000000.BroadcastsInDim S4000000x1 (![0] : Fin 1 → Fin S4000000x1.rank)
  slices_S4000000_S1_3999999 : S4000000.Slices ![3999999] S1
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S60001x32x4 : S_.BroadcastsInDim S60001x32x4 (![] : Fin 0 → Fin S60001x32x4.rank)
  bcast_S4000000x1_S4000000x4_0_1 : S4000000x1.BroadcastsInDim S4000000x4 (![0, 1] : Fin 2 → Fin S4000000x4.rank)
  bcast_S_S4000000x4 : S_.BroadcastsInDim S4000000x4 (![] : Fin 0 → Fin S4000000x4.rank)
  concatenates_S4000000x1_S4000000x1_S4000000x2_d1 : Shape.Concatenates [S4000000x1, S4000000x1] S4000000x2 1
  slices_S60001x32x4_S60000x32x4_0_0_0 : S60001x32x4.Slices ![0, 0, 0] S60000x32x4
  transposes_S60000x32x4_S60000x4x32_0_2_1 : S60000x32x4.Transposes [0, 2, 1] S60000x4x32
  bcast_S_S60001 : S_.BroadcastsInDim S60001 (![] : Fin 0 → Fin S60001.rank)
  slices_S60001_S60000_0 : S60001.Slices ![0] S60000
  bcast_S_S60000 : S_.BroadcastsInDim S60000 (![] : Fin 0 → Fin S60000.rank)
  bcast_S_S60001x3 : S_.BroadcastsInDim S60001x3 (![] : Fin 0 → Fin S60001x3.rank)
  slices_S60001x3_S60000x3_0_0 : S60001x3.Slices ![0, 0] S60000x3
  gather_S4000000_S4000000x1_S4000000_n_0_n_n_0_1_1_wf : GatherDims.WF S4000000 S4000000x1 S4000000 [] [0] [] [0] [] 1 ![1]
  gather_S4000000x4_S4000000x1_S4000000x4_1_0_n_n_0_1_14_wf : GatherDims.WF S4000000x4 S4000000x1 S4000000x4 [1] [0] [] [0] [] 1 ![1, 4]
  gather_S4000000x3_S4000000x1_S4000000x3_1_0_n_n_0_1_13_wf : GatherDims.WF S4000000x3 S4000000x1 S4000000x3 [1] [0] [] [0] [] 1 ![1, 3]
  scatter_S60001x32x4_S4000000x2_S4000000x4_1_01_01_1_wf : ScatterDims.WF S60001x32x4 S4000000x2 S4000000x4 [1] [0, 1] [0, 1] 1
  scatter_S60001_S4000000x1_S4000000_n_0_0_1_wf : ScatterDims.WF S60001 S4000000x1 S4000000 [] [0] [0] 1
  scatter_S60001x3_S4000000x1_S4000000x3_1_0_0_1_wf : ScatterDims.WF S60001x3 S4000000x1 S4000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def scatter_S60001x32x4_S4000000x2_S4000000x4_1_01_01_1 : ScatterDims S60001x32x4 S4000000x2 S4000000x4 where
  updateWindowDims := [1]
  insertedWindowDims := [0, 1]
  scatterDimsToOperandDims := [0, 1]
  indexVectorDim := 1
  wf := scatter_S60001x32x4_S4000000x2_S4000000x4_1_01_01_1_wf
def scatter_S60001_S4000000x1_S4000000_n_0_0_1 : ScatterDims S60001 S4000000x1 S4000000 where
  updateWindowDims := []
  insertedWindowDims := [0]
  scatterDimsToOperandDims := [0]
  indexVectorDim := 1
  wf := scatter_S60001_S4000000x1_S4000000_n_0_0_1_wf
def scatter_S60001x3_S4000000x1_S4000000x3_1_0_0_1 : ScatterDims S60001x3 S4000000x1 S4000000x3 where
  updateWindowDims := [1]
  insertedWindowDims := [0]
  scatterDimsToOperandDims := [0]
  indexVectorDim := 1
  wf := scatter_S60001x3_S4000000x1_S4000000x3_1_0_0_1_wf

class Facts : Prop extends Facts₀ where

variable [Facts]
-- ==== Proof.KData.lean ====
/-
  The one pallas_call of the voxelization program, as data for its frame and value proofs.

  The call bins N = 4 000 000 points in 20 blocks of 200 000 rows: block `t` of the input `[N,4]` array is staged,
  the body reads its columns 0, 1, 2, computes the integer cell of each coordinate, and stores the three cells as a
  `[200000,3]` block (window 1) and the linear cell index, or the sentinel for a point outside the grid, as a
  `[200000,1]` block (window 2). Everything after the call is host operations (`tailOps`).
  Here: the host suffix as a list of stretches, the arrays as the call finds them, a window's block at a grid point,
  what the body leaves in each output's staging buffer as a function of the input block, and the pipeline's proof data.
-/
import proofs.«159783_j57397942944138_1_alg».proof.Proof.Gen.Kernel.Launch
import proofs.«159783_j57397942944138_1_alg».proof.Proof.Gen.Kernel.Skeleton
import proofs.«159783_j57397942944138_1_alg».proof.Proof.Gen.Kernel.Points
import Idealize.ShloMosaic.Lib.Pipeline.FrameBody
import Idealize.ShloMosaic.Lib.Pipeline.FrameSuffix

set_option maxRecDepth 16384

noncomputable section

namespace Cert.Kernel.Gen.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host operations after the call, stretch by stretch (a module-local function's operations are a stretch of
    their own), in program order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19]

/-- Core `c`'s buffer contents when the call is entered: as launched (no host operation precedes the call). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Column `j` of the staged input block (all 200 000 rows, one column). -/
abbrev col0 : Rect S200000x4 := Rect.unit (s := S200000x4) ![0, 0] S200000x1.size inb_S200000x4_S200000x1_0_0
abbrev col1 : Rect S200000x4 := Rect.unit (s := S200000x4) ![0, 1] S200000x1.size inb_S200000x4_S200000x1_0_1
abbrev col2 : Rect S200000x4 := Rect.unit (s := S200000x4) ![0, 2] S200000x1.size inb_S200000x4_S200000x1_0_2
/-- The whole of an output's staging buffer. -/
abbrev whole3 : Rect S200000x3 := Rect.unit (s := S200000x3) ![0, 0] S200000x3.size inb_S200000x3_S200000x3_0_0
abbrev whole1 : Rect S200000x1 := Rect.unit (s := S200000x1) ![0, 0] S200000x1.size inb_S200000x1_S200000x1_0_0

/-- The three integer cells of a block of points: what the body stores, whole, into window 1's buffer. -/
def cells (x0 : Vec F S200000x4 .f32) : IVec S200000x3 32 :=
  k0_pay2 (k0_pay3 (View.ld x0 col0)) (k0_pay4 (View.ld x0 col1)) (k0_pay5 (View.ld x0 col2))

/-- The linear cell index of a block of points, the sentinel where a cell is outside the grid: what the body stores,
    whole, into window 2's buffer. -/
def linear (x0 : Vec F S200000x4 .f32) : IVec S200000x1 32 :=
  k0_pay1 (k0_pay5 (View.ld x0 col2)) (k0_pay6 (View.ld x0 col0) (View.ld x0 col1) (View.ld x0 col2))
    (k0_pay7 (View.ld x0 col0) (View.ld x0 col1)) k0_pay8

/-- Window 1's staging buffer after the body: its one store, of the whole buffer. -/
def out0_1 (x0 : Vec F S200000x4 .f32) : Vec F S200000x3 .i32 := View.canon [⟨whole3, cells x0⟩]
/-- Window 2's staging buffer after the body: its one store, of the whole buffer. -/
def out0_2 (x0 : Vec F S200000x4 .f32) : Vec F S200000x1 .i32 := View.canon [⟨whole1, linear x0⟩]

/-- The proof data of the pipeline on core `c`: the arrays as the call finds them; after the body at point `t` the
    input's buffer still at its block and each output's at the body's value of that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

end Cert.Kernel.Gen.Hand

end
-- ==== Proof.KFrame.lean ====
/-
  The frame of the voxelization program `Kernel`, for any float instance.

  The program is one pallas_call followed by host operations. The call's body reads three columns of its input block,
  computes, and stores each output's staging buffer whole; so after the body the input's buffer still holds its block and
  each output's holds a function of that block (`out0_1`, `out0_2`). The input window is never written back and no host
  operation after the call writes an array of the call, so every weakly fair execution terminates with the argument
  array as launched.
  Here: the host stretches allocate nothing, touch unscoped TensorCore buffers only and write no array of the call; the
  program as the call continued by those stretches; the input's buffer at its block at every point; the body's triple;
  the body obligation; the run to the pipeline library's post; the frame.
-/
import proofs.«159783_j57397942944138_1_alg».proof.Proof.KData
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations after the call -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor

theorem hostOps1_keep : (hostOps1 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_1_keep : (hostOps1_1 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_2_keep : (hostOps1_2 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_3_keep : (hostOps1_3 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_4_keep : (hostOps1_4 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_5_keep : (hostOps1_5 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_6_keep : (hostOps1_6 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_7_keep : (hostOps1_7 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_8_keep : (hostOps1_8 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_9_keep : (hostOps1_9 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_10_keep : (hostOps1_10 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_11_keep : (hostOps1_11 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_12_keep : (hostOps1_12 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_13_keep : (hostOps1_13 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_14_keep : (hostOps1_14 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_15_keep : (hostOps1_15 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_16_keep : (hostOps1_16 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_17_keep : (hostOps1_17 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_18_keep : (hostOps1_18 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_19_keep : (hostOps1_19 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- A property of every operation of every stretch, from the stretches' own lists of it. -/
theorem forall_tail {P : HloOp τ sig (Elt F) → Prop} (h : (tailOps (F := F)).Forall fun ops => ops.Forall P) :
    ∀ ops ∈ (tailOps : List (List (HloOp τ sig (Elt F)))), ∀ op ∈ ops, P op :=
  fun ops hops => List.forall_iff_forall_mem.mp (List.forall_iff_forall_mem.mp h ops hops)

/-- The operations after the call touch the call's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_tail
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub⟩ ops hops op hop)
/-- They allocate nothing. -/
theorem sfx_fresh : ∀ ops ∈ (tailOps : List (List (HloOp τ sig (Elt F)))), ∀ op ∈ ops, op.fresh = ∅ :=
  forall_tail ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh⟩
/-- And none writes an array of the call (each writes its own result buffer, which is none of the three). -/
theorem sfx_keeps : ∀ ops ∈ (tailOps : List (List (HloOp τ sig (Elt F)))), ∀ op ∈ ops,
    ∀ w, Proc.devRef .tc (Pipeline.arrRef spec0 w) ∉ op.writes :=
  forall_tail ⟨hostOps1_keep, hostOps1_1_keep, hostOps1_2_keep, hostOps1_3_keep, hostOps1_4_keep, hostOps1_5_keep, hostOps1_6_keep, hostOps1_7_keep, hostOps1_8_keep, hostOps1_9_keep, hostOps1_10_keep, hostOps1_11_keep, hostOps1_12_keep, hostOps1_13_keep, hostOps1_14_keep, hostOps1_15_keep, hostOps1_16_keep, hostOps1_17_keep, hostOps1_18_keep, hostOps1_19_keep⟩

/-- The program up to the call and after it: the call, continued by the host stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The body's triple -/

/-- The one store into each output's staging buffer is of the whole buffer, so it covers it. -/
theorem cover0_1 (p0 : IVec S200000x3 32) (y : S200000x3.Idx) :
    ∃ pc ∈ ([⟨whole3, p0⟩] : List (View.Piece (Elt F) S200000x3 .i32)), y ∈ pc.1.set :=
  View.cover_of_tiled _ S200000x3.size (by rfl) y
theorem cover0_2 (p0 : IVec S200000x1 32) (y : S200000x1.Idx) :
    ∃ pc ∈ ([⟨whole1, p0⟩] : List (View.Piece (Elt F) S200000x1 .i32)), y ∈ pc.1.set :=
  View.cover_of_tiled _ S200000x1.size (by rfl) y

set_option maxHeartbeats 1000000 in
/-- The kernel body on whole staging memrefs, the input's at contents reading `x0` and the outputs' at anything, runs to
    the continuation holding the input's as it was, window 1's at `out0_1 x0` and window 2's at `out0_2 x0`: the three
    column loads read `x0` at the columns, the two loads of the outputs are of values nothing reads, and each output's one
    store covers its buffer. -/
theorem sound_kernel (c : Dev nD) (E : Set ℕ) (i : grid0.Coords) (arg1 : Memref sig .tc .vmem S200000x4 .f32) (harg1 : arg1.IsWhole) (arg2 : Memref sig .tc .vmem S200000x3 .i32) (harg2 : arg2.IsWhole) (arg3 : Memref sig .tc .vmem S200000x1 .i32) (harg3 : arg3.IsWhole)
    (x0 : Vec F S200000x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__bin_kernel i arg1 harg1 arg2 harg2 arg3 harg3) K := by
  simp only [cc0__bin_kernel_eq_skeleton]; unfold cc0__bin_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The input window at every point -/

/-- The input window's current staging buffer holds its block at every point, fetched there or not: the window is
    uncut and never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's buffer holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program on
    the TensorCores terminates, and every final state has every array of the call at what the library computes from the
    proof data and every other unscoped buffer as the host operations after the call leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Gen.Hand.run_main' depends on axioms: [propext, Classical.choice, Quot.sound] -/
#guard_msgs in #print axioms run_main

/-- THE FRAME: the program leaves its argument array as launched. The input window is never written back, so the array
    at the end of the call is the array at its start; no host operation after the call writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.Kernel.Gen.Hand

end
-- ==== Proof.KIData.lean ====
/-
  The one pallas_call of the voxelization program, as data for its frame and value proofs.

  The call bins N = 4 000 000 points in 20 blocks of 200 000 rows: block `t` of the input `[N,4]` array is staged,
  the body reads its columns 0, 1, 2, computes the integer cell of each coordinate, and stores the three cells as a
  `[200000,3]` block (window 1) and the linear cell index, or the sentinel for a point outside the grid, as a
  `[200000,1]` block (window 2). Everything after the call is host operations (`tailOps`).
  Here: the host suffix as a list of stretches, the arrays as the call finds them, a window's block at a grid point,
  what the body leaves in each output's staging buffer as a function of the input block, and the pipeline's proof data.
-/
import proofs.«159783_j57397942944138_1_alg».proof.Proof.Gen.KernelIdeal.Launch
import proofs.«159783_j57397942944138_1_alg».proof.Proof.Gen.KernelIdeal.Skeleton
import proofs.«159783_j57397942944138_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Gen.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host operations after the call, stretch by stretch (a module-local function's operations are a stretch of
    their own), in program order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19]

/-- Core `c`'s buffer contents when the call is entered: as launched (no host operation precedes the call). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Column `j` of the staged input block (all 200 000 rows, one column). -/
abbrev col0 : Rect S200000x4 := Rect.unit (s := S200000x4) ![0, 0] S200000x1.size inb_S200000x4_S200000x1_0_0
abbrev col1 : Rect S200000x4 := Rect.unit (s := S200000x4) ![0, 1] S200000x1.size inb_S200000x4_S200000x1_0_1
abbrev col2 : Rect S200000x4 := Rect.unit (s := S200000x4) ![0, 2] S200000x1.size inb_S200000x4_S200000x1_0_2
/-- The whole of an output's staging buffer. -/
abbrev whole3 : Rect S200000x3 := Rect.unit (s := S200000x3) ![0, 0] S200000x3.size inb_S200000x3_S200000x3_0_0
abbrev whole1 : Rect S200000x1 := Rect.unit (s := S200000x1) ![0, 0] S200000x1.size inb_S200000x1_S200000x1_0_0

/-- The three integer cells of a block of points: what the body stores, whole, into window 1's buffer. -/
def cells (x0 : Vec F S200000x4 .f32) : IVec S200000x3 32 :=
  k0_pay2 (k0_pay3 (View.ld x0 col0)) (k0_pay4 (View.ld x0 col1)) (k0_pay5 (View.ld x0 col2))

/-- The linear cell index of a block of points, the sentinel where a cell is outside the grid: what the body stores,
    whole, into window 2's buffer. -/
def linear (x0 : Vec F S200000x4 .f32) : IVec S200000x1 32 :=
  k0_pay1 (k0_pay5 (View.ld x0 col2)) (k0_pay6 (View.ld x0 col0) (View.ld x0 col1) (View.ld x0 col2))
    (k0_pay7 (View.ld x0 col0) (View.ld x0 col1)) k0_pay8

/-- Window 1's staging buffer after the body: its one store, of the whole buffer. -/
def out0_1 (x0 : Vec F S200000x4 .f32) : Vec F S200000x3 .i32 := View.canon [⟨whole3, cells x0⟩]
/-- Window 2's staging buffer after the body: its one store, of the whole buffer. -/
def out0_2 (x0 : Vec F S200000x4 .f32) : Vec F S200000x1 .i32 := View.canon [⟨whole1, linear x0⟩]

/-- The proof data of the pipeline on core `c`: the arrays as the call finds them; after the body at point `t` the
    input's buffer still at its block and each output's at the body's value of that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

end Cert.KernelIdeal.Gen.Hand

end
-- ==== Proof.KIFrame.lean ====
/-
  The frame of the voxelization program `KernelIdeal`, for any float instance.

  The program is one pallas_call followed by host operations. The call's body reads three columns of its input block,
  computes, and stores each output's staging buffer whole; so after the body the input's buffer still holds its block and
  each output's holds a function of that block (`out0_1`, `out0_2`). The input window is never written back and no host
  operation after the call writes an array of the call, so every weakly fair execution terminates with the argument
  array as launched.
  Here: the host stretches allocate nothing, touch unscoped TensorCore buffers only and write no array of the call; the
  program as the call continued by those stretches; the input's buffer at its block at every point; the body's triple;
  the body obligation; the run to the pipeline library's post; the frame.
-/
import proofs.«159783_j57397942944138_1_alg».proof.Proof.KIData
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations after the call -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor

theorem hostOps1_keep : (hostOps1 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_1_keep : (hostOps1_1 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_2_keep : (hostOps1_2 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_3_keep : (hostOps1_3 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_4_keep : (hostOps1_4 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_5_keep : (hostOps1_5 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_6_keep : (hostOps1_6 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_7_keep : (hostOps1_7 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_8_keep : (hostOps1_8 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_9_keep : (hostOps1_9 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_10_keep : (hostOps1_10 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_11_keep : (hostOps1_11 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_12_keep : (hostOps1_12 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_13_keep : (hostOps1_13 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_14_keep : (hostOps1_14 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_15_keep : (hostOps1_15 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_16_keep : (hostOps1_16 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_17_keep : (hostOps1_17 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_18_keep : (hostOps1_18 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_19_keep : (hostOps1_19 : List (HloOp τ sig (Elt F))).Forall fun op => ∀ w, Proc.devRef .tc (Pipeline.arrRef spec0 w) ∉ op.writes := by
  simp only [List.Forall]; repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- A property of every operation of every stretch, from the stretches' own lists of it. -/
theorem forall_tail {P : HloOp τ sig (Elt F) → Prop} (h : (tailOps (F := F)).Forall fun ops => ops.Forall P) :
    ∀ ops ∈ (tailOps : List (List (HloOp τ sig (Elt F)))), ∀ op ∈ ops, P op :=
  fun ops hops => List.forall_iff_forall_mem.mp (List.forall_iff_forall_mem.mp h ops hops)

/-- The operations after the call touch the call's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_tail
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub⟩ ops hops op hop)
/-- They allocate nothing. -/
theorem sfx_fresh : ∀ ops ∈ (tailOps : List (List (HloOp τ sig (Elt F)))), ∀ op ∈ ops, op.fresh = ∅ :=
  forall_tail ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh⟩
/-- And none writes an array of the call (each writes its own result buffer, which is none of the three). -/
theorem sfx_keeps : ∀ ops ∈ (tailOps : List (List (HloOp τ sig (Elt F)))), ∀ op ∈ ops,
    ∀ w, Proc.devRef .tc (Pipeline.arrRef spec0 w) ∉ op.writes :=
  forall_tail ⟨hostOps1_keep, hostOps1_1_keep, hostOps1_2_keep, hostOps1_3_keep, hostOps1_4_keep, hostOps1_5_keep, hostOps1_6_keep, hostOps1_7_keep, hostOps1_8_keep, hostOps1_9_keep, hostOps1_10_keep, hostOps1_11_keep, hostOps1_12_keep, hostOps1_13_keep, hostOps1_14_keep, hostOps1_15_keep, hostOps1_16_keep, hostOps1_17_keep, hostOps1_18_keep, hostOps1_19_keep⟩

/-- The program up to the call and after it: the call, continued by the host stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The body's triple -/

/-- The one store into each output's staging buffer is of the whole buffer, so it covers it. -/
theorem cover0_1 (p0 : IVec S200000x3 32) (y : S200000x3.Idx) :
    ∃ pc ∈ ([⟨whole3, p0⟩] : List (View.Piece (Elt F) S200000x3 .i32)), y ∈ pc.1.set :=
  View.cover_of_tiled _ S200000x3.size (by rfl) y
theorem cover0_2 (p0 : IVec S200000x1 32) (y : S200000x1.Idx) :
    ∃ pc ∈ ([⟨whole1, p0⟩] : List (View.Piece (Elt F) S200000x1 .i32)), y ∈ pc.1.set :=
  View.cover_of_tiled _ S200000x1.size (by rfl) y

set_option maxHeartbeats 1000000 in
/-- The kernel body on whole staging memrefs, the input's at contents reading `x0` and the outputs' at anything, runs to
    the continuation holding the input's as it was, window 1's at `out0_1 x0` and window 2's at `out0_2 x0`: the three
    column loads read `x0` at the columns, the two loads of the outputs are of values nothing reads, and each output's one
    store covers its buffer. -/
theorem sound_kernel (c : Dev nD) (E : Set ℕ) (i : grid0.Coords) (arg1 : Memref sig .tc .vmem S200000x4 .f32) (harg1 : arg1.IsWhole) (arg2 : Memref sig .tc .vmem S200000x3 .i32) (harg2 : arg2.IsWhole) (arg3 : Memref sig .tc .vmem S200000x1 .i32) (harg3 : arg3.IsWhole)
    (x0 : Vec F S200000x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__bin_kernel i arg1 harg1 arg2 harg2 arg3 harg3) K := by
  simp only [cc0__bin_kernel_eq_skeleton]; unfold cc0__bin_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The input window at every point -/

/-- The input window's current staging buffer holds its block at every point, fetched there or not: the window is
    uncut and never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's buffer holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program on
    the TensorCores terminates, and every final state has every array of the call at what the library computes from the
    proof data and every other unscoped buffer as the host operations after the call leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Gen.Hand.run_main' depends on axioms: [propext, Classical.choice, Quot.sound] -/
#guard_msgs in #print axioms run_main

/-- THE FRAME: the program leaves its argument array as launched. The input window is never written back, so the array
    at the end of the call is the array at its start; no host operation after the call writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.KernelIdeal.Gen.Hand

end
-- ==== Proof.RefOps.lean ====
/- The host operations of the reference program's @main, in program order, a module-local function's operations listed at
   its call over the call's buffers: all of them (ops), and the same list in two parts: the binning of the points up to the
   linear cell index (frontOps), and everything that follows (tailOps). -/
import proofs.«159783_j57397942944138_1_alg».proof.Proof.Gen.ReferenceIdeal
import Idealize.ShloMosaic.Lib.StableHlo.Run

noncomputable section

namespace Cert.ReferenceIdeal.Gen.Hand

open Idealize.ShloMosaic Idealize.SL.Sem

variable {F : FTy → Type} [FloatOps F]

/-- Every host operation of @main, in order (190 of them). -/
abbrev ops : List (HloOp τ sig (Elt F)) :=
  ( StableHlo.nullary main_cst (constant S3 .f32 0x3D4CCCCD#32)
  :: StableHlo.nullary main_cst_0 (fun i => FloatOps.ofBits .f32 (lit0 (S3.rowMajor i)))
  :: StableHlo.nullary main_c (fun i => lit1 (S3.rowMajor i))
  :: StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F))
  :: StableHlo.unary main_cst_0 main_v1 (broadcastInDim S1x3 ![1] bcast_S3_S1x3_1 : (⟨S3, .f32⟩ : BufTy).Contents (Elt F) → (⟨S1x3, .f32⟩ : BufTy).Contents (Elt F))
  :: StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F))
  :: StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F))
  :: StableHlo.unary main_cst main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F))
  :: StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F))
  :: StableHlo.unary main_v6 main_v7 (fptosi 32 : (⟨S4000000x3, .f32⟩ : BufTy).Contents (Elt F) → (⟨S4000000x3, .i32⟩ : BufTy).Contents (Elt F))
  :: StableHlo.nullary main_c_1 (constantI S_ 32 0#32)
  :: StableHlo.unary main_c_1 main_v8 (broadcastInDim S4000000x3 ![] bcast_S_S4000000x3 : (⟨S_, .i32⟩ : BufTy).Contents (Elt F) → (⟨S4000000x3, .i32⟩ : BufTy).Contents (Elt F))
  :: StableHlo.binary main_v7 main_v8 main_v9 (cmpi .sge : (⟨S4000000x3, .i32⟩ : BufTy).Contents (Elt F) → (⟨S4000000x3, .i32⟩ : BufTy).Contents (Elt F) → (⟨S4000000x3, .i1⟩ : BufTy).Contents (Elt F))
  :: StableHlo.unary main_c main_v10 (broadcastInDim S1x3 ![1] bcast_S3_S1x3_1 : (⟨S3, .i32⟩ : BufTy).Contents (Elt F) → (⟨S1x3, .i32⟩ : BufTy).Contents (Elt F))
  :: StableHlo.unary main_v10 main_v11 (broadcastInDim S4000000x3 ![0, 1] bcast_S1x3_S4000000x3_0_1 : (⟨S1x3, .i32⟩ : BufTy).Contents (Elt F) → (⟨S4000000x3, .i32⟩ : BufTy).Contents (Elt F))
  :: StableHlo.binary main_v7 main_v11 main_v12 (cmpi .slt : (⟨S4000000x3, .i32⟩ : BufTy).Contents (Elt F) → (⟨S4000000x3, .i32⟩ : BufTy).Contents (Elt F) → (⟨S4000000x3, .i1⟩ : BufTy).Contents (Elt F))
  :: StableHlo.binary main_v9 main_v12 main_v13 (andi : (⟨S4000000x3, .i1⟩ : BufTy).Contents (Elt F) → (⟨S4000000x3, .i1⟩ : BufTy).Contents (Elt F) → (⟨S4000000x3, .i1⟩ : BufTy).Contents (Elt F))
  :: StableHlo.nullary main_c_2 (constantI S_ 1 1#1)
  :: StableHlo.binary main_v13 main_c_2 main_v14 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F))
  :: StableHlo.unary main_v7 main_v15 ((extractStridedSlice S4000000x1 ![0, 0] · slices_S4000000x3_S4000000x1_0_0) : (⟨S4000000x3, .i32⟩ : BufTy).Contents (Elt F) → (⟨S4000000x1, .i32⟩ : BufTy).Contents (Elt F))
  :: StableHlo.reshape main_v15 main_v16 rfl shapeCasts_S4000000x1_S4000000
  :: StableHlo.unary main_v7 main_v17 ((extractStridedSlice S4000000x1 ![0, 1] · slices_S4000000x3_S4000000x1_0_1) : (⟨S4000000x3, .i32⟩ : BufTy).Contents (Elt F) → (⟨S4000000x1, .i32⟩ : BufTy).Contents (Elt F))
  :: StableHlo.reshape main_v17 main_v18 rfl shapeCasts_S4000000x1_S4000000
  :: StableHlo.nullary main_c_3 (constantI S_ 32 800#32)
  :: StableHlo.unary main_c_3 main_v19 (broadcastInDim S4000000 ![] bcast_S_S4000000 : (⟨S_, .i32⟩ : BufTy).Contents (Elt F) → (⟨S4000000, .i32⟩ : BufTy).Contents (Elt F))
  :: StableHlo.binary main_v18 main_v19 main_v20 (muli : (⟨S4000000, .i32⟩ : BufTy).Contents (Elt F) → (⟨S4000000, .i32⟩ : BufTy).Contents (Elt F) → (⟨S4000000, .i32⟩ : BufTy).Contents (Elt F))
  :: StableHlo.binary main_v16 main_v20 main_v21 (addi : (⟨S4000000, .i32⟩ : BufTy).Contents (Elt F) → (⟨S4000000, .i32⟩ : BufTy).Contents (Elt F) → (⟨S4000000, .i32⟩ : BufTy).Contents (Elt F))
  :: StableHlo.unary main_v7 main_v22 ((extractStridedSlice S4000000x1 ![0, 2] · slices_S4000000x3_S4000000x1_0_2) : (⟨S4000000x3, .i32⟩ : BufTy).Contents (Elt F) → (⟨S4000000x1, .i32⟩ : BufTy).Contents (Elt F))
  :: StableHlo.reshape main_v22 main_v23 rfl shapeCasts_S4000000x1_S4000000
  :: StableHlo.nullary main_c_4 (constantI S_ 32 800#32)
  :: StableHlo.unary main_c_4 main_v24 (broadcastInDim S4000000 ![] bcast_S_S4000000 : (⟨S_, .i32⟩ : BufTy).Contents (Elt F) → (⟨S4000000, .i32⟩ : BufTy).Contents (Elt F))
  :: StableHlo.binary main_v23 main_v24 main_v25 (muli : (⟨S4000000, .i32⟩ : BufTy).Contents (Elt F) → (⟨S4000000, .i32⟩ : BufTy).Contents (Elt F) → (⟨S4000000, .i32⟩ : BufTy).Contents (Elt F))
  :: StableHlo.nullary main_c_5 (constantI S_ 32 800#32)
  :: StableHlo.unary main_c_5 main_v26 (broadcastInDim S4000000 ![] bcast_S_S4000000 : (⟨S_, .i32⟩ : BufTy).Contents (Elt F) → (⟨S4000000, .i32⟩ : BufTy).Contents (Elt F))
  :: StableHlo.binary main_v25 main_v26 main_v27 (muli : (⟨S4000000, .i32⟩ : BufTy).Contents (Elt F) → (⟨S4000000, .i32⟩ : BufTy).Contents (Elt F) → (⟨S4000000, .i32⟩ : BufTy).Contents (Elt F))
  :: StableHlo.binary main_v21 main_v27 main_v28 (addi : (⟨S4000000, .i32⟩ : BufTy).Contents (Elt F) → (⟨S4000000, .i32⟩ : BufTy).Contents (Elt F) → (⟨S4000000, .i32⟩ : BufTy).Contents (Elt F))
  :: StableHlo.nullary main_c_6 (constantI S_ 32 800#32)
  :: StableHlo.nullary main_c_7 (constantI S_ 32 800#32)
  :: StableHlo.binary main_c_6 main_c_7 main_v29 (muli : (⟨S_, .i32⟩ : BufTy).Contents (Elt F) → (⟨S_, .i32⟩ : BufTy).Contents (Elt F) → (⟨S_, .i32⟩ : BufTy).Contents (Elt F))
  :: StableHlo.nullary main_c_8 (constantI S_ 32 160#32)
  :: StableHlo.binary main_v29 main_c_8 main_v30 (muli : (⟨S_, .i32⟩ : BufTy).Contents (Elt F) → (⟨S_, .i32⟩ : BufTy).Contents (Elt F) → (⟨S_, .i32⟩ : BufTy).Contents (Elt F))
  :: StableHlo.nullary main_c_9 (constantI S_ 32 1#32)
  :: StableHlo.binary main_v30 main_c_9 main_v31 (addi : (⟨S_, .i32⟩ : BufTy).Contents (Elt F) → (⟨S_, .i32⟩ : BufTy).Contents (Elt F) → (⟨S_, .i32⟩ : BufTy).Contents (Elt F))
  :: StableHlo.TRef.unary (.of main_v31 : StableHlo.TRef sig ⟨S_, .i32⟩) main_call0.v0 (broadcastInDim S4000000 ![] bcast_S_S4000000)
  :: StableHlo.TRef.ternary (.of main_v14 : StableHlo.TRef sig ⟨S4000000, .i1⟩) (.of main_v28 : StableHlo.TRef sig ⟨S4000000, .i32⟩) main_call0.v0 main_call0.v1 select
  :: StableHlo.TRef.nullary main_call1.v0 (iotaInDim S4000000 32 0)
  :: StableHlo.TRef.binary (.of main_v32 : StableHlo.TRef sig ⟨S4000000, .i32⟩) main_call1.v0 main_call1.v1_0 (fun x y => (Host.sort2 S4000000 0 comparator_i32_i32_d0 x y).1)
  :: StableHlo.TRef.binary (.of main_v32 : StableHlo.TRef sig ⟨S4000000, .i32⟩) main_call1.v0 main_call1.v1_1 (fun x y => (Host.sort2 S4000000 0 comparator_i32_i32_d0 x y).2)
  :: StableHlo.nullary main_c_10 (constantI S_ 32 0#32)
  :: StableHlo.unary main_c_10 main_v34 (broadcastInDim S4000000 ![] bcast_S_S4000000 : (⟨S_, .i32⟩ : BufTy).Contents (Elt F) → (⟨S4000000, .i32⟩ : BufTy).Contents (Elt F))
  :: StableHlo.binary main_v33 main_v34 main_v35 (cmpi .slt : (⟨S4000000, .i32⟩ : BufTy).Contents (Elt F) → (⟨S4000000, .i32⟩ : BufTy).Contents (Elt F) → (⟨S4000000, .i1⟩ : BufTy).Contents (Elt F))
  :: StableHlo.nullary main_c_11 (constantI S_ 32 4000000#32)
  :: StableHlo.unary main_c_11 main_v36 (broadcastInDim S4000000 ![] bcast_S_S4000000 : (⟨S_, .i32⟩ : BufTy).Contents (Elt F) → (⟨S4000000, .i32⟩ : BufTy).Contents (Elt F))
  :: StableHlo.binary main_v33 main_v36 main_v37 (addi : (⟨S4000000, .i32⟩ : BufTy).Contents (Elt F) → (⟨S4000000, .i32⟩ : BufTy).Contents (Elt F) → (⟨S4000000, .i32⟩ : BufTy).Contents (Elt F))
  :: StableHlo.ternary main_v35 main_v37 main_v33 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v38 main_v39 (broadcastInDim S4000000x1 ![0] bcast_S4000000_S4000000x1_0 : (⟨S4000000, .i32⟩ : BufTy).Contents (Elt F) → (⟨S4000000x1, .i32⟩ : BufTy).Contents (Elt F))
  :: StableHlo.binary main_v32 main_v39 main_v40 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F))
  :: StableHlo.nullary main_c_12 (constantI S_ 32 0#32)
  :: StableHlo.unary main_c_12 main_v41 (broadcastInDim S4000000 ![] bcast_S_S4000000 : (⟨S_, .i32⟩ : BufTy).Contents (Elt F) → (⟨S4000000, .i32⟩ : BufTy).Contents (Elt F))
  :: StableHlo.binary main_v33 main_v41 main_v42 (cmpi .slt : (⟨S4000000, .i32⟩ : BufTy).Contents (Elt F) → (⟨S4000000, .i32⟩ : BufTy).Contents (Elt F) → (⟨S4000000, .i1⟩ : BufTy).Contents (Elt F))
  :: StableHlo.nullary main_c_13 (constantI S_ 32 4000000#32)
  :: StableHlo.unary main_c_13 main_v43 (broadcastInDim S4000000 ![] bcast_S_S4000000 : (⟨S_, .i32⟩ : BufTy).Contents (Elt F) → (⟨S4000000, .i32⟩ : BufTy).Contents (Elt F))
  :: StableHlo.binary main_v33 main_v43 main_v44 (addi : (⟨S4000000, .i32⟩ : BufTy).Contents (Elt F) → (⟨S4000000, .i32⟩ : BufTy).Contents (Elt F) → (⟨S4000000, .i32⟩ : BufTy).Contents (Elt F))
  :: StableHlo.ternary main_v42 main_v44 main_v33 main_v45 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v45 main_v46 (broadcastInDim S4000000x1 ![0] bcast_S4000000_S4000000x1_0 : (⟨S4000000, .i32⟩ : BufTy).Contents (Elt F) → (⟨S4000000x1, .i32⟩ : BufTy).Contents (Elt F))
  :: StableHlo.binary main_arg0 main_v46 main_v47 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F))
  :: StableHlo.nullary main_c_14 (constantI S_ 32 0#32)
  :: StableHlo.unary main_c_14 main_v48 (broadcastInDim S4000000 ![] bcast_S_S4000000 : (⟨S_, .i32⟩ : BufTy).Contents (Elt F) → (⟨S4000000, .i32⟩ : BufTy).Contents (Elt F))
  :: StableHlo.binary main_v33 main_v48 main_v49 (cmpi .slt : (⟨S4000000, .i32⟩ : BufTy).Contents (Elt F) → (⟨S4000000, .i32⟩ : BufTy).Contents (Elt F) → (⟨S4000000, .i1⟩ : BufTy).Contents (Elt F))
  :: StableHlo.nullary main_c_15 (constantI S_ 32 4000000#32)
  :: StableHlo.unary main_c_15 main_v50 (broadcastInDim S4000000 ![] bcast_S_S4000000 : (⟨S_, .i32⟩ : BufTy).Contents (Elt F) → (⟨S4000000, .i32⟩ : BufTy).Contents (Elt F))
  :: StableHlo.binary main_v33 main_v50 main_v51 (addi : (⟨S4000000, .i32⟩ : BufTy).Contents (Elt F) → (⟨S4000000, .i32⟩ : BufTy).Contents (Elt F) → (⟨S4000000, .i32⟩ : BufTy).Contents (Elt F))
  :: StableHlo.ternary main_v49 main_v51 main_v33 main_v52 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v52 main_v53 (broadcastInDim S4000000x1 ![0] bcast_S4000000_S4000000x1_0 : (⟨S4000000, .i32⟩ : BufTy).Contents (Elt F) → (⟨S4000000x1, .i32⟩ : BufTy).Contents (Elt F))
  :: StableHlo.binary main_v7 main_v53 main_v54 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F))
  :: StableHlo.nullary main_c_16 (constantI S_ 32 0#32)
  :: StableHlo.unary main_c_16 main_v55 (broadcastInDim S4000000 ![] bcast_S_S4000000 : (⟨S_, .i32⟩ : BufTy).Contents (Elt F) → (⟨S4000000, .i32⟩ : BufTy).Contents (Elt F))
  :: StableHlo.binary main_v33 main_v55 main_v56 (cmpi .slt : (⟨S4000000, .i32⟩ : BufTy).Contents (Elt F) → (⟨S4000000, .i32⟩ : BufTy).Contents (Elt F) → (⟨S4000000, .i1⟩ : BufTy).Contents (Elt F))
  :: StableHlo.nullary main_c_17 (constantI S_ 32 4000000#32)
  :: StableHlo.unary main_c_17 main_v57 (broadcastInDim S4000000 ![] bcast_S_S4000000 : (⟨S_, .i32⟩ : BufTy).Contents (Elt F) → (⟨S4000000, .i32⟩ : BufTy).Contents (Elt F))
  :: StableHlo.binary main_v33 main_v57 main_v58 (addi : (⟨S4000000, .i32⟩ : BufTy).Contents (Elt F) → (⟨S4000000, .i32⟩ : BufTy).Contents (Elt F) → (⟨S4000000, .i32⟩ : BufTy).Contents (Elt F))
  :: StableHlo.ternary main_v56 main_v58 main_v33 main_v59 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v59 main_v60 (broadcastInDim S4000000x1 ![0] bcast_S4000000_S4000000x1_0 : (⟨S4000000, .i32⟩ : BufTy).Contents (Elt F) → (⟨S4000000x1, .i32⟩ : BufTy).Contents (Elt F))
  :: StableHlo.binary main_v14 main_v60 main_v61 ((fun x i => Host.gather gather_S4000000_S4000000x1_S4000000_n_0_n_n_0_1_1 x i) : (⟨S4000000, .i1⟩ : BufTy).Contents (Elt F) → (⟨S4000000x1, .i32⟩ : BufTy).Contents (Elt F) → (⟨S4000000, .i1⟩ : BufTy).Contents (Elt F))
  :: StableHlo.nullary main_v62 (iotaInDim S4000000 32 0)
  :: StableHlo.nullary main_c_18 (constantI S_ 32 0#32)
  :: StableHlo.unary main_c_18 main_v63 (broadcastInDim S4000000 ![] bcast_S_S4000000 : (⟨S_, .i32⟩ : BufTy).Contents (Elt F) → (⟨S4000000, .i32⟩ : BufTy).Contents (Elt F))
  :: StableHlo.binary main_v62 main_v63 main_v64 (cmpi .eq : (⟨S4000000, .i32⟩ : BufTy).Contents (Elt F) → (⟨S4000000, .i32⟩ : BufTy).Contents (Elt F) → (⟨S4000000, .i1⟩ : BufTy).Contents (Elt F))
  :: StableHlo.TRef.unary (.of main_v40 : StableHlo.TRef sig ⟨S4000000, .i32⟩) main_call2.v0 (extractStridedSlice S1 ![3999999] · slices_S4000000_S1_3999999)
  :: StableHlo.TRef.unary (.of main_v40 : StableHlo.TRef sig ⟨S4000000, .i32⟩) main_call2.v1 (extractStridedSlice S3999999 ![0] · slices_S4000000_S3999999_0)
  :: StableHlo.TRef.binary main_call2.v0 main_call2.v1 main_call2.v2 (fun a b => concatenate S4000000 0 [⟨S1, a⟩, ⟨S3999999, b⟩] concatenates_S1_S3999999_S4000000_d0)
  :: StableHlo.binary main_v40 main_v65 main_v66 (cmpi .ne : (⟨S4000000, .i32⟩ : BufTy).Contents (Elt F) → (⟨S4000000, .i32⟩ : BufTy).Contents (Elt F) → (⟨S4000000, .i1⟩ : BufTy).Contents (Elt F))
  :: StableHlo.binary main_v64 main_v66 main_v67 (ori : (⟨S4000000, .i1⟩ : BufTy).Contents (Elt F) → (⟨S4000000, .i1⟩ : BufTy).Contents (Elt F) → (⟨S4000000, .i1⟩ : BufTy).Contents (Elt F))
  :: StableHlo.binary main_v67 main_v61 main_v68 (andi : (⟨S4000000, .i1⟩ : BufTy).Contents (Elt F) → (⟨S4000000, .i1⟩ : BufTy).Contents (Elt F) → (⟨S4000000, .i1⟩ : BufTy).Contents (Elt F))
  :: StableHlo.unary main_v68 main_v69 ((extui 32 · natLt_1_32) : (⟨S4000000, .i1⟩ : BufTy).Contents (Elt F) → (⟨S4000000, .i32⟩ : BufTy).Contents (Elt F))
  :: StableHlo.TRef.nullary main_call3.call0.c (constantI S_ 32 0#32)
  :: StableHlo.TRef.unary main_call3.call0.c main_call3.call0.v0 (broadcastInDim S_ ![] bcast_S_S_)
  :: StableHlo.TRef.binary (.of main_v69 : StableHlo.TRef sig ⟨S4000000, .i32⟩) main_call3.call0.v0 main_call3.call0.v1 (fun x v => Host.reduceWindow IntOp.addi ![4000000] ![1] ![3999999] ![0] x v reduceWindows_S4000000_S4000000_w4000000s1p3999999_0 h_S_)
  :: StableHlo.nullary main_c_19 (constantI S_ 32 1#32)
  :: StableHlo.unary main_c_19 main_v71 (broadcastInDim S4000000 ![] bcast_S_S4000000 : (⟨S_, .i32⟩ : BufTy).Contents (Elt F) → (⟨S4000000, .i32⟩ : BufTy).Contents (Elt F))
  :: StableHlo.binary main_v70 main_v71 main_v72 (subi : (⟨S4000000, .i32⟩ : BufTy).Contents (Elt F) → (⟨S4000000, .i32⟩ : BufTy).Contents (Elt F) → (⟨S4000000, .i32⟩ : BufTy).Contents (Elt F))
  :: StableHlo.nullary main_c_20 (constantI S_ 32 0#32)
  :: StableHlo.TRef.unary (.of main_c_20 : StableHlo.TRef sig ⟨S_, .i32⟩) main_call4.v0 id
  :: StableHlo.TRef.unary main_call4.v0 main_call4.v1 (broadcastInDim S4000000 ![] bcast_S_S4000000)
  :: StableHlo.TRef.ternary (.of main_v68 : StableHlo.TRef sig ⟨S4000000, .i1⟩) (.of main_v62 : StableHlo.TRef sig ⟨S4000000, .i32⟩) main_call4.v1 main_call4.v2 select
  :: StableHlo.TRef.nullary main_call5.c (constantI S_ 32 2147483648#32)
  :: StableHlo.TRef.unary main_call5.c main_call5.v0 (broadcastInDim S_ ![] bcast_S_S_)
  :: StableHlo.TRef.binary (.of main_v73 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_)
  :: StableHlo.binary main_v62 main_v74 main_v75 (subi : (⟨S4000000, .i32⟩ : BufTy).Contents (Elt F) → (⟨S4000000, .i32⟩ : BufTy).Contents (Elt F) → (⟨S4000000, .i32⟩ : BufTy).Contents (Elt F))
  :: StableHlo.nullary main_c_21 (constantI S_ 32 0#32)
  :: StableHlo.unary main_c_21 main_v76 (broadcastInDim S4000000 ![] bcast_S_S4000000 : (⟨S_, .i32⟩ : BufTy).Contents (Elt F) → (⟨S4000000, .i32⟩ : BufTy).Contents (Elt F))
  :: StableHlo.binary main_v72 main_v76 main_v77 (cmpi .sge : (⟨S4000000, .i32⟩ : BufTy).Contents (Elt F) → (⟨S4000000, .i32⟩ : BufTy).Contents (Elt F) → (⟨S4000000, .i1⟩ : BufTy).Contents (Elt F))
  :: StableHlo.binary main_v61 main_v77 main_v78 (andi : (⟨S4000000, .i1⟩ : BufTy).Contents (Elt F) → (⟨S4000000, .i1⟩ : BufTy).Contents (Elt F) → (⟨S4000000, .i1⟩ : BufTy).Contents (Elt F))
  :: StableHlo.nullary main_c_22 (constantI S_ 32 60000#32)
  :: StableHlo.unary main_c_22 main_v79 (broadcastInDim S4000000 ![] bcast_S_S4000000 : (⟨S_, .i32⟩ : BufTy).Contents (Elt F) → (⟨S4000000, .i32⟩ : BufTy).Contents (Elt F))
  :: StableHlo.binary main_v72 main_v79 main_v80 (cmpi .slt : (⟨S4000000, .i32⟩ : BufTy).Contents (Elt F) → (⟨S4000000, .i32⟩ : BufTy).Contents (Elt F) → (⟨S4000000, .i1⟩ : BufTy).Contents (Elt F))
  :: StableHlo.binary main_v78 main_v80 main_v81 (andi : (⟨S4000000, .i1⟩ : BufTy).Contents (Elt F) → (⟨S4000000, .i1⟩ : BufTy).Contents (Elt F) → (⟨S4000000, .i1⟩ : BufTy).Contents (Elt F))
  :: StableHlo.nullary main_c_23 (constantI S_ 32 32#32)
  :: StableHlo.unary main_c_23 main_v82 (broadcastInDim S4000000 ![] bcast_S_S4000000 : (⟨S_, .i32⟩ : BufTy).Contents (Elt F) → (⟨S4000000, .i32⟩ : BufTy).Contents (Elt F))
  :: StableHlo.binary main_v75 main_v82 main_v83 (cmpi .slt : (⟨S4000000, .i32⟩ : BufTy).Contents (Elt F) → (⟨S4000000, .i32⟩ : BufTy).Contents (Elt F) → (⟨S4000000, .i1⟩ : BufTy).Contents (Elt F))
  :: StableHlo.binary main_v81 main_v83 main_v84 (andi : (⟨S4000000, .i1⟩ : BufTy).Contents (Elt F) → (⟨S4000000, .i1⟩ : BufTy).Contents (Elt F) → (⟨S4000000, .i1⟩ : BufTy).Contents (Elt F))
  :: StableHlo.nullary main_c_24 (constantI S_ 32 60000#32)
  :: StableHlo.TRef.unary (.of main_c_24 : StableHlo.TRef sig ⟨S_, .i32⟩) main_call6.v0 id
  :: StableHlo.TRef.unary main_call6.v0 main_call6.v1 (broadcastInDim S4000000 ![] bcast_S_S4000000)
  :: StableHlo.TRef.ternary (.of main_v84 : StableHlo.TRef sig ⟨S4000000, .i1⟩) (.of main_v72 : StableHlo.TRef sig ⟨S4000000, .i32⟩) main_call6.v1 main_call6.v2 select
  :: StableHlo.nullary main_c_25 (constantI S_ 32 0#32)
  :: StableHlo.TRef.unary (.of main_c_25 : StableHlo.TRef sig ⟨S_, .i32⟩) main_call7.v0 id
  :: StableHlo.TRef.unary main_call7.v0 main_call7.v1 (broadcastInDim S4000000 ![] bcast_S_S4000000)
  :: StableHlo.TRef.ternary (.of main_v84 : StableHlo.TRef sig ⟨S4000000, .i1⟩) (.of main_v75 : StableHlo.TRef sig ⟨S4000000, .i32⟩) main_call7.v1 main_call7.v2 select
  :: StableHlo.nullary main_cst_26 (constant S_ .f32 0x00000000#32)
  :: StableHlo.unary main_cst_26 main_v87 (broadcastInDim S60001x32x4 ![] bcast_S_S60001x32x4 : (⟨S_, .f32⟩ : BufTy).Contents (Elt F) → (⟨S60001x32x4, .f32⟩ : BufTy).Contents (Elt F))
  :: StableHlo.unary main_v84 main_v88 (broadcastInDim S4000000x1 ![0] bcast_S4000000_S4000000x1_0 : (⟨S4000000, .i1⟩ : BufTy).Contents (Elt F) → (⟨S4000000x1, .i1⟩ : BufTy).Contents (Elt F))
  :: StableHlo.nullary main_cst_27 (constant S_ .f32 0x00000000#32)
  :: StableHlo.TRef.unary (.of main_v88 : StableHlo.TRef sig ⟨S4000000x1, .i1⟩) main_call8.v0 (broadcastInDim S4000000x4 ![0, 1] bcast_S4000000x1_S4000000x4_0_1)
  :: StableHlo.TRef.unary (.of main_cst_27 : StableHlo.TRef sig ⟨S_, .f32⟩) main_call8.v1 (broadcastInDim S4000000x4 ![] bcast_S_S4000000x4)
  :: StableHlo.TRef.ternary main_call8.v0 (.of main_v47 : StableHlo.TRef sig ⟨S4000000x4, .f32⟩) main_call8.v1 main_call8.v2 select
  :: StableHlo.nullary main_c_28 (constantI S_ 32 0#32)
  :: StableHlo.unary main_c_28 main_v90 (broadcastInDim S4000000 ![] bcast_S_S4000000 : (⟨S_, .i32⟩ : BufTy).Contents (Elt F) → (⟨S4000000, .i32⟩ : BufTy).Contents (Elt F))
  :: StableHlo.binary main_v85 main_v90 main_v91 (cmpi .slt : (⟨S4000000, .i32⟩ : BufTy).Contents (Elt F) → (⟨S4000000, .i32⟩ : BufTy).Contents (Elt F) → (⟨S4000000, .i1⟩ : BufTy).Contents (Elt F))
  :: StableHlo.nullary main_c_29 (constantI S_ 32 60001#32)
  :: StableHlo.unary main_c_29 main_v92 (broadcastInDim S4000000 ![] bcast_S_S4000000 : (⟨S_, .i32⟩ : BufTy).Contents (Elt F) → (⟨S4000000, .i32⟩ : BufTy).Contents (Elt F))
  :: StableHlo.binary main_v85 main_v92 main_v93 (addi : (⟨S4000000, .i32⟩ : BufTy).Contents (Elt F) → (⟨S4000000, .i32⟩ : BufTy).Contents (Elt F) → (⟨S4000000, .i32⟩ : BufTy).Contents (Elt F))
  :: StableHlo.ternary main_v91 main_v93 main_v85 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.nullary main_c_30 (constantI S_ 32 0#32)
  :: StableHlo.unary main_c_30 main_v95 (broadcastInDim S4000000 ![] bcast_S_S4000000 : (⟨S_, .i32⟩ : BufTy).Contents (Elt F) → (⟨S4000000, .i32⟩ : BufTy).Contents (Elt F))
  :: StableHlo.binary main_v86 main_v95 main_v96 (cmpi .slt : (⟨S4000000, .i32⟩ : BufTy).Contents (Elt F) → (⟨S4000000, .i32⟩ : BufTy).Contents (Elt F) → (⟨S4000000, .i1⟩ : BufTy).Contents (Elt F))
  :: StableHlo.nullary main_c_31 (constantI S_ 32 32#32)
  :: StableHlo.unary main_c_31 main_v97 (broadcastInDim S4000000 ![] bcast_S_S4000000 : (⟨S_, .i32⟩ : BufTy).Contents (Elt F) → (⟨S4000000, .i32⟩ : BufTy).Contents (Elt F))
  :: StableHlo.binary main_v86 main_v97 main_v98 (addi : (⟨S4000000, .i32⟩ : BufTy).Contents (Elt F) → (⟨S4000000, .i32⟩ : BufTy).Contents (Elt F) → (⟨S4000000, .i32⟩ : BufTy).Contents (Elt F))
  :: StableHlo.ternary main_v96 main_v98 main_v86 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v94 main_v100 (broadcastInDim S4000000x1 ![0] bcast_S4000000_S4000000x1_0 : (⟨S4000000, .i32⟩ : BufTy).Contents (Elt F) → (⟨S4000000x1, .i32⟩ : BufTy).Contents (Elt F))
  :: StableHlo.unary main_v99 main_v101 (broadcastInDim S4000000x1 ![0] bcast_S4000000_S4000000x1_0 : (⟨S4000000, .i32⟩ : BufTy).Contents (Elt F) → (⟨S4000000x1, .i32⟩ : BufTy).Contents (Elt F))
  :: StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F))
  :: StableHlo.ternary main_v87 main_v102 main_v89 main_v103 ((fun x i u => Host.scatter scatter_S60001x32x4_S4000000x2_S4000000x4_1_01_01_1 (fun _ b => b) x i u) : (⟨S60001x32x4, .f32⟩ : BufTy).Contents (Elt F) → (⟨S4000000x2, .i32⟩ : BufTy).Contents (Elt F) → (⟨S4000000x4, .f32⟩ : BufTy).Contents (Elt F) → (⟨S60001x32x4, .f32⟩ : BufTy).Contents (Elt F))
  :: StableHlo.unary main_v103 main_v104 ((extractStridedSlice S60000x32x4 ![0, 0, 0] · slices_S60001x32x4_S60000x32x4_0_0_0) : (⟨S60001x32x4, .f32⟩ : BufTy).Contents (Elt F) → (⟨S60000x32x4, .f32⟩ : BufTy).Contents (Elt F))
  :: StableHlo.unary main_v104 main_v105 ((transpose S60000x4x32 [0, 2, 1] · transposes_S60000x32x4_S60000x4x32_0_2_1) : (⟨S60000x32x4, .f32⟩ : BufTy).Contents (Elt F) → (⟨S60000x4x32, .f32⟩ : BufTy).Contents (Elt F))
  :: StableHlo.nullary main_c_32 (constantI S_ 32 60000#32)
  :: StableHlo.TRef.unary (.of main_c_32 : StableHlo.TRef sig ⟨S_, .i32⟩) main_call9.v0 id
  :: StableHlo.TRef.unary main_call9.v0 main_call9.v1 (broadcastInDim S4000000 ![] bcast_S_S4000000)
  :: StableHlo.TRef.ternary (.of main_v81 : StableHlo.TRef sig ⟨S4000000, .i1⟩) (.of main_v72 : StableHlo.TRef sig ⟨S4000000, .i32⟩) main_call9.v1 main_call9.v2 select
  :: StableHlo.unary main_v81 main_v107 ((extui 32 · natLt_1_32) : (⟨S4000000, .i1⟩ : BufTy).Contents (Elt F) → (⟨S4000000, .i32⟩ : BufTy).Contents (Elt F))
  :: StableHlo.nullary main_c_33 (constantI S_ 32 0#32)
  :: StableHlo.unary main_c_33 main_v108 (broadcastInDim S60001 ![] bcast_S_S60001 : (⟨S_, .i32⟩ : BufTy).Contents (Elt F) → (⟨S60001, .i32⟩ : BufTy).Contents (Elt F))
  :: StableHlo.unary main_v106 main_v109 (broadcastInDim S4000000x1 ![0] bcast_S4000000_S4000000x1_0 : (⟨S4000000, .i32⟩ : BufTy).Contents (Elt F) → (⟨S4000000x1, .i32⟩ : BufTy).Contents (Elt F))
  :: StableHlo.ternary main_v108 main_v109 main_v107 main_v110 ((fun x i u => Host.scatter scatter_S60001_S4000000x1_S4000000_n_0_0_1 IntOp.addi x i u) : (⟨S60001, .i32⟩ : BufTy).Contents (Elt F) → (⟨S4000000x1, .i32⟩ : BufTy).Contents (Elt F) → (⟨S4000000, .i32⟩ : BufTy).Contents (Elt F) → (⟨S60001, .i32⟩ : BufTy).Contents (Elt F))
  :: StableHlo.unary main_v110 main_v111 ((extractStridedSlice S60000 ![0] · slices_S60001_S60000_0) : (⟨S60001, .i32⟩ : BufTy).Contents (Elt F) → (⟨S60000, .i32⟩ : BufTy).Contents (Elt F))
  :: StableHlo.nullary main_c_34 (constantI S_ 32 32#32)
  :: StableHlo.unary main_c_34 main_v112 (broadcastInDim S60000 ![] bcast_S_S60000 : (⟨S_, .i32⟩ : BufTy).Contents (Elt F) → (⟨S60000, .i32⟩ : BufTy).Contents (Elt F))
  :: StableHlo.binary main_v111 main_v112 main_v113 (minsi : (⟨S60000, .i32⟩ : BufTy).Contents (Elt F) → (⟨S60000, .i32⟩ : BufTy).Contents (Elt F) → (⟨S60000, .i32⟩ : BufTy).Contents (Elt F))
  :: StableHlo.nullary main_c_35 (constantI S_ 32 60000#32)
  :: StableHlo.unary main_c_35 main_v114 (broadcastInDim S4000000 ![] bcast_S_S4000000 : (⟨S_, .i32⟩ : BufTy).Contents (Elt F) → (⟨S4000000, .i32⟩ : BufTy).Contents (Elt F))
  :: StableHlo.binary main_v72 main_v114 main_v115 (cmpi .slt : (⟨S4000000, .i32⟩ : BufTy).Contents (Elt F) → (⟨S4000000, .i32⟩ : BufTy).Contents (Elt F) → (⟨S4000000, .i1⟩ : BufTy).Contents (Elt F))
  :: StableHlo.binary main_v68 main_v115 main_v116 (andi : (⟨S4000000, .i1⟩ : BufTy).Contents (Elt F) → (⟨S4000000, .i1⟩ : BufTy).Contents (Elt F) → (⟨S4000000, .i1⟩ : BufTy).Contents (Elt F))
  :: StableHlo.nullary main_c_36 (constantI S_ 32 60000#32)
  :: StableHlo.TRef.unary (.of main_c_36 : StableHlo.TRef sig ⟨S_, .i32⟩) main_call10.v0 id
  :: StableHlo.TRef.unary main_call10.v0 main_call10.v1 (broadcastInDim S4000000 ![] bcast_S_S4000000)
  :: StableHlo.TRef.ternary (.of main_v116 : StableHlo.TRef sig ⟨S4000000, .i1⟩) (.of main_v72 : StableHlo.TRef sig ⟨S4000000, .i32⟩) main_call10.v1 main_call10.v2 select
  :: StableHlo.nullary main_c_37 (constantI S_ 32 0#32)
  :: StableHlo.unary main_c_37 main_v118 (broadcastInDim S60001x3 ![] bcast_S_S60001x3 : (⟨S_, .i32⟩ : BufTy).Contents (Elt F) → (⟨S60001x3, .i32⟩ : BufTy).Contents (Elt F))
  :: StableHlo.nullary main_c_38 (constantI S_ 32 0#32)
  :: StableHlo.unary main_c_38 main_v119 (broadcastInDim S4000000 ![] bcast_S_S4000000 : (⟨S_, .i32⟩ : BufTy).Contents (Elt F) → (⟨S4000000, .i32⟩ : BufTy).Contents (Elt F))
  :: StableHlo.binary main_v117 main_v119 main_v120 (cmpi .slt : (⟨S4000000, .i32⟩ : BufTy).Contents (Elt F) → (⟨S4000000, .i32⟩ : BufTy).Contents (Elt F) → (⟨S4000000, .i1⟩ : BufTy).Contents (Elt F))
  :: StableHlo.nullary main_c_39 (constantI S_ 32 60001#32)
  :: StableHlo.unary main_c_39 main_v121 (broadcastInDim S4000000 ![] bcast_S_S4000000 : (⟨S_, .i32⟩ : BufTy).Contents (Elt F) → (⟨S4000000, .i32⟩ : BufTy).Contents (Elt F))
  :: StableHlo.binary main_v117 main_v121 main_v122 (addi : (⟨S4000000, .i32⟩ : BufTy).Contents (Elt F) → (⟨S4000000, .i32⟩ : BufTy).Contents (Elt F) → (⟨S4000000, .i32⟩ : BufTy).Contents (Elt F))
  :: StableHlo.ternary main_v120 main_v122 main_v117 main_v123 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v123 main_v124 (broadcastInDim S4000000x1 ![0] bcast_S4000000_S4000000x1_0 : (⟨S4000000, .i32⟩ : BufTy).Contents (Elt F) → (⟨S4000000x1, .i32⟩ : BufTy).Contents (Elt F))
  :: StableHlo.ternary main_v118 main_v124 main_v54 main_v125 ((fun x i u => Host.scatter scatter_S60001x3_S4000000x1_S4000000x3_1_0_0_1 (fun _ b => b) x i u) : (⟨S60001x3, .i32⟩ : BufTy).Contents (Elt F) → (⟨S4000000x1, .i32⟩ : BufTy).Contents (Elt F) → (⟨S4000000x3, .i32⟩ : BufTy).Contents (Elt F) → (⟨S60001x3, .i32⟩ : BufTy).Contents (Elt F))
  :: StableHlo.unary main_v125 main_v126 ((extractStridedSlice S60000x3 ![0, 0] · slices_S60001x3_S60000x3_0_0) : (⟨S60001x3, .i32⟩ : BufTy).Contents (Elt F) → (⟨S60000x3, .i32⟩ : BufTy).Contents (Elt F))
  :: [] )

/-- The first 46: from the points to their cells, the in-grid mask and the linear cell index. -/
abbrev frontOps : List (HloOp τ sig (Elt F)) :=
  ( StableHlo.nullary main_cst (constant S3 .f32 0x3D4CCCCD#32)
  :: StableHlo.nullary main_cst_0 (fun i => FloatOps.ofBits .f32 (lit0 (S3.rowMajor i)))
  :: StableHlo.nullary main_c (fun i => lit1 (S3.rowMajor i))
  :: StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F))
  :: StableHlo.unary main_cst_0 main_v1 (broadcastInDim S1x3 ![1] bcast_S3_S1x3_1 : (⟨S3, .f32⟩ : BufTy).Contents (Elt F) → (⟨S1x3, .f32⟩ : BufTy).Contents (Elt F))
  :: StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F))
  :: StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F))
  :: StableHlo.unary main_cst main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F))
  :: StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F))
  :: StableHlo.unary main_v6 main_v7 (fptosi 32 : (⟨S4000000x3, .f32⟩ : BufTy).Contents (Elt F) → (⟨S4000000x3, .i32⟩ : BufTy).Contents (Elt F))
  :: StableHlo.nullary main_c_1 (constantI S_ 32 0#32)
  :: StableHlo.unary main_c_1 main_v8 (broadcastInDim S4000000x3 ![] bcast_S_S4000000x3 : (⟨S_, .i32⟩ : BufTy).Contents (Elt F) → (⟨S4000000x3, .i32⟩ : BufTy).Contents (Elt F))
  :: StableHlo.binary main_v7 main_v8 main_v9 (cmpi .sge : (⟨S4000000x3, .i32⟩ : BufTy).Contents (Elt F) → (⟨S4000000x3, .i32⟩ : BufTy).Contents (Elt F) → (⟨S4000000x3, .i1⟩ : BufTy).Contents (Elt F))
  :: StableHlo.unary main_c main_v10 (broadcastInDim S1x3 ![1] bcast_S3_S1x3_1 : (⟨S3, .i32⟩ : BufTy).Contents (Elt F) → (⟨S1x3, .i32⟩ : BufTy).Contents (Elt F))
  :: StableHlo.unary main_v10 main_v11 (broadcastInDim S4000000x3 ![0, 1] bcast_S1x3_S4000000x3_0_1 : (⟨S1x3, .i32⟩ : BufTy).Contents (Elt F) → (⟨S4000000x3, .i32⟩ : BufTy).Contents (Elt F))
  :: StableHlo.binary main_v7 main_v11 main_v12 (cmpi .slt : (⟨S4000000x3, .i32⟩ : BufTy).Contents (Elt F) → (⟨S4000000x3, .i32⟩ : BufTy).Contents (Elt F) → (⟨S4000000x3, .i1⟩ : BufTy).Contents (Elt F))
  :: StableHlo.binary main_v9 main_v12 main_v13 (andi : (⟨S4000000x3, .i1⟩ : BufTy).Contents (Elt F) → (⟨S4000000x3, .i1⟩ : BufTy).Contents (Elt F) → (⟨S4000000x3, .i1⟩ : BufTy).Contents (Elt F))
  :: StableHlo.nullary main_c_2 (constantI S_ 1 1#1)
  :: StableHlo.binary main_v13 main_c_2 main_v14 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F))
  :: StableHlo.unary main_v7 main_v15 ((extractStridedSlice S4000000x1 ![0, 0] · slices_S4000000x3_S4000000x1_0_0) : (⟨S4000000x3, .i32⟩ : BufTy).Contents (Elt F) → (⟨S4000000x1, .i32⟩ : BufTy).Contents (Elt F))
  :: StableHlo.reshape main_v15 main_v16 rfl shapeCasts_S4000000x1_S4000000
  :: StableHlo.unary main_v7 main_v17 ((extractStridedSlice S4000000x1 ![0, 1] · slices_S4000000x3_S4000000x1_0_1) : (⟨S4000000x3, .i32⟩ : BufTy).Contents (Elt F) → (⟨S4000000x1, .i32⟩ : BufTy).Contents (Elt F))
  :: StableHlo.reshape main_v17 main_v18 rfl shapeCasts_S4000000x1_S4000000
  :: StableHlo.nullary main_c_3 (constantI S_ 32 800#32)
  :: StableHlo.unary main_c_3 main_v19 (broadcastInDim S4000000 ![] bcast_S_S4000000 : (⟨S_, .i32⟩ : BufTy).Contents (Elt F) → (⟨S4000000, .i32⟩ : BufTy).Contents (Elt F))
  :: StableHlo.binary main_v18 main_v19 main_v20 (muli : (⟨S4000000, .i32⟩ : BufTy).Contents (Elt F) → (⟨S4000000, .i32⟩ : BufTy).Contents (Elt F) → (⟨S4000000, .i32⟩ : BufTy).Contents (Elt F))
  :: StableHlo.binary main_v16 main_v20 main_v21 (addi : (⟨S4000000, .i32⟩ : BufTy).Contents (Elt F) → (⟨S4000000, .i32⟩ : BufTy).Contents (Elt F) → (⟨S4000000, .i32⟩ : BufTy).Contents (Elt F))
  :: StableHlo.unary main_v7 main_v22 ((extractStridedSlice S4000000x1 ![0, 2] · slices_S4000000x3_S4000000x1_0_2) : (⟨S4000000x3, .i32⟩ : BufTy).Contents (Elt F) → (⟨S4000000x1, .i32⟩ : BufTy).Contents (Elt F))
  :: StableHlo.reshape main_v22 main_v23 rfl shapeCasts_S4000000x1_S4000000
  :: StableHlo.nullary main_c_4 (constantI S_ 32 800#32)
  :: StableHlo.unary main_c_4 main_v24 (broadcastInDim S4000000 ![] bcast_S_S4000000 : (⟨S_, .i32⟩ : BufTy).Contents (Elt F) → (⟨S4000000, .i32⟩ : BufTy).Contents (Elt F))
  :: StableHlo.binary main_v23 main_v24 main_v25 (muli : (⟨S4000000, .i32⟩ : BufTy).Contents (Elt F) → (⟨S4000000, .i32⟩ : BufTy).Contents (Elt F) → (⟨S4000000, .i32⟩ : BufTy).Contents (Elt F))
  :: StableHlo.nullary main_c_5 (constantI S_ 32 800#32)
  :: StableHlo.unary main_c_5 main_v26 (broadcastInDim S4000000 ![] bcast_S_S4000000 : (⟨S_, .i32⟩ : BufTy).Contents (Elt F) → (⟨S4000000, .i32⟩ : BufTy).Contents (Elt F))
  :: StableHlo.binary main_v25 main_v26 main_v27 (muli : (⟨S4000000, .i32⟩ : BufTy).Contents (Elt F) → (⟨S4000000, .i32⟩ : BufTy).Contents (Elt F) → (⟨S4000000, .i32⟩ : BufTy).Contents (Elt F))
  :: StableHlo.binary main_v21 main_v27 main_v28 (addi : (⟨S4000000, .i32⟩ : BufTy).Contents (Elt F) → (⟨S4000000, .i32⟩ : BufTy).Contents (Elt F) → (⟨S4000000, .i32⟩ : BufTy).Contents (Elt F))
  :: StableHlo.nullary main_c_6 (constantI S_ 32 800#32)
  :: StableHlo.nullary main_c_7 (constantI S_ 32 800#32)
  :: StableHlo.binary main_c_6 main_c_7 main_v29 (muli : (⟨S_, .i32⟩ : BufTy).Contents (Elt F) → (⟨S_, .i32⟩ : BufTy).Contents (Elt F) → (⟨S_, .i32⟩ : BufTy).Contents (Elt F))
  :: StableHlo.nullary main_c_8 (constantI S_ 32 160#32)
  :: StableHlo.binary main_v29 main_c_8 main_v30 (muli : (⟨S_, .i32⟩ : BufTy).Contents (Elt F) → (⟨S_, .i32⟩ : BufTy).Contents (Elt F) → (⟨S_, .i32⟩ : BufTy).Contents (Elt F))
  :: StableHlo.nullary main_c_9 (constantI S_ 32 1#32)
  :: StableHlo.binary main_v30 main_c_9 main_v31 (addi : (⟨S_, .i32⟩ : BufTy).Contents (Elt F) → (⟨S_, .i32⟩ : BufTy).Contents (Elt F) → (⟨S_, .i32⟩ : BufTy).Contents (Elt F))
  :: StableHlo.TRef.unary (.of main_v31 : StableHlo.TRef sig ⟨S_, .i32⟩) main_call0.v0 (broadcastInDim S4000000 ![] bcast_S_S4000000)
  :: StableHlo.TRef.ternary (.of main_v14 : StableHlo.TRef sig ⟨S4000000, .i1⟩) (.of main_v28 : StableHlo.TRef sig ⟨S4000000, .i32⟩) main_call0.v0 main_call0.v1 select
  :: [] )

/-- The remaining 144: the sort by cell index and everything built on it. -/
abbrev tailOps : List (HloOp τ sig (Elt F)) :=
  ( StableHlo.TRef.nullary main_call1.v0 (iotaInDim S4000000 32 0)
  :: StableHlo.TRef.binary (.of main_v32 : StableHlo.TRef sig ⟨S4000000, .i32⟩) main_call1.v0 main_call1.v1_0 (fun x y => (Host.sort2 S4000000 0 comparator_i32_i32_d0 x y).1)
  :: StableHlo.TRef.binary (.of main_v32 : StableHlo.TRef sig ⟨S4000000, .i32⟩) main_call1.v0 main_call1.v1_1 (fun x y => (Host.sort2 S4000000 0 comparator_i32_i32_d0 x y).2)
  :: StableHlo.nullary main_c_10 (constantI S_ 32 0#32)
  :: StableHlo.unary main_c_10 main_v34 (broadcastInDim S4000000 ![] bcast_S_S4000000 : (⟨S_, .i32⟩ : BufTy).Contents (Elt F) → (⟨S4000000, .i32⟩ : BufTy).Contents (Elt F))
  :: StableHlo.binary main_v33 main_v34 main_v35 (cmpi .slt : (⟨S4000000, .i32⟩ : BufTy).Contents (Elt F) → (⟨S4000000, .i32⟩ : BufTy).Contents (Elt F) → (⟨S4000000, .i1⟩ : BufTy).Contents (Elt F))
  :: StableHlo.nullary main_c_11 (constantI S_ 32 4000000#32)
  :: StableHlo.unary main_c_11 main_v36 (broadcastInDim S4000000 ![] bcast_S_S4000000 : (⟨S_, .i32⟩ : BufTy).Contents (Elt F) → (⟨S4000000, .i32⟩ : BufTy).Contents (Elt F))
  :: StableHlo.binary main_v33 main_v36 main_v37 (addi : (⟨S4000000, .i32⟩ : BufTy).Contents (Elt F) → (⟨S4000000, .i32⟩ : BufTy).Contents (Elt F) → (⟨S4000000, .i32⟩ : BufTy).Contents (Elt F))
  :: StableHlo.ternary main_v35 main_v37 main_v33 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v38 main_v39 (broadcastInDim S4000000x1 ![0] bcast_S4000000_S4000000x1_0 : (⟨S4000000, .i32⟩ : BufTy).Contents (Elt F) → (⟨S4000000x1, .i32⟩ : BufTy).Contents (Elt F))
  :: StableHlo.binary main_v32 main_v39 main_v40 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F))
  :: StableHlo.nullary main_c_12 (constantI S_ 32 0#32)
  :: StableHlo.unary main_c_12 main_v41 (broadcastInDim S4000000 ![] bcast_S_S4000000 : (⟨S_, .i32⟩ : BufTy).Contents (Elt F) → (⟨S4000000, .i32⟩ : BufTy).Contents (Elt F))
  :: StableHlo.binary main_v33 main_v41 main_v42 (cmpi .slt : (⟨S4000000, .i32⟩ : BufTy).Contents (Elt F) → (⟨S4000000, .i32⟩ : BufTy).Contents (Elt F) → (⟨S4000000, .i1⟩ : BufTy).Contents (Elt F))
  :: StableHlo.nullary main_c_13 (constantI S_ 32 4000000#32)
  :: StableHlo.unary main_c_13 main_v43 (broadcastInDim S4000000 ![] bcast_S_S4000000 : (⟨S_, .i32⟩ : BufTy).Contents (Elt F) → (⟨S4000000, .i32⟩ : BufTy).Contents (Elt F))
  :: StableHlo.binary main_v33 main_v43 main_v44 (addi : (⟨S4000000, .i32⟩ : BufTy).Contents (Elt F) → (⟨S4000000, .i32⟩ : BufTy).Contents (Elt F) → (⟨S4000000, .i32⟩ : BufTy).Contents (Elt F))
  :: StableHlo.ternary main_v42 main_v44 main_v33 main_v45 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v45 main_v46 (broadcastInDim S4000000x1 ![0] bcast_S4000000_S4000000x1_0 : (⟨S4000000, .i32⟩ : BufTy).Contents (Elt F) → (⟨S4000000x1, .i32⟩ : BufTy).Contents (Elt F))
  :: StableHlo.binary main_arg0 main_v46 main_v47 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F))
  :: StableHlo.nullary main_c_14 (constantI S_ 32 0#32)
  :: StableHlo.unary main_c_14 main_v48 (broadcastInDim S4000000 ![] bcast_S_S4000000 : (⟨S_, .i32⟩ : BufTy).Contents (Elt F) → (⟨S4000000, .i32⟩ : BufTy).Contents (Elt F))
  :: StableHlo.binary main_v33 main_v48 main_v49 (cmpi .slt : (⟨S4000000, .i32⟩ : BufTy).Contents (Elt F) → (⟨S4000000, .i32⟩ : BufTy).Contents (Elt F) → (⟨S4000000, .i1⟩ : BufTy).Contents (Elt F))
  :: StableHlo.nullary main_c_15 (constantI S_ 32 4000000#32)
  :: StableHlo.unary main_c_15 main_v50 (broadcastInDim S4000000 ![] bcast_S_S4000000 : (⟨S_, .i32⟩ : BufTy).Contents (Elt F) → (⟨S4000000, .i32⟩ : BufTy).Contents (Elt F))
  :: StableHlo.binary main_v33 main_v50 main_v51 (addi : (⟨S4000000, .i32⟩ : BufTy).Contents (Elt F) → (⟨S4000000, .i32⟩ : BufTy).Contents (Elt F) → (⟨S4000000, .i32⟩ : BufTy).Contents (Elt F))
  :: StableHlo.ternary main_v49 main_v51 main_v33 main_v52 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v52 main_v53 (broadcastInDim S4000000x1 ![0] bcast_S4000000_S4000000x1_0 : (⟨S4000000, .i32⟩ : BufTy).Contents (Elt F) → (⟨S4000000x1, .i32⟩ : BufTy).Contents (Elt F))
  :: StableHlo.binary main_v7 main_v53 main_v54 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F))
  :: StableHlo.nullary main_c_16 (constantI S_ 32 0#32)
  :: StableHlo.unary main_c_16 main_v55 (broadcastInDim S4000000 ![] bcast_S_S4000000 : (⟨S_, .i32⟩ : BufTy).Contents (Elt F) → (⟨S4000000, .i32⟩ : BufTy).Contents (Elt F))
  :: StableHlo.binary main_v33 main_v55 main_v56 (cmpi .slt : (⟨S4000000, .i32⟩ : BufTy).Contents (Elt F) → (⟨S4000000, .i32⟩ : BufTy).Contents (Elt F) → (⟨S4000000, .i1⟩ : BufTy).Contents (Elt F))
  :: StableHlo.nullary main_c_17 (constantI S_ 32 4000000#32)
  :: StableHlo.unary main_c_17 main_v57 (broadcastInDim S4000000 ![] bcast_S_S4000000 : (⟨S_, .i32⟩ : BufTy).Contents (Elt F) → (⟨S4000000, .i32⟩ : BufTy).Contents (Elt F))
  :: StableHlo.binary main_v33 main_v57 main_v58 (addi : (⟨S4000000, .i32⟩ : BufTy).Contents (Elt F) → (⟨S4000000, .i32⟩ : BufTy).Contents (Elt F) → (⟨S4000000, .i32⟩ : BufTy).Contents (Elt F))
  :: StableHlo.ternary main_v56 main_v58 main_v33 main_v59 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v59 main_v60 (broadcastInDim S4000000x1 ![0] bcast_S4000000_S4000000x1_0 : (⟨S4000000, .i32⟩ : BufTy).Contents (Elt F) → (⟨S4000000x1, .i32⟩ : BufTy).Contents (Elt F))
  :: StableHlo.binary main_v14 main_v60 main_v61 ((fun x i => Host.gather gather_S4000000_S4000000x1_S4000000_n_0_n_n_0_1_1 x i) : (⟨S4000000, .i1⟩ : BufTy).Contents (Elt F) → (⟨S4000000x1, .i32⟩ : BufTy).Contents (Elt F) → (⟨S4000000, .i1⟩ : BufTy).Contents (Elt F))
  :: StableHlo.nullary main_v62 (iotaInDim S4000000 32 0)
  :: StableHlo.nullary main_c_18 (constantI S_ 32 0#32)
  :: StableHlo.unary main_c_18 main_v63 (broadcastInDim S4000000 ![] bcast_S_S4000000 : (⟨S_, .i32⟩ : BufTy).Contents (Elt F) → (⟨S4000000, .i32⟩ : BufTy).Contents (Elt F))
  :: StableHlo.binary main_v62 main_v63 main_v64 (cmpi .eq : (⟨S4000000, .i32⟩ : BufTy).Contents (Elt F) → (⟨S4000000, .i32⟩ : BufTy).Contents (Elt F) → (⟨S4000000, .i1⟩ : BufTy).Contents (Elt F))
  :: StableHlo.TRef.unary (.of main_v40 : StableHlo.TRef sig ⟨S4000000, .i32⟩) main_call2.v0 (extractStridedSlice S1 ![3999999] · slices_S4000000_S1_3999999)
  :: StableHlo.TRef.unary (.of main_v40 : StableHlo.TRef sig ⟨S4000000, .i32⟩) main_call2.v1 (extractStridedSlice S3999999 ![0] · slices_S4000000_S3999999_0)
  :: StableHlo.TRef.binary main_call2.v0 main_call2.v1 main_call2.v2 (fun a b => concatenate S4000000 0 [⟨S1, a⟩, ⟨S3999999, b⟩] concatenates_S1_S3999999_S4000000_d0)
  :: StableHlo.binary main_v40 main_v65 main_v66 (cmpi .ne : (⟨S4000000, .i32⟩ : BufTy).Contents (Elt F) → (⟨S4000000, .i32⟩ : BufTy).Contents (Elt F) → (⟨S4000000, .i1⟩ : BufTy).Contents (Elt F))
  :: StableHlo.binary main_v64 main_v66 main_v67 (ori : (⟨S4000000, .i1⟩ : BufTy).Contents (Elt F) → (⟨S4000000, .i1⟩ : BufTy).Contents (Elt F) → (⟨S4000000, .i1⟩ : BufTy).Contents (Elt F))
  :: StableHlo.binary main_v67 main_v61 main_v68 (andi : (⟨S4000000, .i1⟩ : BufTy).Contents (Elt F) → (⟨S4000000, .i1⟩ : BufTy).Contents (Elt F) → (⟨S4000000, .i1⟩ : BufTy).Contents (Elt F))
  :: StableHlo.unary main_v68 main_v69 ((extui 32 · natLt_1_32) : (⟨S4000000, .i1⟩ : BufTy).Contents (Elt F) → (⟨S4000000, .i32⟩ : BufTy).Contents (Elt F))
  :: StableHlo.TRef.nullary main_call3.call0.c (constantI S_ 32 0#32)
  :: StableHlo.TRef.unary main_call3.call0.c main_call3.call0.v0 (broadcastInDim S_ ![] bcast_S_S_)
  :: StableHlo.TRef.binary (.of main_v69 : StableHlo.TRef sig ⟨S4000000, .i32⟩) main_call3.call0.v0 main_call3.call0.v1 (fun x v => Host.reduceWindow IntOp.addi ![4000000] ![1] ![3999999] ![0] x v reduceWindows_S4000000_S4000000_w4000000s1p3999999_0 h_S_)
  :: StableHlo.nullary main_c_19 (constantI S_ 32 1#32)
  :: StableHlo.unary main_c_19 main_v71 (broadcastInDim S4000000 ![] bcast_S_S4000000 : (⟨S_, .i32⟩ : BufTy).Contents (Elt F) → (⟨S4000000, .i32⟩ : BufTy).Contents (Elt F))
  :: StableHlo.binary main_v70 main_v71 main_v72 (subi : (⟨S4000000, .i32⟩ : BufTy).Contents (Elt F) → (⟨S4000000, .i32⟩ : BufTy).Contents (Elt F) → (⟨S4000000, .i32⟩ : BufTy).Contents (Elt F))
  :: StableHlo.nullary main_c_20 (constantI S_ 32 0#32)
  :: StableHlo.TRef.unary (.of main_c_20 : StableHlo.TRef sig ⟨S_, .i32⟩) main_call4.v0 id
  :: StableHlo.TRef.unary main_call4.v0 main_call4.v1 (broadcastInDim S4000000 ![] bcast_S_S4000000)
  :: StableHlo.TRef.ternary (.of main_v68 : StableHlo.TRef sig ⟨S4000000, .i1⟩) (.of main_v62 : StableHlo.TRef sig ⟨S4000000, .i32⟩) main_call4.v1 main_call4.v2 select
  :: StableHlo.TRef.nullary main_call5.c (constantI S_ 32 2147483648#32)
  :: StableHlo.TRef.unary main_call5.c main_call5.v0 (broadcastInDim S_ ![] bcast_S_S_)
  :: StableHlo.TRef.binary (.of main_v73 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_)
  :: StableHlo.binary main_v62 main_v74 main_v75 (subi : (⟨S4000000, .i32⟩ : BufTy).Contents (Elt F) → (⟨S4000000, .i32⟩ : BufTy).Contents (Elt F) → (⟨S4000000, .i32⟩ : BufTy).Contents (Elt F))
  :: StableHlo.nullary main_c_21 (constantI S_ 32 0#32)
  :: StableHlo.unary main_c_21 main_v76 (broadcastInDim S4000000 ![] bcast_S_S4000000 : (⟨S_, .i32⟩ : BufTy).Contents (Elt F) → (⟨S4000000, .i32⟩ : BufTy).Contents (Elt F))
  :: StableHlo.binary main_v72 main_v76 main_v77 (cmpi .sge : (⟨S4000000, .i32⟩ : BufTy).Contents (Elt F) → (⟨S4000000, .i32⟩ : BufTy).Contents (Elt F) → (⟨S4000000, .i1⟩ : BufTy).Contents (Elt F))
  :: StableHlo.binary main_v61 main_v77 main_v78 (andi : (⟨S4000000, .i1⟩ : BufTy).Contents (Elt F) → (⟨S4000000, .i1⟩ : BufTy).Contents (Elt F) → (⟨S4000000, .i1⟩ : BufTy).Contents (Elt F))
  :: StableHlo.nullary main_c_22 (constantI S_ 32 60000#32)
  :: StableHlo.unary main_c_22 main_v79 (broadcastInDim S4000000 ![] bcast_S_S4000000 : (⟨S_, .i32⟩ : BufTy).Contents (Elt F) → (⟨S4000000, .i32⟩ : BufTy).Contents (Elt F))
  :: StableHlo.binary main_v72 main_v79 main_v80 (cmpi .slt : (⟨S4000000, .i32⟩ : BufTy).Contents (Elt F) → (⟨S4000000, .i32⟩ : BufTy).Contents (Elt F) → (⟨S4000000, .i1⟩ : BufTy).Contents (Elt F))
  :: StableHlo.binary main_v78 main_v80 main_v81 (andi : (⟨S4000000, .i1⟩ : BufTy).Contents (Elt F) → (⟨S4000000, .i1⟩ : BufTy).Contents (Elt F) → (⟨S4000000, .i1⟩ : BufTy).Contents (Elt F))
  :: StableHlo.nullary main_c_23 (constantI S_ 32 32#32)
  :: StableHlo.unary main_c_23 main_v82 (broadcastInDim S4000000 ![] bcast_S_S4000000 : (⟨S_, .i32⟩ : BufTy).Contents (Elt F) → (⟨S4000000, .i32⟩ : BufTy).Contents (Elt F))
  :: StableHlo.binary main_v75 main_v82 main_v83 (cmpi .slt : (⟨S4000000, .i32⟩ : BufTy).Contents (Elt F) → (⟨S4000000, .i32⟩ : BufTy).Contents (Elt F) → (⟨S4000000, .i1⟩ : BufTy).Contents (Elt F))
  :: StableHlo.binary main_v81 main_v83 main_v84 (andi : (⟨S4000000, .i1⟩ : BufTy).Contents (Elt F) → (⟨S4000000, .i1⟩ : BufTy).Contents (Elt F) → (⟨S4000000, .i1⟩ : BufTy).Contents (Elt F))
  :: StableHlo.nullary main_c_24 (constantI S_ 32 60000#32)
  :: StableHlo.TRef.unary (.of main_c_24 : StableHlo.TRef sig ⟨S_, .i32⟩) main_call6.v0 id
  :: StableHlo.TRef.unary main_call6.v0 main_call6.v1 (broadcastInDim S4000000 ![] bcast_S_S4000000)
  :: StableHlo.TRef.ternary (.of main_v84 : StableHlo.TRef sig ⟨S4000000, .i1⟩) (.of main_v72 : StableHlo.TRef sig ⟨S4000000, .i32⟩) main_call6.v1 main_call6.v2 select
  :: StableHlo.nullary main_c_25 (constantI S_ 32 0#32)
  :: StableHlo.TRef.unary (.of main_c_25 : StableHlo.TRef sig ⟨S_, .i32⟩) main_call7.v0 id
  :: StableHlo.TRef.unary main_call7.v0 main_call7.v1 (broadcastInDim S4000000 ![] bcast_S_S4000000)
  :: StableHlo.TRef.ternary (.of main_v84 : StableHlo.TRef sig ⟨S4000000, .i1⟩) (.of main_v75 : StableHlo.TRef sig ⟨S4000000, .i32⟩) main_call7.v1 main_call7.v2 select
  :: StableHlo.nullary main_cst_26 (constant S_ .f32 0x00000000#32)
  :: StableHlo.unary main_cst_26 main_v87 (broadcastInDim S60001x32x4 ![] bcast_S_S60001x32x4 : (⟨S_, .f32⟩ : BufTy).Contents (Elt F) → (⟨S60001x32x4, .f32⟩ : BufTy).Contents (Elt F))
  :: StableHlo.unary main_v84 main_v88 (broadcastInDim S4000000x1 ![0] bcast_S4000000_S4000000x1_0 : (⟨S4000000, .i1⟩ : BufTy).Contents (Elt F) → (⟨S4000000x1, .i1⟩ : BufTy).Contents (Elt F))
  :: StableHlo.nullary main_cst_27 (constant S_ .f32 0x00000000#32)
  :: StableHlo.TRef.unary (.of main_v88 : StableHlo.TRef sig ⟨S4000000x1, .i1⟩) main_call8.v0 (broadcastInDim S4000000x4 ![0, 1] bcast_S4000000x1_S4000000x4_0_1)
  :: StableHlo.TRef.unary (.of main_cst_27 : StableHlo.TRef sig ⟨S_, .f32⟩) main_call8.v1 (broadcastInDim S4000000x4 ![] bcast_S_S4000000x4)
  :: StableHlo.TRef.ternary main_call8.v0 (.of main_v47 : StableHlo.TRef sig ⟨S4000000x4, .f32⟩) main_call8.v1 main_call8.v2 select
  :: StableHlo.nullary main_c_28 (constantI S_ 32 0#32)
  :: StableHlo.unary main_c_28 main_v90 (broadcastInDim S4000000 ![] bcast_S_S4000000 : (⟨S_, .i32⟩ : BufTy).Contents (Elt F) → (⟨S4000000, .i32⟩ : BufTy).Contents (Elt F))
  :: StableHlo.binary main_v85 main_v90 main_v91 (cmpi .slt : (⟨S4000000, .i32⟩ : BufTy).Contents (Elt F) → (⟨S4000000, .i32⟩ : BufTy).Contents (Elt F) → (⟨S4000000, .i1⟩ : BufTy).Contents (Elt F))
  :: StableHlo.nullary main_c_29 (constantI S_ 32 60001#32)
  :: StableHlo.unary main_c_29 main_v92 (broadcastInDim S4000000 ![] bcast_S_S4000000 : (⟨S_, .i32⟩ : BufTy).Contents (Elt F) → (⟨S4000000, .i32⟩ : BufTy).Contents (Elt F))
  :: StableHlo.binary main_v85 main_v92 main_v93 (addi : (⟨S4000000, .i32⟩ : BufTy).Contents (Elt F) → (⟨S4000000, .i32⟩ : BufTy).Contents (Elt F) → (⟨S4000000, .i32⟩ : BufTy).Contents (Elt F))
  :: StableHlo.ternary main_v91 main_v93 main_v85 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.nullary main_c_30 (constantI S_ 32 0#32)
  :: StableHlo.unary main_c_30 main_v95 (broadcastInDim S4000000 ![] bcast_S_S4000000 : (⟨S_, .i32⟩ : BufTy).Contents (Elt F) → (⟨S4000000, .i32⟩ : BufTy).Contents (Elt F))
  :: StableHlo.binary main_v86 main_v95 main_v96 (cmpi .slt : (⟨S4000000, .i32⟩ : BufTy).Contents (Elt F) → (⟨S4000000, .i32⟩ : BufTy).Contents (Elt F) → (⟨S4000000, .i1⟩ : BufTy).Contents (Elt F))
  :: StableHlo.nullary main_c_31 (constantI S_ 32 32#32)
  :: StableHlo.unary main_c_31 main_v97 (broadcastInDim S4000000 ![] bcast_S_S4000000 : (⟨S_, .i32⟩ : BufTy).Contents (Elt F) → (⟨S4000000, .i32⟩ : BufTy).Contents (Elt F))
  :: StableHlo.binary main_v86 main_v97 main_v98 (addi : (⟨S4000000, .i32⟩ : BufTy).Contents (Elt F) → (⟨S4000000, .i32⟩ : BufTy).Contents (Elt F) → (⟨S4000000, .i32⟩ : BufTy).Contents (Elt F))
  :: StableHlo.ternary main_v96 main_v98 main_v86 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v94 main_v100 (broadcastInDim S4000000x1 ![0] bcast_S4000000_S4000000x1_0 : (⟨S4000000, .i32⟩ : BufTy).Contents (Elt F) → (⟨S4000000x1, .i32⟩ : BufTy).Contents (Elt F))
  :: StableHlo.unary main_v99 main_v101 (broadcastInDim S4000000x1 ![0] bcast_S4000000_S4000000x1_0 : (⟨S4000000, .i32⟩ : BufTy).Contents (Elt F) → (⟨S4000000x1, .i32⟩ : BufTy).Contents (Elt F))
  :: StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F))
  :: StableHlo.ternary main_v87 main_v102 main_v89 main_v103 ((fun x i u => Host.scatter scatter_S60001x32x4_S4000000x2_S4000000x4_1_01_01_1 (fun _ b => b) x i u) : (⟨S60001x32x4, .f32⟩ : BufTy).Contents (Elt F) → (⟨S4000000x2, .i32⟩ : BufTy).Contents (Elt F) → (⟨S4000000x4, .f32⟩ : BufTy).Contents (Elt F) → (⟨S60001x32x4, .f32⟩ : BufTy).Contents (Elt F))
  :: StableHlo.unary main_v103 main_v104 ((extractStridedSlice S60000x32x4 ![0, 0, 0] · slices_S60001x32x4_S60000x32x4_0_0_0) : (⟨S60001x32x4, .f32⟩ : BufTy).Contents (Elt F) → (⟨S60000x32x4, .f32⟩ : BufTy).Contents (Elt F))
  :: StableHlo.unary main_v104 main_v105 ((transpose S60000x4x32 [0, 2, 1] · transposes_S60000x32x4_S60000x4x32_0_2_1) : (⟨S60000x32x4, .f32⟩ : BufTy).Contents (Elt F) → (⟨S60000x4x32, .f32⟩ : BufTy).Contents (Elt F))
  :: StableHlo.nullary main_c_32 (constantI S_ 32 60000#32)
  :: StableHlo.TRef.unary (.of main_c_32 : StableHlo.TRef sig ⟨S_, .i32⟩) main_call9.v0 id
  :: StableHlo.TRef.unary main_call9.v0 main_call9.v1 (broadcastInDim S4000000 ![] bcast_S_S4000000)
  :: StableHlo.TRef.ternary (.of main_v81 : StableHlo.TRef sig ⟨S4000000, .i1⟩) (.of main_v72 : StableHlo.TRef sig ⟨S4000000, .i32⟩) main_call9.v1 main_call9.v2 select
  :: StableHlo.unary main_v81 main_v107 ((extui 32 · natLt_1_32) : (⟨S4000000, .i1⟩ : BufTy).Contents (Elt F) → (⟨S4000000, .i32⟩ : BufTy).Contents (Elt F))
  :: StableHlo.nullary main_c_33 (constantI S_ 32 0#32)
  :: StableHlo.unary main_c_33 main_v108 (broadcastInDim S60001 ![] bcast_S_S60001 : (⟨S_, .i32⟩ : BufTy).Contents (Elt F) → (⟨S60001, .i32⟩ : BufTy).Contents (Elt F))
  :: StableHlo.unary main_v106 main_v109 (broadcastInDim S4000000x1 ![0] bcast_S4000000_S4000000x1_0 : (⟨S4000000, .i32⟩ : BufTy).Contents (Elt F) → (⟨S4000000x1, .i32⟩ : BufTy).Contents (Elt F))
  :: StableHlo.ternary main_v108 main_v109 main_v107 main_v110 ((fun x i u => Host.scatter scatter_S60001_S4000000x1_S4000000_n_0_0_1 IntOp.addi x i u) : (⟨S60001, .i32⟩ : BufTy).Contents (Elt F) → (⟨S4000000x1, .i32⟩ : BufTy).Contents (Elt F) → (⟨S4000000, .i32⟩ : BufTy).Contents (Elt F) → (⟨S60001, .i32⟩ : BufTy).Contents (Elt F))
  :: StableHlo.unary main_v110 main_v111 ((extractStridedSlice S60000 ![0] · slices_S60001_S60000_0) : (⟨S60001, .i32⟩ : BufTy).Contents (Elt F) → (⟨S60000, .i32⟩ : BufTy).Contents (Elt F))
  :: StableHlo.nullary main_c_34 (constantI S_ 32 32#32)
  :: StableHlo.unary main_c_34 main_v112 (broadcastInDim S60000 ![] bcast_S_S60000 : (⟨S_, .i32⟩ : BufTy).Contents (Elt F) → (⟨S60000, .i32⟩ : BufTy).Contents (Elt F))
  :: StableHlo.binary main_v111 main_v112 main_v113 (minsi : (⟨S60000, .i32⟩ : BufTy).Contents (Elt F) → (⟨S60000, .i32⟩ : BufTy).Contents (Elt F) → (⟨S60000, .i32⟩ : BufTy).Contents (Elt F))
  :: StableHlo.nullary main_c_35 (constantI S_ 32 60000#32)
  :: StableHlo.unary main_c_35 main_v114 (broadcastInDim S4000000 ![] bcast_S_S4000000 : (⟨S_, .i32⟩ : BufTy).Contents (Elt F) → (⟨S4000000, .i32⟩ : BufTy).Contents (Elt F))
  :: StableHlo.binary main_v72 main_v114 main_v115 (cmpi .slt : (⟨S4000000, .i32⟩ : BufTy).Contents (Elt F) → (⟨S4000000, .i32⟩ : BufTy).Contents (Elt F) → (⟨S4000000, .i1⟩ : BufTy).Contents (Elt F))
  :: StableHlo.binary main_v68 main_v115 main_v116 (andi : (⟨S4000000, .i1⟩ : BufTy).Contents (Elt F) → (⟨S4000000, .i1⟩ : BufTy).Contents (Elt F) → (⟨S4000000, .i1⟩ : BufTy).Contents (Elt F))
  :: StableHlo.nullary main_c_36 (constantI S_ 32 60000#32)
  :: StableHlo.TRef.unary (.of main_c_36 : StableHlo.TRef sig ⟨S_, .i32⟩) main_call10.v0 id
  :: StableHlo.TRef.unary main_call10.v0 main_call10.v1 (broadcastInDim S4000000 ![] bcast_S_S4000000)
  :: StableHlo.TRef.ternary (.of main_v116 : StableHlo.TRef sig ⟨S4000000, .i1⟩) (.of main_v72 : StableHlo.TRef sig ⟨S4000000, .i32⟩) main_call10.v1 main_call10.v2 select
  :: StableHlo.nullary main_c_37 (constantI S_ 32 0#32)
  :: StableHlo.unary main_c_37 main_v118 (broadcastInDim S60001x3 ![] bcast_S_S60001x3 : (⟨S_, .i32⟩ : BufTy).Contents (Elt F) → (⟨S60001x3, .i32⟩ : BufTy).Contents (Elt F))
  :: StableHlo.nullary main_c_38 (constantI S_ 32 0#32)
  :: StableHlo.unary main_c_38 main_v119 (broadcastInDim S4000000 ![] bcast_S_S4000000 : (⟨S_, .i32⟩ : BufTy).Contents (Elt F) → (⟨S4000000, .i32⟩ : BufTy).Contents (Elt F))
  :: StableHlo.binary main_v117 main_v119 main_v120 (cmpi .slt : (⟨S4000000, .i32⟩ : BufTy).Contents (Elt F) → (⟨S4000000, .i32⟩ : BufTy).Contents (Elt F) → (⟨S4000000, .i1⟩ : BufTy).Contents (Elt F))
  :: StableHlo.nullary main_c_39 (constantI S_ 32 60001#32)
  :: StableHlo.unary main_c_39 main_v121 (broadcastInDim S4000000 ![] bcast_S_S4000000 : (⟨S_, .i32⟩ : BufTy).Contents (Elt F) → (⟨S4000000, .i32⟩ : BufTy).Contents (Elt F))
  :: StableHlo.binary main_v117 main_v121 main_v122 (addi : (⟨S4000000, .i32⟩ : BufTy).Contents (Elt F) → (⟨S4000000, .i32⟩ : BufTy).Contents (Elt F) → (⟨S4000000, .i32⟩ : BufTy).Contents (Elt F))
  :: StableHlo.ternary main_v120 main_v122 main_v117 main_v123 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v123 main_v124 (broadcastInDim S4000000x1 ![0] bcast_S4000000_S4000000x1_0 : (⟨S4000000, .i32⟩ : BufTy).Contents (Elt F) → (⟨S4000000x1, .i32⟩ : BufTy).Contents (Elt F))
  :: StableHlo.ternary main_v118 main_v124 main_v54 main_v125 ((fun x i u => Host.scatter scatter_S60001x3_S4000000x1_S4000000x3_1_0_0_1 (fun _ b => b) x i u) : (⟨S60001x3, .i32⟩ : BufTy).Contents (Elt F) → (⟨S4000000x1, .i32⟩ : BufTy).Contents (Elt F) → (⟨S4000000x3, .i32⟩ : BufTy).Contents (Elt F) → (⟨S60001x3, .i32⟩ : BufTy).Contents (Elt F))
  :: StableHlo.unary main_v125 main_v126 ((extractStridedSlice S60000x3 ![0, 0] · slices_S60001x3_S60000x3_0_0) : (⟨S60001x3, .i32⟩ : BufTy).Contents (Elt F) → (⟨S60000x3, .i32⟩ : BufTy).Contents (Elt F))
  :: [] )

end Cert.ReferenceIdeal.Gen.Hand

end
-- ==== Proof.RefRun.lean ====
/-
  The run of the reference program. @main is a straight line of host operations: its own statements in three windows
  run in order, and eleven calls of module-local functions, each call the callee's body over that call's buffers. With
  the windows and the functions' bodies unfolded and the sequencing reassociated, @main is `StableHlo.seq ops` for the
  list `ops` of its 190 operations in program order (RefOps.lean). So every weakly fair execution terminates with each
  TensorCore buffer at the fold `StableHlo.after ops` of the operations' results over the launch contents
  (`StableHlo.run_seq`), and the argument's buffer, which no operation writes, is left as the launch dealt it.
-/
import proofs.«159783_j57397942944138_1_alg».proof.Proof.RefOps
import Idealize.ShloMosaic.Lib.StableHlo.Run

noncomputable section

namespace Cert.ReferenceIdeal.Gen.Hand

open Idealize.ShloMosaic Idealize.SL.Sem Idealize.ShloMosaic.StableHlo

variable {F : FTy → Type} [FloatOps F]

/-- The line is its two parts, one after the other. -/
theorem ops_split : (ops : List (HloOp τ sig (Elt F))) = frontOps ++ tailOps := rfl

-- 190 binds reassociated: the rewrite under the chain recurses once per statement
set_option maxRecDepth 16384 in
set_option maxHeartbeats 8000000 in
/-- @main is that straight line: the three windows unfolded, the functions' definitions unfolded at their calls and the
    records at their fields, both sides are one chain of `hlo` steps once sequencing is reassociated (`bind_assoc`,
    `pure_bind`). -/
theorem main_eq (c : Dev nD) : main (F := F) c = StableHlo.seq ops := by
  simp only [main, main_part0, main_part1, main_part2, fn_where.body, fn_argsort.body, fn_roll_static.body,
    fn_cumsum.body, fn_cumsum_0.body, fn_where_1.body, fn_cummax.body, fn_where_2.body, seq, bind_assoc, pure_bind]

/-- The reference scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: the builders' facts, one per operation in order. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    binary_bufs_sub .., unary_bufs_sub .., unary_bufs_sub .., binary_bufs_sub .., unary_bufs_sub .., nullary_bufs_sub ..,
    unary_bufs_sub .., binary_bufs_sub .., unary_bufs_sub .., unary_bufs_sub .., binary_bufs_sub .., binary_bufs_sub ..,
    nullary_bufs_sub .., binary_bufs_sub .., unary_bufs_sub .., reshape_bufs_sub .., unary_bufs_sub .., reshape_bufs_sub ..,
    nullary_bufs_sub .., unary_bufs_sub .., binary_bufs_sub .., binary_bufs_sub .., unary_bufs_sub .., reshape_bufs_sub ..,
    nullary_bufs_sub .., unary_bufs_sub .., binary_bufs_sub .., nullary_bufs_sub .., unary_bufs_sub .., binary_bufs_sub ..,
    binary_bufs_sub .., nullary_bufs_sub .., nullary_bufs_sub .., binary_bufs_sub .., nullary_bufs_sub ..,
    binary_bufs_sub .., nullary_bufs_sub .., binary_bufs_sub .., unary_bufs_sub .., ternary_bufs_sub ..,
    nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., nullary_bufs_sub .., unary_bufs_sub ..,
    binary_bufs_sub .., unary_bufs_sub .., unary_bufs_sub .., binary_bufs_sub .., binary_bufs_sub .., binary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., unary_bufs_sub .., unary_bufs_sub .., nullary_bufs_sub .., unary_bufs_sub ..,
    unary_bufs_sub .., ternary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., binary_bufs_sub .., nullary_bufs_sub .., unary_bufs_sub .., unary_bufs_sub ..,
    ternary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    unary_bufs_sub ..⟩

/-- Every operation of the line determines its results (none allocates a buffer of contents not chosen). -/
theorem ops_fresh : (ops : List (HloOp τ sig (Elt F))).Forall fun op => op.fresh = ∅ := by
  repeat' (first | exact rfl | refine And.intro ?_ ?_)

/-- At the compiled mesh, for any float values, from any memory with zero counters: every weakly fair execution of
    @main terminates, and every final state has each TensorCore buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  run_seq scopedRefs_eq scopedSems_eq defs main (fun _ => ops) main_eq (fun _ => ops_sub) m ρ
    (fun _ => List.forall_iff_forall_mem.mp ops_fresh)

/-- A reference other than the one buffer an operation writes is not among its written buffers. -/
theorem not_mem_writes_of_ne {op : HloOp τ sig (Elt F)} {r y : Ref sig .tc}
    (hw : op.writes = {Proc.devRef .tc y}) (h : r ≠ y) : (Proc.devRef .tc r : DevRef τ sig) ∉ op.writes := by
  rw [hw, Finset.mem_singleton]; exact devRef_ne_of_ne h

/-- No operation of the line writes the argument's buffer: each writes its one result buffer, a different reference. -/
theorem arg0_not_written :
    (ops : List (HloOp τ sig (Elt F))).Forall fun op => (Proc.devRef .tc main_arg0 : DevRef τ sig) ∉ op.writes := by
  repeat' (first | exact not_mem_writes_of_ne rfl (by decide) | refine And.intro ?_ ?_)

/-- The argument's buffer holds after the line what it held before. -/
theorem arg0_kept (V : Valuation τ sig (Elt F)) :
    StableHlo.after ops V (Proc.devRef .tc main_arg0) = V (Proc.devRef .tc main_arg0) :=
  after_of_forall_not_mem ops V (List.forall_iff_forall_mem.mp arg0_not_written)

/-- The run leaves the argument as the launch dealt it. -/
theorem frame (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c main_arg0).trans (arg0_kept _)) (run m ρ)

end Cert.ReferenceIdeal.Gen.Hand

end
-- ==== Proof.Spec.lean ====
/-
  Binning points into a regular grid: the specification both programs are compared against.

  A point has three coordinates; on axis `a` the grid starts at `lo a` (−20, −20, −2) and has `extent a` (800, 800, 160)
  cells of width 0.05. The cell of a coordinate `x` is the float quotient `(x − lo a) / 0.05` converted to a 32-bit
  integer. A point is inside the grid when every cell `k` has `0 ≤ k < extent a` (signed); its linear cell index is
  `k₀ + 800·k₁ + 640000·k₂` (32-bit arithmetic), and a point outside the grid gets the sentinel `800·800·160 + 1`.
  Inside the grid the linear index is at most 102 399 999, so it is never the sentinel: whether a point is inside can
  be read back off its linear index.
-/
import Idealize.ShloMosaic.PureOps
import Idealize.ShloMosaic.Lib.ValueIdx

noncomputable section

namespace Cert.Voxel

open Idealize.ShloMosaic Idealize.ShloMosaic.ValueIdx

variable {F : FTy → Type} [FloatOps F]

/-- The number of points. -/
abbrev nPts : Nat := 4000000

/-- The grid's lower corner, per axis, as float words: −20, −20, −2. -/
def loWord : Fin 3 → BitVec 32
  | 0 => 0xC1A00000#32 | 1 => 0xC1A00000#32 | 2 => 0xC0000000#32

/-- The grid's extent in cells, per axis. -/
def extentWord : Fin 3 → BitVec 32
  | 0 => 800#32 | 1 => 800#32 | 2 => 160#32

/-- The cell of coordinate `x` on axis `a`: `(x − lo a) / 0.05` as a 32-bit integer. -/
def cell (a : Fin 3) (x : F .f32) : BitVec 32 :=
  FloatOps.fptosi 32 (FloatOps.divf (FloatOps.subf x (FloatOps.ofBits .f32 (loWord a))) (FloatOps.ofBits .f32 0x3D4CCCCD#32))

/-- `0 ≤ k < extent a`, signed. -/
def inside (a : Fin 3) (k : BitVec 32) : BitVec 1 :=
  IntOp.andi (IntOp.cmpi .sge k 0#32) (IntOp.cmpi .slt k (extentWord a))

/-- All three cells inside the grid. -/
def inGrid (k0 k1 k2 : BitVec 32) : BitVec 1 :=
  IntOp.andi (IntOp.andi (inside 0 k0) (inside 1 k1)) (inside 2 k2)

/-- The linear cell index `k₀ + 800·k₁ + 640000·k₂`. -/
def linWord (k0 k1 k2 : BitVec 32) : BitVec 32 :=
  IntOp.addi (IntOp.addi k0 (IntOp.muli k1 800#32)) (IntOp.muli k2 640000#32)

/-- The sentinel of a point outside the grid: one more than the number of cells. -/
def big : BitVec 32 := 102400001#32

/-- The linear cell index, or the sentinel outside the grid. -/
def binWord (k0 k1 k2 : BitVec 32) : BitVec 32 :=
  Scalar.select (inGrid k0 k1 k2) (linWord k0 k1 k2) big

/-! ## The arrays -/

/-- Cell `a` of point `p` of the array of points `x` (`[N, 4]`: three coordinates and an intensity). -/
def cellAt (x : (⟨2, ![nPts, 4]⟩ : Shape).Idx → F .f32) (p : Fin nPts) (a : Fin 3) : BitVec 32 :=
  cell a (x (ix2 p ⟨a.val, by omega⟩))

/-- Whether point `p` is inside the grid. -/
def validAt (x : (⟨2, ![nPts, 4]⟩ : Shape).Idx → F .f32) (p : Fin nPts) : BitVec 1 :=
  inGrid (cellAt x p 0) (cellAt x p 1) (cellAt x p 2)

/-- Point `p`'s linear cell index, the sentinel outside the grid. -/
def binAt (x : (⟨2, ![nPts, 4]⟩ : Shape).Idx → F .f32) (p : Fin nPts) : BitVec 32 :=
  binWord (cellAt x p 0) (cellAt x p 1) (cellAt x p 2)

/-- The `[N, 3]` array of cells. -/
def cellsOf (x : (⟨2, ![nPts, 4]⟩ : Shape).Idx → F .f32) : (⟨2, ![nPts, 3]⟩ : Shape).Idx → BitVec 32 :=
  fun i => cellAt x ⟨(i 0).val, idx2_lt0 i⟩ ⟨(i 1).val, idx2_lt1 i⟩

/-- The `[N, 1]` column of linear cell indices. -/
def binCol (x : (⟨2, ![nPts, 4]⟩ : Shape).Idx → F .f32) : (⟨2, ![nPts, 1]⟩ : Shape).Idx → BitVec 32 :=
  fun i => binAt x ⟨(i 0).val, idx2_lt0 i⟩

/-- The same as a vector `[N]`. -/
def binVec (x : (⟨2, ![nPts, 4]⟩ : Shape).Idx → F .f32) : (⟨1, ![nPts]⟩ : Shape).Idx → BitVec 32 :=
  fun i => binAt x ⟨(i 0).val, (i 0).isLt⟩

/-- The vector `[N]` of in-grid flags. -/
def validVec (x : (⟨2, ![nPts, 4]⟩ : Shape).Idx → F .f32) : (⟨1, ![nPts]⟩ : Shape).Idx → BitVec 1 :=
  fun i => validAt x ⟨(i 0).val, (i 0).isLt⟩

end Cert.Voxel

end
-- ==== Proof.KIValuePt.lean ====
/-
  The body's values read at one row of a block.

  The body's value for window 1 (`cells`) at row `r`, column `a` is the cell of the block's entry `(r, a)` on axis `a`;
  its value for window 2 (`linear`) at row `r` is the linear cell index of the three cells of row `r`, the sentinel
  outside the grid. The concatenation of the three cell columns is read at an index through the piece that holds it; the
  in-grid test is the same conjunction of six comparisons, associated differently.
-/
import proofs.«159783_j57397942944138_1_alg».proof.Proof.KIData
import proofs.«159783_j57397942944138_1_alg».proof.Proof.Spec
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx
open Idealize.SL.Sem
open Idealize.ShloMosaic.Pipeline (Dat)

variable {F : FTy → Type} [FloatOps F]

/-! ## The three cell columns -/

theorem pay3_apply (v : Vec F S200000x1 .f32) (j : S200000x1.Idx) : k0_pay3 v j = Cert.Voxel.cell 0 (v j) := rfl
theorem pay4_apply (v : Vec F S200000x1 .f32) (j : S200000x1.Idx) : k0_pay4 v j = Cert.Voxel.cell 1 (v j) := rfl
theorem pay5_apply (v : Vec F S200000x1 .f32) (j : S200000x1.Idx) : k0_pay5 v j = Cert.Voxel.cell 2 (v j) := rfl

/-- Column `k` of the block read at row `r` is the block's entry `(r, k)`. -/
theorem col0_apply (x0 : Vec F S200000x4 .f32) (r : Fin 200000) (z : Fin 1) :
    View.ld x0 col0 (ix2 r z) = x0 (ix2 r (0 : Fin 4)) := by
  show x0 (col0.idx (ix2 r z)) = _
  congr 1; funext a; apply Fin.ext
  match a with
  | ⟨0, _⟩ => show 0 + 1 * r.val = r.val; omega
  | ⟨1, _⟩ => show 0 + 1 * z.val = 0; omega
theorem col1_apply (x0 : Vec F S200000x4 .f32) (r : Fin 200000) (z : Fin 1) :
    View.ld x0 col1 (ix2 r z) = x0 (ix2 r (1 : Fin 4)) := by
  show x0 (col1.idx (ix2 r z)) = _
  congr 1; funext a; apply Fin.ext
  match a with
  | ⟨0, _⟩ => show 0 + 1 * r.val = r.val; omega
  | ⟨1, _⟩ => show 1 + 1 * z.val = 1; omega
theorem col2_apply (x0 : Vec F S200000x4 .f32) (r : Fin 200000) (z : Fin 1) :
    View.ld x0 col2 (ix2 r z) = x0 (ix2 r (2 : Fin 4)) := by
  show x0 (col2.idx (ix2 r z)) = _
  congr 1; funext a; apply Fin.ext
  match a with
  | ⟨0, _⟩ => show 0 + 1 * r.val = r.val; omega
  | ⟨1, _⟩ => show 2 + 1 * z.val = 2; omega

/-! ## Window 1: the cells -/

/-- The concatenation of three one-column vectors along the columns, read at row `r`, column `k`: the `k`-th vector at row `r`. -/
theorem cat3_apply (v0 v1 v2 : IVec S200000x1 32) (r : Fin 200000) :
    k0_pay2 v0 v1 v2 (ix2 r (0 : Fin 3)) = v0 (ix2 r (0 : Fin 1))
    ∧ k0_pay2 v0 v1 v2 (ix2 r (1 : Fin 3)) = v1 (ix2 r (0 : Fin 1))
    ∧ k0_pay2 v0 v1 v2 (ix2 r (2 : Fin 3)) = v2 (ix2 r (0 : Fin 1)) := by
  refine ⟨?_, ?_, ?_⟩
  · exact concatenate_apply_piece (t := S200000x3) 1 [⟨S200000x1, v0⟩, ⟨S200000x1, v1⟩, ⟨S200000x1, v2⟩] Cert.KernelIdeal.Gen.concatenates_S200000x1_S200000x1_S200000x1_S200000x3_d1 (ix2 r (0 : Fin 3))
      0 (by simp only [List.length_cons, List.length_nil]; omega) S200000x1 v0 rfl rfl 0 rfl (ix2 r (0 : Fin 1))
      (fun b hb => by match b with | ⟨0, _⟩ => rfl | ⟨1, _⟩ => exact absurd rfl hb) rfl
  · exact concatenate_apply_piece (t := S200000x3) 1 [⟨S200000x1, v0⟩, ⟨S200000x1, v1⟩, ⟨S200000x1, v2⟩] Cert.KernelIdeal.Gen.concatenates_S200000x1_S200000x1_S200000x1_S200000x3_d1 (ix2 r (1 : Fin 3))
      1 (by simp only [List.length_cons, List.length_nil]; omega) S200000x1 v1 rfl rfl 1 rfl (ix2 r (0 : Fin 1))
      (fun b hb => by match b with | ⟨0, _⟩ => rfl | ⟨1, _⟩ => exact absurd rfl hb) rfl
  · exact concatenate_apply_piece (t := S200000x3) 1 [⟨S200000x1, v0⟩, ⟨S200000x1, v1⟩, ⟨S200000x1, v2⟩] Cert.KernelIdeal.Gen.concatenates_S200000x1_S200000x1_S200000x1_S200000x3_d1 (ix2 r (2 : Fin 3))
      2 (by simp only [List.length_cons, List.length_nil]; omega) S200000x1 v2 rfl rfl 2 rfl (ix2 r (0 : Fin 1))
      (fun b hb => by match b with | ⟨0, _⟩ => rfl | ⟨1, _⟩ => exact absurd rfl hb) rfl

/-- THE CELLS AT A ROW: the body's value for window 1 at row `r`, column `a` is the cell on axis `a` of the block's entry `(r, a)`. -/
theorem cells_at (x0 : Vec F S200000x4 .f32) (r : Fin 200000) (a : Fin 3) :
    cells x0 (ix2 r a) = Cert.Voxel.cell a (x0 (ix2 r (⟨a.val, by omega⟩ : Fin 4))) := by
  unfold cells
  obtain ⟨h0, h1, h2⟩ := cat3_apply (k0_pay3 (View.ld x0 col0)) (k0_pay4 (View.ld x0 col1)) (k0_pay5 (View.ld x0 col2)) r
  match a with
  | ⟨0, _⟩ => exact h0.trans ((pay3_apply _ _).trans (congrArg (Cert.Voxel.cell 0) (col0_apply x0 r 0)))
  | ⟨1, _⟩ => exact h1.trans ((pay4_apply _ _).trans (congrArg (Cert.Voxel.cell 1) (col1_apply x0 r 0)))
  | ⟨2, _⟩ => exact h2.trans ((pay5_apply _ _).trans (congrArg (Cert.Voxel.cell 2) (col2_apply x0 r 0)))

/-! ## Window 2: the linear cell index -/

/-- The in-grid test as the body computes it: the six comparisons conjoined left to right. -/
theorem inGrid_assoc (a0 b0 a1 b1 a2 b2 : BitVec 1) :
    IntOp.andi (IntOp.andi (IntOp.andi (IntOp.andi (IntOp.andi a0 b0) a1) b1) a2) b2
      = IntOp.andi (IntOp.andi (IntOp.andi a0 b0) (IntOp.andi a1 b1)) (IntOp.andi a2 b2) := by
  revert a0 b0 a1 b1 a2 b2; decide

/-- THE LINEAR INDEX AT A ROW: the body's value for window 2 at row `r` is the linear cell index of row `r`'s three cells,
    the sentinel outside the grid. -/
theorem linear_at (x0 : Vec F S200000x4 .f32) (r : Fin 200000) (z : Fin 1) :
    linear x0 (ix2 r z) = Cert.Voxel.binWord (Cert.Voxel.cell 0 (x0 (ix2 r (0 : Fin 4)))) (Cert.Voxel.cell 1 (x0 (ix2 r (1 : Fin 4))))
      (Cert.Voxel.cell 2 (x0 (ix2 r (2 : Fin 4)))) := by
  show Scalar.select (IntOp.andi (IntOp.andi (IntOp.andi (IntOp.andi (IntOp.andi
        (IntOp.cmpi .sge (Cert.Voxel.cell 0 (View.ld x0 col0 (ix2 r z))) 0#32) (IntOp.cmpi .slt (Cert.Voxel.cell 0 (View.ld x0 col0 (ix2 r z))) 800#32))
        (IntOp.cmpi .sge (Cert.Voxel.cell 1 (View.ld x0 col1 (ix2 r z))) 0#32)) (IntOp.cmpi .slt (Cert.Voxel.cell 1 (View.ld x0 col1 (ix2 r z))) 800#32))
        (IntOp.cmpi .sge (Cert.Voxel.cell 2 (View.ld x0 col2 (ix2 r z))) 0#32)) (IntOp.cmpi .slt (Cert.Voxel.cell 2 (View.ld x0 col2 (ix2 r z))) 160#32))
      (IntOp.addi (IntOp.addi (Cert.Voxel.cell 0 (View.ld x0 col0 (ix2 r z))) (IntOp.muli (Cert.Voxel.cell 1 (View.ld x0 col1 (ix2 r z))) 800#32))
        (IntOp.muli (Cert.Voxel.cell 2 (View.ld x0 col2 (ix2 r z))) 640000#32))
      102400001#32 = _
  rw [col0_apply, col1_apply, col2_apply, inGrid_assoc]
  rfl

end Cert.KernelIdeal.Gen.Hand

end
-- ==== Proof.KIValue.lean ====
/-
  What the call leaves in its three arrays, as whole-array functions of the points.

  Block `t` of each window is rows `200000·t … 200000·t + 199999` of its array, over all its columns. The input window is
  never written back, so its array stays as the call found it. At point `t` the body leaves in window 1's buffer the
  cells of the rows of input block `t`, and in window 2's buffer their linear cell indices; entry `(r, a)` of input block
  `t` is the array's entry `(200000·t + r, a)`, so what point `t` writes back is block `t` of the array of all cells
  (`Cert.Voxel.cellsOf`), resp. of all linear indices (`Cert.Voxel.binCol`). Every row `p` lies in the block of point
  `p / 200000`, which is written back, so the blocks cover the arrays.
-/
import proofs.«159783_j57397942944138_1_alg».proof.Proof.KIValuePt

set_option maxRecDepth 16384

noncomputable section

namespace Cert.KernelIdeal.Gen.Hand

open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-! ## The body's values at an index of a block -/

/-- The cells at an index `j` of the block: the cell on axis `j 1` of the input block's entry `(j 0, j 1)`. -/
theorem cells_idx (x0 : Vec F S200000x4 .f32) (j : S200000x3.Idx) :
    cells x0 j = Cert.Voxel.cell ⟨(j 1).val, idx2_lt1 j⟩
      (x0 (ix2 (⟨(j 0).val, idx2_lt0 j⟩ : Fin 200000) (⟨(j 1).val, by have := idx2_lt1 j; omega⟩ : Fin 4))) := by
  have e : j = ix2 (⟨(j 0).val, idx2_lt0 j⟩ : Fin 200000) (⟨(j 1).val, idx2_lt1 j⟩ : Fin 3) := by
    funext a; match a with | ⟨0, _⟩ => rfl | ⟨1, _⟩ => rfl
  exact (congrArg (cells x0) e).trans (cells_at x0 ⟨(j 0).val, idx2_lt0 j⟩ ⟨(j 1).val, idx2_lt1 j⟩)

/-- The linear index at an index `j` of the block: that of the three cells of row `j 0` of the input block. -/
theorem linear_idx (x0 : Vec F S200000x4 .f32) (j : S200000x1.Idx) :
    linear x0 j = Cert.Voxel.binWord (Cert.Voxel.cell 0 (x0 (ix2 (⟨(j 0).val, idx2_lt0 j⟩ : Fin 200000) (0 : Fin 4))))
      (Cert.Voxel.cell 1 (x0 (ix2 (⟨(j 0).val, idx2_lt0 j⟩ : Fin 200000) (1 : Fin 4))))
      (Cert.Voxel.cell 2 (x0 (ix2 (⟨(j 0).val, idx2_lt0 j⟩ : Fin 200000) (2 : Fin 4)))) := by
  have e : j = ix2 (⟨(j 0).val, idx2_lt0 j⟩ : Fin 200000) (⟨(j 1).val, idx2_lt1 j⟩ : Fin 1) := by
    funext a; match a with | ⟨0, _⟩ => rfl | ⟨1, _⟩ => rfl
  exact (congrArg (linear x0) e).trans (linear_at x0 ⟨(j 0).val, idx2_lt0 j⟩ ⟨(j 1).val, idx2_lt1 j⟩)

/-! ## The windows' blocks -/

theorem hz : (![0, 0] : Fin 2 → Nat) = fun _ => 0 := funext fun a => by fin_cases a <;> rfl

/-- The printed index maps, decided over the grid: at point `t` every window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The cell of one axis of one coordinate, from equal axes and equal coordinates. -/
theorem cell_congr {a a' : Fin 3} {x x' : F .f32} (ha : a.val = a'.val) (hx : x = x') :
    Cert.Voxel.cell a x = Cert.Voxel.cell a' x' := by
  obtain rfl : a = a' := Fin.ext ha
  rw [hx]

/-- Entry `(r, k)` of input block `t` is the array's entry `(200000·t + r, k)`. -/
theorem iblk0_apply (c : Dev nD) (t : Fin cfg0.N) (r : Fin 200000) (k : Fin 4) (p : Fin 4000000) (k' : Fin 4)
    (hp : p.val = t.val * 200000 + r.val) (hk : k'.val = k.val) :
    iblk m c 0 t (ix2 r k) = V m c main_arg0 (ix2 p k') := by
  obtain ⟨e00, e01, -, -, -, -⟩ := idx_facts t
  show V m c main_arg0 (((cfg0.win 0).blk t).view.emb (ix2 r k)) = V m c main_arg0 (ix2 p k')
  refine congrArg (V m c main_arg0) (funext fun a => Fin.ext ?_)
  match a with
  | ⟨0, _⟩ => show win0_0.index t (0 : Fin 2) * 200000 + 1 * r.val = p.val; omega
  | ⟨1, _⟩ => show win0_0.index t (1 : Fin 2) * 4 + 1 * k.val = k'.val; omega

/-! ## Window 1 -/

/-- WHAT POINT `t` WRITES BACK to window 1's array is block `t` of the array of all cells. -/
theorem flushed1_eq (c : Dev nD) (t : Fin cfg0.N) :
    (dats m 0 c).flushed 1 t = ((cfg0.win 1).blk t).view.read (Elt F) (Cert.Voxel.cellsOf (V m c main_arg0)) := by
  show (cfg0.win 1).cut (grid0.coords t) ((dats m 0 c).after 1 t) = _
  rw [after0_1]
  unfold out0_1
  rw [View.canon_unit_zero hz]
  obtain ⟨-, -, e10, e11, -, -⟩ := idx_facts t
  funext j
  have hj0 : (j 0).val < 200000 := (j 0).isLt
  have hj1 : (j 1).val < 3 := (j 1).isLt
  have hN : t.val < 20 := lt_of_lt_of_eq t.isLt (show cfg0.N = 20 from N_0)
  show cells (iblk m c 0 t) j = Cert.Voxel.cellsOf (V m c main_arg0) (((cfg0.win 1).blk t).view.emb j)
  refine (cells_idx (iblk m c 0 t) j).trans ?_
  unfold Cert.Voxel.cellsOf Cert.Voxel.cellAt
  have h0 : ((((cfg0.win 1).blk t).view.emb j) 0).val = t.val * 200000 + (j 0).val := by
    show win0_1.index t (0 : Fin 2) * 200000 + 1 * (j 0).val = _; omega
  have h1 : ((((cfg0.win 1).blk t).view.emb j) 1).val = (j 1).val := by
    show win0_1.index t (1 : Fin 2) * 3 + 1 * (j 1).val = _; omega
  refine cell_congr h1.symm ?_
  exact iblk0_apply m c t ⟨(j 0).val, hj0⟩ ⟨(j 1).val, by omega⟩ _ _ h0 h1

/-- An index of window 1's array is in point `t`'s block iff each coordinate is in the block's range on its axis. -/
theorem mem_blk1 (t : Fin cfg0.N) (i : S4000000x3.Idx) :
    i ∈ ((cfg0.win 1).blk t).view.set ↔ ∀ a : Fin 2, win0_1.index t a * S200000x3.size a ≤ (i a).val ∧ (i a).val < win0_1.index t a * S200000x3.size a + S200000x3.size a := by
  show i ∈ ((View.whole main_v0_0).slice (win0_1.rect t)).set ↔ _
  rw [View.set_slice_whole, Rect.mem_set_unit]
  exact Iff.rfl

/-- Every index of window 1's array is in the block of a point that writes back: row `p` in that of point `p / 200000`. -/
theorem cover1 (i : S4000000x3.Idx) : ∃ t : Fin cfg0.N, (cfg0.win 1).flush t = true ∧ i ∈ ((cfg0.win 1).blk t).view.set := by
  have hi0 : (i 0).val < 4000000 := (i 0).isLt
  have hi1 : (i 1).val < 3 := (i 1).isLt
  refine ⟨⟨(i 0).val / 200000, lt_of_lt_of_eq (by omega : (i 0).val / 200000 < 20) N_0.symm⟩, flush0_1 _, ?_⟩
  rw [mem_blk1]
  obtain ⟨-, -, e10, e11, -, -⟩ := idx_facts ⟨(i 0).val / 200000, lt_of_lt_of_eq (by omega : (i 0).val / 200000 < 20) N_0.symm⟩
  intro a
  match a with
  | ⟨0, _⟩ => show win0_1.index _ (0 : Fin 2) * 200000 ≤ (i 0).val ∧ (i 0).val < win0_1.index _ (0 : Fin 2) * 200000 + 200000; rw [e10]; dsimp only; omega
  | ⟨1, _⟩ => show win0_1.index _ (1 : Fin 2) * 3 ≤ (i 1).val ∧ (i 1).val < win0_1.index _ (1 : Fin 2) * 3 + 3; rw [e11]; omega

/-! ## Window 2 -/

/-- WHAT POINT `t` WRITES BACK to window 2's array is block `t` of the column of all linear cell indices. -/
theorem flushed2_eq (c : Dev nD) (t : Fin cfg0.N) :
    (dats m 0 c).flushed 2 t = ((cfg0.win 2).blk t).view.read (Elt F) (Cert.Voxel.binCol (V m c main_arg0)) := by
  show (cfg0.win 2).cut (grid0.coords t) ((dats m 0 c).after 2 t) = _
  rw [after0_2]
  unfold out0_2
  rw [View.canon_unit_zero hz]
  obtain ⟨-, -, -, -, e20, e21⟩ := idx_facts t
  funext j
  have hj0 : (j 0).val < 200000 := (j 0).isLt
  have hj1 : (j 1).val < 1 := (j 1).isLt
  have hN : t.val < 20 := lt_of_lt_of_eq t.isLt (show cfg0.N = 20 from N_0)
  show linear (iblk m c 0 t) j = Cert.Voxel.binCol (V m c main_arg0) (((cfg0.win 2).blk t).view.emb j)
  refine (linear_idx (iblk m c 0 t) j).trans ?_
  unfold Cert.Voxel.binCol Cert.Voxel.binAt Cert.Voxel.cellAt
  have h0 : ((((cfg0.win 2).blk t).view.emb j) 0).val = t.val * 200000 + (j 0).val := by
    show win0_2.index t (0 : Fin 2) * 200000 + 1 * (j 0).val = _; omega
  have e : ∀ k : Fin 3, iblk m c 0 t (ix2 (⟨(j 0).val, hj0⟩ : Fin 200000) (⟨k.val, by omega⟩ : Fin 4))
      = V m c main_arg0 (ix2 (⟨((((cfg0.win 2).blk t).view.emb j) 0).val, idx2_lt0 _⟩ : Fin Cert.Voxel.nPts) (⟨k.val, by omega⟩ : Fin 4)) := fun k =>
    iblk0_apply m c t ⟨(j 0).val, hj0⟩ ⟨k.val, by omega⟩ ⟨_, idx2_lt0 _⟩ ⟨k.val, by omega⟩ h0 rfl
  exact congr (congr (congrArg Cert.Voxel.binWord (congrArg (Cert.Voxel.cell 0) (e 0))) (congrArg (Cert.Voxel.cell 1) (e 1)))
    (congrArg (Cert.Voxel.cell 2) (e 2))

/-- An index of window 2's array is in point `t`'s block iff each coordinate is in the block's range on its axis. -/
theorem mem_blk2 (t : Fin cfg0.N) (i : S4000000x1.Idx) :
    i ∈ ((cfg0.win 2).blk t).view.set ↔ ∀ a : Fin 2, win0_2.index t a * S200000x1.size a ≤ (i a).val ∧ (i a).val < win0_2.index t a * S200000x1.size a + S200000x1.size a := by
  show i ∈ ((View.whole main_v0_1).slice (win0_2.rect t)).set ↔ _
  rw [View.set_slice_whole, Rect.mem_set_unit]
  exact Iff.rfl

/-- Every index of window 2's array is in the block of a point that writes back: row `p` in that of point `p / 200000`. -/
theorem cover2 (i : S4000000x1.Idx) : ∃ t : Fin cfg0.N, (cfg0.win 2).flush t = true ∧ i ∈ ((cfg0.win 2).blk t).view.set := by
  have hi0 : (i 0).val < 4000000 := (i 0).isLt
  have hi1 : (i 1).val < 1 := (i 1).isLt
  refine ⟨⟨(i 0).val / 200000, lt_of_lt_of_eq (by omega : (i 0).val / 200000 < 20) N_0.symm⟩, flush0_2 _, ?_⟩
  rw [mem_blk2]
  obtain ⟨-, -, -, -, e20, e21⟩ := idx_facts ⟨(i 0).val / 200000, lt_of_lt_of_eq (by omega : (i 0).val / 200000 < 20) N_0.symm⟩
  intro a
  match a with
  | ⟨0, _⟩ => show win0_2.index _ (0 : Fin 2) * 200000 ≤ (i 0).val ∧ (i 0).val < win0_2.index _ (0 : Fin 2) * 200000 + 200000; rw [e20]; dsimp only; omega
  | ⟨1, _⟩ => show win0_2.index _ (1 : Fin 2) * 1 ≤ (i 1).val ∧ (i 1).val < win0_2.index _ (1 : Fin 2) * 1 + 1; rw [e21]; omega

/-! ## The three arrays after the call -/

/-- The input array is as the call found it: its window is never written back. -/
theorem final0 (c : Dev nD) : (dats m 0 c).arrAt 0 cfg0.N = V m c main_arg0 :=
  ((dats m 0 c).arrAt_in 0 rfl _).trans (A_eq m c 0)

/-- Window 1's array is the array of all cells of the points. -/
theorem final1 (c : Dev nD) : (dats m 0 c).arrAt 1 cfg0.N = Cert.Voxel.cellsOf (V m c main_arg0) :=
  (dats m 0 c).arrAt_eq_of_cover 1 (Cert.Voxel.cellsOf (V m c main_arg0)) (fun t _ => flushed1_eq m c t) cover1

/-- Window 2's array is the column of all linear cell indices of the points. -/
theorem final2 (c : Dev nD) : (dats m 0 c).arrAt 2 cfg0.N = Cert.Voxel.binCol (V m c main_arg0) :=
  (dats m 0 c).arrAt_eq_of_cover 2 (Cert.Voxel.binCol (V m c main_arg0)) (fun t _ => flushed2_eq m c t) cover2

end Cert.KernelIdeal.Gen.Hand

end
-- ==== Proof.SpecFacts.lean ====
/-
  Integer facts about the binning: inside the grid the linear cell index is below the sentinel, so comparing the
  binned index with the sentinel recovers the in-grid flag; and the two spellings of the linear index and of the
  sentinel that the programs use denote the same 32-bit words.
-/
import proofs.«159783_j57397942944138_1_alg».proof.Proof.Spec

noncomputable section

namespace Cert.Voxel

open Idealize.ShloMosaic

theorem bit_cases (b : BitVec 1) : b = 0#1 ∨ b = 1#1 := by
  rcases b with ⟨⟨v, hv⟩⟩
  have : v = 0 ∨ v = 1 := by omega
  rcases this with rfl | rfl
  · left; rfl
  · right; rfl

theorem andi_one_iff (a b : BitVec 1) : IntOp.andi a b = 1#1 ↔ a = 1#1 ∧ b = 1#1 := by
  rcases bit_cases a with rfl | rfl <;> rcases bit_cases b with rfl | rfl <;> decide

theorem sge_zero_iff (k : BitVec 32) : IntOp.cmpi .sge k 0#32 = 1#1 ↔ 0 ≤ k.toInt := by
  unfold IntOp.cmpi
  by_cases h : 0 ≤ k.toInt <;> simp [BitVec.sle, BitVec.ofBool, h]

theorem slt_iff (k e : BitVec 32) : IntOp.cmpi .slt k e = 1#1 ↔ k.toInt < e.toInt := by
  unfold IntOp.cmpi
  by_cases h : k.toInt < e.toInt <;> simp [BitVec.slt, BitVec.ofBool, h]

theorem inside_iff (a : Fin 3) (k : BitVec 32) : inside a k = 1#1 ↔ 0 ≤ k.toInt ∧ k.toInt < (extentWord a).toInt := by
  unfold inside
  rw [andi_one_iff, sge_zero_iff, slt_iff]

/-- A word that is non-negative and below `e` as a signed integer is below `e` as a natural number. -/
theorem toNat_lt_of_signed {k : BitVec 32} {e : Nat} (h0 : 0 ≤ k.toInt) (h1 : k.toInt < (e : Int)) : k.toNat < e := by
  rw [BitVec.toInt_eq_toNat_cond] at h0 h1
  have := k.isLt
  split_ifs at h0 h1 <;> omega

/-- The largest linear combination of cells inside the grid, 799 + 800·799 + 640000·159, is below the sentinel. -/
theorem lin_lt (a b c : Nat) (n0 : a < 800) (n1 : b < 800) (n2 : c < 160) : a + b * 800 + c * 640000 < 102400001 := by omega

/-- The linear index of three words whose natural-number linear combination fits in 32 bits is that combination. -/
theorem toNat_linWord (k0 k1 k2 : BitVec 32) (h : k0.toNat + k1.toNat * 800 + k2.toNat * 640000 < 4294967296) :
    (linWord k0 k1 k2).toNat = k0.toNat + k1.toNat * 800 + k2.toNat * 640000 := by
  have e800 : (800#32 : BitVec 32).toNat = 800 := rfl
  have e640 : (640000#32 : BitVec 32).toNat = 640000 := rfl
  have m1 : (k1 * 800#32).toNat = k1.toNat * 800 := by
    rw [BitVec.toNat_mul_of_lt (by rw [e800]; omega), e800]
  have m2 : (k2 * 640000#32).toNat = k2.toNat * 640000 := by
    rw [BitVec.toNat_mul_of_lt (by rw [e640]; omega), e640]
  have s1 : (k0 + k1 * 800#32).toNat = k0.toNat + k1.toNat * 800 := by
    rw [BitVec.toNat_add_of_lt (by rw [m1]; omega), m1]
  show ((k0 + k1 * 800#32) + k2 * 640000#32).toNat = _
  rw [BitVec.toNat_add_of_lt (by rw [s1, m2]; omega), s1, m2]

theorem toNat_big : big.toNat = 102400001 := rfl

/-- Inside the grid each cell, read as a natural number, is below its axis's extent. -/
theorem bounds_of_inGrid (k0 k1 k2 : BitVec 32) (h : inGrid k0 k1 k2 = 1#1) : k0.toNat < 800 ∧ k1.toNat < 800 ∧ k2.toNat < 160 := by
  unfold inGrid at h
  rw [andi_one_iff, andi_one_iff, inside_iff, inside_iff, inside_iff] at h
  obtain ⟨⟨⟨h0, h0'⟩, ⟨h1, h1'⟩⟩, ⟨h2, h2'⟩⟩ := h
  exact ⟨toNat_lt_of_signed h0 (by simpa [extentWord] using h0'), toNat_lt_of_signed h1 (by simpa [extentWord] using h1'),
    toNat_lt_of_signed h2 (by simpa [extentWord] using h2')⟩

/-- Inside the grid the linear cell index is not the sentinel: it is at most 799 + 800·799 + 640000·159. -/
theorem linWord_ne_big (k0 k1 k2 : BitVec 32) (h : inGrid k0 k1 k2 = 1#1) : linWord k0 k1 k2 ≠ big := by
  obtain ⟨n0, n1, n2⟩ := bounds_of_inGrid k0 k1 k2 h
  have a4 := lin_lt _ _ _ n0 n1 n2
  intro hc
  have hc' := congrArg BitVec.toNat hc
  rw [toNat_linWord k0 k1 k2 (lt_trans a4 (by norm_num)), toNat_big] at hc'
  exact absurd hc' (Nat.ne_of_lt a4)

/-- Comparing the binned index with the sentinel gives back the in-grid flag. -/
theorem bin_ne_big (k0 k1 k2 : BitVec 32) : IntOp.cmpi .ne (binWord k0 k1 k2) big = inGrid k0 k1 k2 := by
  unfold binWord
  rcases bit_cases (inGrid k0 k1 k2) with h | h
  · rw [h, ValueIdx.select_zero]
    unfold IntOp.cmpi; simp
  · rw [h, ValueIdx.select_one]
    unfold IntOp.cmpi
    have hb : (linWord k0 k1 k2 != big) = true := by simpa [bne_iff_ne] using linWord_ne_big k0 k1 k2 h
    rw [hb]; rfl

end Cert.Voxel

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KFront.lean ====
/-
  The first host operations after the call: the `[N, 1]` column of linear cell indices is reshaped to a vector `[N]`,
  and each entry is compared with the sentinel. Since the linear index of a point inside the grid is never the sentinel
  (SpecFacts), the comparison gives back the in-grid flag of every point.
-/
import proofs.«159783_j57397942944138_1_alg».proof.Proof.KIData
import proofs.«159783_j57397942944138_1_alg».proof.Proof.Spec
import proofs.«159783_j57397942944138_1_alg».proof.Proof.SpecFacts
import proofs.«159783_j57397942944138_1_alg».proof.Proof.LibLayout
import Idealize.ShloMosaic.Lib.StableHlo.Run
import Idealize.ShloMosaic.Lib.Pipeline.Value

noncomputable section

namespace Cert.KernelIdeal.Gen.Hand

open Idealize.ShloMosaic Idealize.ShloMosaic.ValueIdx Idealize.SL.Sem StableHlo
open Cert.Voxel

variable {F : FTy → Type} [FloatOps F]

/-- The column of linear indices read as a vector: entry `p` of the vector is row `p` of the column. -/
theorem binCol_cast (x : (⟨2, ![nPts, 4]⟩ : Shape).Idx → F .f32)
    (h : (⟨2, ![nPts, 1]⟩ : Shape).ShapeCasts ⟨1, ![nPts]⟩) :
    shapeCast ⟨1, ![nPts]⟩ (binCol x) h = binVec x := by
  funext i
  rw [shapeCast_apply (binCol x) h i (ix2 (i 0) ⟨0, by decide⟩) (by
    rw [Shape.rowMajor_val_two, Shape.rowMajor_val_one]
    show (i 0).val * 1 + 0 = (i 0).val
    omega)]
  rfl

/-- After the first stretch the vector of linear indices is the specification's. -/
theorem kfront_bin (W : Valuation τ sig (Elt F)) (x : (⟨2, ![nPts, 4]⟩ : Shape).Idx → F .f32)
    (h : W (Proc.devRef .tc main_v0_1) = binCol x) :
    StableHlo.after hostOps1 W (Proc.devRef .tc main_v1) = binVec x := by
  simp only [hostOps1]
  after_results_simp
  rw [h]
  exact binCol_cast x _

/-- After the first stretch the comparison with the sentinel is the in-grid flag. -/
theorem kfront_valid (W : Valuation τ sig (Elt F)) (x : (⟨2, ![nPts, 4]⟩ : Shape).Idx → F .f32)
    (h : W (Proc.devRef .tc main_v0_1) = binCol x) :
    StableHlo.after hostOps1 W (Proc.devRef .tc main_v3) = validVec x := by
  simp only [hostOps1]
  after_results_simp
  rw [h]
  have e : (fun i => shapeCast main_v1.ty.shape (binCol x) shapeCasts_S4000000x1_S4000000 i) = binVec x := binCol_cast x _
  rw [e]
  funext i
  show IntOp.cmpi .ne (binVec x i) (broadcastInDim S4000000 ![] bcast_S_S4000000 (constantI S_ 32 102400001#32) i) = validVec x i
  rw [Cert.LibLayout.broadcastInDim_scalar_apply]
  exact bin_ne_big _ _ _

/-- The first stretch writes neither the points nor the array of cells. -/
theorem kfront_arg0 (W : Valuation τ sig (Elt F)) :
    StableHlo.after hostOps1 W (Proc.devRef .tc main_arg0) = W (Proc.devRef .tc main_arg0) := by
  simp only [hostOps1]
  after_results_simp

theorem kfront_cells (W : Valuation τ sig (Elt F)) :
    StableHlo.after hostOps1 W (Proc.devRef .tc main_v0_0) = W (Proc.devRef .tc main_v0_0) := by
  simp only [hostOps1]
  after_results_simp

end Cert.KernelIdeal.Gen.Hand

end
-- ==== Proof.RefFront.lean ====
/-
  What the front of the reference's line computes. The first forty-six host operations of @main bin the points: from the
  `[N, 4]` array of points they compute the `[N, 3]` array of cells (the float quotient `(x − lo) / 0.05` of each
  coordinate, converted to a 32-bit integer), per point the flag "every cell inside the grid's extent" (a conjunction
  along the coordinate axis), the linear cell index `k₀ + k₁·800 + (k₂·800)·800`, the sentinel `(800·800)·160 + 1`,
  and the choice between the last two by the flag. Each is read at an index — slices, the two-step broadcasts of the
  literal tables, the unit-axis cast, the reduction over three entries — and is the specification's (Spec.lean):
  `cellsOf`, `validVec`, `binVec` of the points, the argument's buffer unchanged. Ideal float values throughout.
-/
import proofs.«159783_j57397942944138_1_alg».proof.Proof.RefOps
import proofs.«159783_j57397942944138_1_alg».proof.Proof.Spec
import proofs.«159783_j57397942944138_1_alg».proof.Proof.SpecFacts
import proofs.«159783_j57397942944138_1_alg».proof.Proof.LibLayout
import Idealize.ShloMosaic.PureOps.Ideal
import Idealize.ShloMosaic.Lib.ValueIdx
import Idealize.ShloMosaic.Lib.ValueLayout
import Idealize.ShloMosaic.Lib.StableHlo.Run

noncomputable section

namespace Cert.ReferenceIdeal.Gen.Hand

open Idealize.ShloMosaic Idealize.SL.Sem Idealize.ShloMosaic.StableHlo Idealize.ShloMosaic.ValueIdx Cert.LibLayout Cert.Voxel

/-! ## Reading the layout operations of the front at an index -/

/-- A fold over `Fin 3` of a commutative, associative `f`, spelled out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The row-major position in a `[3]` table of column `c` is `c`. -/
theorem rowMajor_S3 (c : Fin 3) : S3.rowMajor (ix1 c) = c := Fin.ext (Shape.rowMajor_val_one _)

/-- The table of lower corners at column `c`. -/
theorem lit0_read (c : Fin 3) : lit0 (S3.rowMajor (ix1 c)) = loWord c := by
  rw [rowMajor_S3]
  match c with
  | ⟨0, _⟩ => rfl
  | ⟨1, _⟩ => rfl
  | ⟨2, _⟩ => rfl

/-- The table of extents at column `c`. -/
theorem lit1_read (c : Fin 3) : lit1 (S3.rowMajor (ix1 c)) = extentWord c := by
  rw [rowMajor_S3]
  match c with
  | ⟨0, _⟩ => rfl
  | ⟨1, _⟩ => rfl
  | ⟨2, _⟩ => rfl

/-- A `[3]` table broadcast to `[1, 3]` and then to `[N, 3]` reads, at `(p, c)`, the table at `c`. -/
theorem table_read {α : Type} (T : S3.Idx → α) (p : Fin 4000000) (c : Fin 3) :
    broadcastInDim S4000000x3 ![0, 1] bcast_S1x3_S4000000x3_0_1 (broadcastInDim S1x3 ![1] bcast_S3_S1x3_1 T) (ix2 p c)
      = T (ix1 c) :=
  (broadcastInDim_1b_ab_apply _ _ p c).trans (broadcastInDim_b_1b_apply _ _ 0 c)

/-- Column `k` of an `[N, 3]` array, cut out as `[N, 1]` and cast to `[N]`, reads at `p` the array at `(p, k)`. -/
theorem col_read {α : Type} (K : S4000000x3.Idx → α) (o : Nat) (h : S4000000x3.Slices ![0, o] S4000000x1)
    (h' : S4000000x1.ShapeCasts S4000000) (p : Fin 4000000) (k : Fin 3) (hk : k.val = o) :
    shapeCast S4000000 (extractStridedSlice S4000000x1 ![0, o] K h) h' (ix1 p) = K (ix2 p k) := by
  rw [shapeCast_apply _ h' (ix1 p) (ix2 p (0 : Fin 1)) (by
    rw [Shape.rowMajor_val_two, Shape.rowMajor_val_one]
    show p.val * 1 + 0 = p.val
    omega)]
  exact slice2_axis1_apply o K h p 0 k (by rw [hk]; rfl)

/-! ## The cells -/

/-- The cells as the reference computes them from the points `X`. -/
abbrev cellsT (X : S4000000x4.Idx → Ideal .f32) : S4000000x3.Idx → BitVec 32 :=
  fptosi 32
    (Host.divf
      (subf (extractStridedSlice S4000000x3 ![0, 0] X slices_S4000000x4_S4000000x3_0_0)
        (broadcastInDim S4000000x3 ![0, 1] bcast_S1x3_S4000000x3_0_1
          (broadcastInDim S1x3 ![1] bcast_S3_S1x3_1 fun i => FloatOps.ofBits FTy.f32 (lit0 (S3.rowMajor i)))))
      (broadcastInDim S4000000x3 ![0, 1] bcast_S1x3_S4000000x3_0_1
        (broadcastInDim S1x3 ![1] bcast_S3_S1x3_1 (constant S3 FTy.f32 0x3D4CCCCD#32))))

/-- They are the specification's: at `(p, c)` the quotient `(x − lo c) / 0.05` of coordinate `c` of point `p`, converted. -/
theorem cells_read (X : S4000000x4.Idx → Ideal .f32) : cellsT X = cellsOf (F := Ideal) X := by
  funext i
  obtain ⟨p, c, rfl⟩ : ∃ (p : Fin 4000000) (c : Fin 3), i = ix2 p c := ⟨i 0, i 1, eq_ix2 i⟩
  show FloatOps.fptosi 32 (FloatOps.hostDivf
      (FloatOps.subf (extractStridedSlice S4000000x3 ![0, 0] X slices_S4000000x4_S4000000x3_0_0 (ix2 p c))
        (broadcastInDim S4000000x3 ![0, 1] bcast_S1x3_S4000000x3_0_1
          (broadcastInDim S1x3 ![1] bcast_S3_S1x3_1 fun i => FloatOps.ofBits FTy.f32 (lit0 (S3.rowMajor i))) (ix2 p c)))
      (broadcastInDim S4000000x3 ![0, 1] bcast_S1x3_S4000000x3_0_1
        (broadcastInDim S1x3 ![1] bcast_S3_S1x3_1 (constant S3 FTy.f32 0x3D4CCCCD#32)) (ix2 p c))) = _
  rw [table_read, table_read, lit0_read,
    slice2_axis1_apply 0 X slices_S4000000x4_S4000000x3_0_0 p c ⟨c.val, by omega⟩ (Nat.zero_add _).symm]
  rfl

/-! ## The in-grid flags -/

/-- The in-grid flags as the reference computes them from the cells `K`. -/
abbrev insideT (K : S4000000x3.Idx → BitVec 32) : S4000000x3.Idx → BitVec 1 :=
  andi (cmpi CmpIPredicate.sge K (broadcastInDim S4000000x3 ![] bcast_S_S4000000x3 (constantI S_ 32 0#32)))
    (cmpi CmpIPredicate.slt K
      (broadcastInDim S4000000x3 ![0, 1] bcast_S1x3_S4000000x3_0_1
        (broadcastInDim S1x3 ![1] bcast_S3_S1x3_1 fun i => lit1 (S3.rowMajor i))))

/-- At `(p, k)`: whether cell `k` of point `p` is inside the grid's extent on axis `k`. -/
theorem inside_read (K : S4000000x3.Idx → BitVec 32) (p : Fin 4000000) (k : Fin 3) :
    insideT K (ix2 p k) = inside k (K (ix2 p k)) := by
  show IntOp.andi
      (IntOp.cmpi .sge (K (ix2 p k)) (broadcastInDim S4000000x3 ![] bcast_S_S4000000x3 (constantI S_ 32 0#32) (ix2 p k)))
      (IntOp.cmpi .slt (K (ix2 p k))
        (broadcastInDim S4000000x3 ![0, 1] bcast_S1x3_S4000000x3_0_1
          (broadcastInDim S1x3 ![1] bcast_S3_S1x3_1 fun i => lit1 (S3.rowMajor i)) (ix2 p k))) = _
  rw [table_read, lit1_read, broadcastInDim_scalar_apply]
  rfl

/-- The conjunction along axis 1 of an `[N, 3]` array of bits, from the initial value `1`, at `p`: the three entries
    of row `p`. -/
theorem and_reduce_read (A : S4000000x3.Idx → BitVec 1) (p : Fin 4000000) :
    Host.reduce IntOp.andi A (constantI S_ 1 1#1) reducesTo_S4000000x3_S4000000_d1 h_S_ (ix1 p)
      = IntOp.andi (IntOp.andi (A (ix2 p 0)) (A (ix2 p 1))) (A (ix2 p 2)) := by
  have hR : S4000000x3.Reduces [1] S4000000 := by decide
  rw [Host.reduce_eq_fold_single IntOp.andi A _ reducesTo_S4000000x3_S4000000_d1 hR h_S_ (ix1 p)]
  refine (fold_univ_fin3 IntOp.andi _ _).trans ?_
  have hl : ∀ k : Fin 3, hR.lift (ix1 p) k = ix2 p k := fun k => by
    funext c
    apply Fin.ext
    match c with
    | ⟨0, _⟩ => rfl
    | ⟨1, _⟩ => rfl
  show IntOp.andi (A (hR.lift (ix1 p) (0 : Fin 3))) (IntOp.andi (A (hR.lift (ix1 p) (1 : Fin 3)))
    (IntOp.andi (A (hR.lift (ix1 p) (2 : Fin 3))) 1#1)) = _
  rw [hl, hl, hl]
  show A (ix2 p 0) &&& (A (ix2 p 1) &&& (A (ix2 p 2) &&& 1#1)) = (A (ix2 p 0) &&& A (ix2 p 1)) &&& A (ix2 p 2)
  rw [show (1#1 : BitVec 1) = BitVec.allOnes 1 from rfl, BitVec.and_allOnes, BitVec.and_assoc]

/-- The in-grid flag of every point as the reference computes it from the cells `K`. -/
abbrev validT (K : S4000000x3.Idx → BitVec 32) : S4000000.Idx → BitVec 1 :=
  Host.reduce IntOp.andi (insideT K) (constantI S_ 1 1#1) reducesTo_S4000000x3_S4000000_d1 h_S_

theorem valid_read (K : S4000000x3.Idx → BitVec 32) :
    validT K = fun i => inGrid (K (ix2 (i 0) 0)) (K (ix2 (i 0) 1)) (K (ix2 (i 0) 2)) := by
  funext i
  obtain ⟨p, rfl⟩ : ∃ p : Fin 4000000, i = ix1 p := ⟨i 0, eq_ix1 i⟩
  rw [validT, and_reduce_read, inside_read, inside_read, inside_read]
  rfl

/-! ## The linear cell index and the sentinel -/

/-- The linear cell index of every point as the reference computes it from the cells `K`. -/
abbrev linT (K : S4000000x3.Idx → BitVec 32) : S4000000.Idx → BitVec 32 :=
  addi
    (addi
      (fun i => shapeCast S4000000 (extractStridedSlice S4000000x1 ![0, 0] K slices_S4000000x3_S4000000x1_0_0)
        shapeCasts_S4000000x1_S4000000 i)
      (muli
        (fun i => shapeCast S4000000 (extractStridedSlice S4000000x1 ![0, 1] K slices_S4000000x3_S4000000x1_0_1)
          shapeCasts_S4000000x1_S4000000 i)
        (broadcastInDim S4000000 ![] bcast_S_S4000000 (constantI S_ 32 800#32))))
    (muli
      (muli
        (fun i => shapeCast S4000000 (extractStridedSlice S4000000x1 ![0, 2] K slices_S4000000x3_S4000000x1_0_2)
          shapeCasts_S4000000x1_S4000000 i)
        (broadcastInDim S4000000 ![] bcast_S_S4000000 (constantI S_ 32 800#32)))
      (broadcastInDim S4000000 ![] bcast_S_S4000000 (constantI S_ 32 800#32)))

/-- `k₀ + k₁·800 + (k₂·800)·800` is the specification's `k₀ + 800·k₁ + 640000·k₂`. -/
theorem lin_read (K : S4000000x3.Idx → BitVec 32) :
    linT K = fun i => linWord (K (ix2 (i 0) 0)) (K (ix2 (i 0) 1)) (K (ix2 (i 0) 2)) := by
  funext i
  obtain ⟨p, rfl⟩ : ∃ p : Fin 4000000, i = ix1 p := ⟨i 0, eq_ix1 i⟩
  show IntOp.addi
      (IntOp.addi
        (shapeCast S4000000 (extractStridedSlice S4000000x1 ![0, 0] K slices_S4000000x3_S4000000x1_0_0)
          shapeCasts_S4000000x1_S4000000 (ix1 p))
        (IntOp.muli
          (shapeCast S4000000 (extractStridedSlice S4000000x1 ![0, 1] K slices_S4000000x3_S4000000x1_0_1)
            shapeCasts_S4000000x1_S4000000 (ix1 p))
          (broadcastInDim S4000000 ![] bcast_S_S4000000 (constantI S_ 32 800#32) (ix1 p))))
      (IntOp.muli
        (IntOp.muli
          (shapeCast S4000000 (extractStridedSlice S4000000x1 ![0, 2] K slices_S4000000x3_S4000000x1_0_2)
            shapeCasts_S4000000x1_S4000000 (ix1 p))
          (broadcastInDim S4000000 ![] bcast_S_S4000000 (constantI S_ 32 800#32) (ix1 p)))
        (broadcastInDim S4000000 ![] bcast_S_S4000000 (constantI S_ 32 800#32) (ix1 p))) = _
  rw [col_read K 0 _ _ p 0 rfl, col_read K 1 _ _ p 1 rfl, col_read K 2 _ _ p 2 rfl, broadcastInDim_scalar_apply]
  show K (ix2 p 0) + K (ix2 p 1) * 800#32 + K (ix2 p 2) * 800#32 * 800#32
    = K (ix2 p 0) + K (ix2 p 1) * 800#32 + K (ix2 p 2) * 640000#32
  rw [BitVec.mul_assoc]
  rfl

/-- The sentinel as the reference computes it: `(800·800)·160 + 1`. -/
abbrev bigT : S_.Idx → BitVec 32 :=
  addi (muli (muli (constantI S_ 32 800#32) (constantI S_ 32 800#32)) (constantI S_ 32 160#32)) (constantI S_ 32 1#32)

theorem big_read (j : S_.Idx) : bigT j = big := by
  show ((800#32 * 800#32) * 160#32 + 1#32 : BitVec 32) = 102400001#32
  decide

/-- The binned index of every point as the reference computes it from the cells `K`: the linear index where the
    point is inside the grid, the sentinel elsewhere. -/
theorem bin_read (K : S4000000x3.Idx → BitVec 32) :
    select (validT K) (linT K) (broadcastInDim S4000000 ![] bcast_S_S4000000 bigT)
      = fun i => binWord (K (ix2 (i 0) 0)) (K (ix2 (i 0) 1)) (K (ix2 (i 0) 2)) := by
  funext i
  rw [select_apply, valid_read, lin_read, broadcastInDim_scalar_apply, big_read]
  rfl

/-! ## The front of the line -/

/-- The fold over a concatenation: the second line from what the first leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The front's last two operations: the sentinel broadcast over the points, and the choice between the linear
    index and it by the in-grid flag. -/
abbrev whereOps : List (HloOp τ sig (Elt Ideal)) :=
  [ StableHlo.TRef.unary (.of main_v31 : StableHlo.TRef sig ⟨S_, .i32⟩) main_call0.v0 (broadcastInDim S4000000 ![] bcast_S_S4000000),
    StableHlo.TRef.ternary (.of main_v14 : StableHlo.TRef sig ⟨S4000000, .i1⟩) (.of main_v28 : StableHlo.TRef sig ⟨S4000000, .i32⟩)
      main_call0.v0 main_call0.v1 select ]

/-- The front is its first forty-four operations and then those two. -/
theorem frontOps_split : (frontOps : List (HloOp τ sig (Elt Ideal))) = frontOps.take 44 ++ whereOps := rfl

/-- The two operations leave every buffer other than their two results as it was. -/
theorem where_keep (W : Valuation τ sig (Elt Ideal)) {r : Ref sig .tc} (h1 : r ≠ main_call0_v0) (h2 : r ≠ main_v32) :
    after whereOps W (Proc.devRef .tc r) = W (Proc.devRef .tc r) := by
  simp only [after_cons, after_nil]
  rw [ternary_result_ne _ _ _ _ _ _ _ _ _ _ h2, unary_result_ne _ _ _ _ _ _ h1]

/-- What the two operations leave in the binned indices' buffer. -/
theorem where_bin (W : Valuation τ sig (Elt Ideal)) :
    after whereOps W (Proc.devRef .tc main_v32)
      = select (W (Proc.devRef .tc main_v14) : S4000000.Idx → BitVec 1) (W (Proc.devRef .tc main_v28) : S4000000.Idx → BitVec 32)
          (broadcastInDim S4000000 ![] bcast_S_S4000000 (W (Proc.devRef .tc main_v31) : S_.Idx → BitVec 32)) := by
  after_results_simp
  rfl

/-- A buffer the last two operations do not write holds after the front what the first forty-four leave in it. -/
theorem front_take (V : Valuation τ sig (Elt Ideal)) {r : Ref sig .tc} (h1 : r ≠ main_call0_v0) (h2 : r ≠ main_v32) :
    after (frontOps.take 44) V (Proc.devRef .tc r) = after frontOps V (Proc.devRef .tc r) :=
  ((congrArg (fun l => after l V (Proc.devRef .tc r)) frontOps_split).trans
    ((congrFun (after_append _ _ V) _).trans (where_keep _ h1 h2))).symm

/-- The binned indices' buffer after the front, from the flags', the linear indices' and the sentinel's. -/
theorem front_bin_eq (V : Valuation τ sig (Elt Ideal)) :
    after frontOps V (Proc.devRef .tc main_v32)
      = select (after frontOps V (Proc.devRef .tc main_v14) : S4000000.Idx → BitVec 1)
          (after frontOps V (Proc.devRef .tc main_v28) : S4000000.Idx → BitVec 32)
          (broadcastInDim S4000000 ![] bcast_S_S4000000 (after frontOps V (Proc.devRef .tc main_v31) : S_.Idx → BitVec 32)) := by
  rw [← front_take V (r := main_v14) (by decide) (by decide), ← front_take V (r := main_v28) (by decide) (by decide),
    ← front_take V (r := main_v31) (by decide) (by decide)]
  exact (congrArg (fun l => after l V (Proc.devRef .tc main_v32)) frontOps_split).trans
    ((congrFun (after_append _ _ V) _).trans (where_bin _))

set_option maxRecDepth 8192 in
set_option maxHeartbeats 2000000 in
/-- After the front the linear indices' buffer holds, per point, the linear index of its cells. -/
theorem front_lin (V : Valuation τ sig (Elt Ideal)) :
    StableHlo.after frontOps V (Proc.devRef .tc main_v28)
      = fun i : S4000000.Idx => linWord (cellAt (F := Ideal) (V (Proc.devRef .tc main_arg0)) ⟨(i 0).val, (i 0).isLt⟩ 0)
          (cellAt (F := Ideal) (V (Proc.devRef .tc main_arg0)) ⟨(i 0).val, (i 0).isLt⟩ 1)
          (cellAt (F := Ideal) (V (Proc.devRef .tc main_arg0)) ⟨(i 0).val, (i 0).isLt⟩ 2) := by
  after_results_simp
  refine (lin_read (cellsT (V (Proc.devRef .tc main_arg0)))).trans ?_
  rw [cells_read]
  rfl

set_option maxRecDepth 8192 in
set_option maxHeartbeats 2000000 in
/-- After the front the sentinel's buffer holds the sentinel. -/
theorem front_big (V : Valuation τ sig (Elt Ideal)) :
    StableHlo.after frontOps V (Proc.devRef .tc main_v31) = bigT := by
  after_results_simp

set_option maxRecDepth 8192 in
set_option maxHeartbeats 2000000 in
/-- The argument's buffer holds after the front what it held before. -/
theorem front_arg0 (V : Valuation τ sig (Elt Ideal)) :
    StableHlo.after frontOps V (Proc.devRef .tc main_arg0) = V (Proc.devRef .tc main_arg0) := by
  after_results_simp

set_option maxRecDepth 8192 in
set_option maxHeartbeats 2000000 in
/-- After the front the cells' buffer holds the specification's cells of the points. -/
theorem front_cells (V : Valuation τ sig (Elt Ideal)) :
    StableHlo.after frontOps V (Proc.devRef .tc main_v7) = cellsOf (F := Ideal) (V (Proc.devRef .tc main_arg0)) := by
  after_results_simp
  exact cells_read _

set_option maxRecDepth 8192 in
set_option maxHeartbeats 2000000 in
/-- After the front the flags' buffer holds, per point, whether it is inside the grid. -/
theorem front_valid (V : Valuation τ sig (Elt Ideal)) :
    StableHlo.after frontOps V (Proc.devRef .tc main_v14) = validVec (F := Ideal) (V (Proc.devRef .tc main_arg0)) := by
  after_results_simp
  refine (valid_read (cellsT (V (Proc.devRef .tc main_arg0)))).trans ?_
  rw [cells_read]
  rfl

/-- After the front the binned indices' buffer holds, per point, its linear cell index, the sentinel outside the grid. -/
theorem front_bin (V : Valuation τ sig (Elt Ideal)) :
    StableHlo.after frontOps V (Proc.devRef .tc main_v32) = binVec (F := Ideal) (V (Proc.devRef .tc main_arg0)) := by
  rw [front_bin_eq, front_valid, front_lin, front_big]
  funext i
  rw [select_apply, broadcastInDim_scalar_apply, big_read]
  rfl

end Cert.ReferenceIdeal.Gen.Hand

end
-- ==== Proof.TailDefs.lean ====
/-
  The two programs continue identically once the points are binned: the same 144 host operations (a stable sort of the
  linear cell indices, gathers along the sorted order, a running count of new cells and a running maximum of their
  first positions, three scatters into per-cell buffers) applied to the points, their cells, their linear cell indices
  and their in-grid flags. Here the kernel program's copy of that tail as one list, and the shorthand for the two
  programs' buffer contents.
-/
import proofs.«159783_j57397942944138_1_alg».proof.Proof.KIData
import proofs.«159783_j57397942944138_1_alg».proof.Proof.RefOps
import Idealize.ShloMosaic.PureOps.Ideal

noncomputable section

namespace Cert.Bridge

open Idealize.ShloMosaic Idealize.SL.Sem StableHlo

/-- Buffer contents of the kernel program, at the ideal instance. -/
abbrev KV := Valuation Cert.KernelIdeal.τ Cert.KernelIdeal.sig (Elt Ideal)
/-- Buffer contents of the reference program, at the ideal instance. -/
abbrev RV := Valuation Cert.ReferenceIdeal.τ Cert.ReferenceIdeal.sig (Elt Ideal)

open Cert.KernelIdeal.Gen in
/-- The kernel program's host operations after its first stretch (the reshape and the comparison with the sentinel). -/
abbrev kTail : List (HloOp Cert.KernelIdeal.τ Cert.KernelIdeal.sig (Elt Ideal)) :=
  hostOps1_1 ++ hostOps1_2 ++ hostOps1_3 ++ hostOps1_4 ++ hostOps1_5 ++ hostOps1_6 ++ hostOps1_7 ++ hostOps1_8 ++ hostOps1_9 ++
  hostOps1_10 ++ hostOps1_11 ++ hostOps1_12 ++ hostOps1_13 ++ hostOps1_14 ++ hostOps1_15 ++ hostOps1_16 ++ hostOps1_17 ++
  hostOps1_18 ++ hostOps1_19

open Cert.KernelIdeal.Gen in
/-- The whole host suffix is the first stretch followed by that tail. -/
theorem tailOps_flatten :
    (Cert.KernelIdeal.Gen.Hand.tailOps (F := Ideal)).flatten = hostOps1 ++ kTail := rfl

end Cert.Bridge

end
-- ==== Proof.RefStages.lean ====
/- The reference program's tail of host operations cut into 9 consecutive stages (tailOps of RefOps.lean, positions 43,45,57,77,91,107,112,129). -/
import proofs.«159783_j57397942944138_1_alg».proof.Proof.RefOps

noncomputable section

namespace Cert.ReferenceIdeal.Gen.Hand

open Idealize.ShloMosaic Idealize.SL.Sem

variable {F : FTy → Type} [FloatOps F]

/-- Operations 1 to 43 of the tail. -/
abbrev tailA : List (HloOp τ sig (Elt F)) :=
  ( StableHlo.TRef.nullary main_call1.v0 (iotaInDim S4000000 32 0)
  :: StableHlo.TRef.binary (.of main_v32 : StableHlo.TRef sig ⟨S4000000, .i32⟩) main_call1.v0 main_call1.v1_0 (fun x y => (Host.sort2 S4000000 0 comparator_i32_i32_d0 x y).1)
  :: StableHlo.TRef.binary (.of main_v32 : StableHlo.TRef sig ⟨S4000000, .i32⟩) main_call1.v0 main_call1.v1_1 (fun x y => (Host.sort2 S4000000 0 comparator_i32_i32_d0 x y).2)
  :: StableHlo.nullary main_c_10 (constantI S_ 32 0#32)
  :: StableHlo.unary main_c_10 main_v34 (broadcastInDim S4000000 ![] bcast_S_S4000000 : (⟨S_, .i32⟩ : BufTy).Contents (Elt F) → (⟨S4000000, .i32⟩ : BufTy).Contents (Elt F))
  :: StableHlo.binary main_v33 main_v34 main_v35 (cmpi .slt : (⟨S4000000, .i32⟩ : BufTy).Contents (Elt F) → (⟨S4000000, .i32⟩ : BufTy).Contents (Elt F) → (⟨S4000000, .i1⟩ : BufTy).Contents (Elt F))
  :: StableHlo.nullary main_c_11 (constantI S_ 32 4000000#32)
  :: StableHlo.unary main_c_11 main_v36 (broadcastInDim S4000000 ![] bcast_S_S4000000 : (⟨S_, .i32⟩ : BufTy).Contents (Elt F) → (⟨S4000000, .i32⟩ : BufTy).Contents (Elt F))
  :: StableHlo.binary main_v33 main_v36 main_v37 (addi : (⟨S4000000, .i32⟩ : BufTy).Contents (Elt F) → (⟨S4000000, .i32⟩ : BufTy).Contents (Elt F) → (⟨S4000000, .i32⟩ : BufTy).Contents (Elt F))
  :: StableHlo.ternary main_v35 main_v37 main_v33 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v38 main_v39 (broadcastInDim S4000000x1 ![0] bcast_S4000000_S4000000x1_0 : (⟨S4000000, .i32⟩ : BufTy).Contents (Elt F) → (⟨S4000000x1, .i32⟩ : BufTy).Contents (Elt F))
  :: StableHlo.binary main_v32 main_v39 main_v40 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F))
  :: StableHlo.nullary main_c_12 (constantI S_ 32 0#32)
  :: StableHlo.unary main_c_12 main_v41 (broadcastInDim S4000000 ![] bcast_S_S4000000 : (⟨S_, .i32⟩ : BufTy).Contents (Elt F) → (⟨S4000000, .i32⟩ : BufTy).Contents (Elt F))
  :: StableHlo.binary main_v33 main_v41 main_v42 (cmpi .slt : (⟨S4000000, .i32⟩ : BufTy).Contents (Elt F) → (⟨S4000000, .i32⟩ : BufTy).Contents (Elt F) → (⟨S4000000, .i1⟩ : BufTy).Contents (Elt F))
  :: StableHlo.nullary main_c_13 (constantI S_ 32 4000000#32)
  :: StableHlo.unary main_c_13 main_v43 (broadcastInDim S4000000 ![] bcast_S_S4000000 : (⟨S_, .i32⟩ : BufTy).Contents (Elt F) → (⟨S4000000, .i32⟩ : BufTy).Contents (Elt F))
  :: StableHlo.binary main_v33 main_v43 main_v44 (addi : (⟨S4000000, .i32⟩ : BufTy).Contents (Elt F) → (⟨S4000000, .i32⟩ : BufTy).Contents (Elt F) → (⟨S4000000, .i32⟩ : BufTy).Contents (Elt F))
  :: StableHlo.ternary main_v42 main_v44 main_v33 main_v45 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v45 main_v46 (broadcastInDim S4000000x1 ![0] bcast_S4000000_S4000000x1_0 : (⟨S4000000, .i32⟩ : BufTy).Contents (Elt F) → (⟨S4000000x1, .i32⟩ : BufTy).Contents (Elt F))
  :: StableHlo.binary main_arg0 main_v46 main_v47 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F))
  :: StableHlo.nullary main_c_14 (constantI S_ 32 0#32)
  :: StableHlo.unary main_c_14 main_v48 (broadcastInDim S4000000 ![] bcast_S_S4000000 : (⟨S_, .i32⟩ : BufTy).Contents (Elt F) → (⟨S4000000, .i32⟩ : BufTy).Contents (Elt F))
  :: StableHlo.binary main_v33 main_v48 main_v49 (cmpi .slt : (⟨S4000000, .i32⟩ : BufTy).Contents (Elt F) → (⟨S4000000, .i32⟩ : BufTy).Contents (Elt F) → (⟨S4000000, .i1⟩ : BufTy).Contents (Elt F))
  :: StableHlo.nullary main_c_15 (constantI S_ 32 4000000#32)
  :: StableHlo.unary main_c_15 main_v50 (broadcastInDim S4000000 ![] bcast_S_S4000000 : (⟨S_, .i32⟩ : BufTy).Contents (Elt F) → (⟨S4000000, .i32⟩ : BufTy).Contents (Elt F))
  :: StableHlo.binary main_v33 main_v50 main_v51 (addi : (⟨S4000000, .i32⟩ : BufTy).Contents (Elt F) → (⟨S4000000, .i32⟩ : BufTy).Contents (Elt F) → (⟨S4000000, .i32⟩ : BufTy).Contents (Elt F))
  :: StableHlo.ternary main_v49 main_v51 main_v33 main_v52 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v52 main_v53 (broadcastInDim S4000000x1 ![0] bcast_S4000000_S4000000x1_0 : (⟨S4000000, .i32⟩ : BufTy).Contents (Elt F) → (⟨S4000000x1, .i32⟩ : BufTy).Contents (Elt F))
  :: StableHlo.binary main_v7 main_v53 main_v54 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F))
  :: StableHlo.nullary main_c_16 (constantI S_ 32 0#32)
  :: StableHlo.unary main_c_16 main_v55 (broadcastInDim S4000000 ![] bcast_S_S4000000 : (⟨S_, .i32⟩ : BufTy).Contents (Elt F) → (⟨S4000000, .i32⟩ : BufTy).Contents (Elt F))
  :: StableHlo.binary main_v33 main_v55 main_v56 (cmpi .slt : (⟨S4000000, .i32⟩ : BufTy).Contents (Elt F) → (⟨S4000000, .i32⟩ : BufTy).Contents (Elt F) → (⟨S4000000, .i1⟩ : BufTy).Contents (Elt F))
  :: StableHlo.nullary main_c_17 (constantI S_ 32 4000000#32)
  :: StableHlo.unary main_c_17 main_v57 (broadcastInDim S4000000 ![] bcast_S_S4000000 : (⟨S_, .i32⟩ : BufTy).Contents (Elt F) → (⟨S4000000, .i32⟩ : BufTy).Contents (Elt F))
  :: StableHlo.binary main_v33 main_v57 main_v58 (addi : (⟨S4000000, .i32⟩ : BufTy).Contents (Elt F) → (⟨S4000000, .i32⟩ : BufTy).Contents (Elt F) → (⟨S4000000, .i32⟩ : BufTy).Contents (Elt F))
  :: StableHlo.ternary main_v56 main_v58 main_v33 main_v59 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v59 main_v60 (broadcastInDim S4000000x1 ![0] bcast_S4000000_S4000000x1_0 : (⟨S4000000, .i32⟩ : BufTy).Contents (Elt F) → (⟨S4000000x1, .i32⟩ : BufTy).Contents (Elt F))
  :: StableHlo.binary main_v14 main_v60 main_v61 ((fun x i => Host.gather gather_S4000000_S4000000x1_S4000000_n_0_n_n_0_1_1 x i) : (⟨S4000000, .i1⟩ : BufTy).Contents (Elt F) → (⟨S4000000x1, .i32⟩ : BufTy).Contents (Elt F) → (⟨S4000000, .i1⟩ : BufTy).Contents (Elt F))
  :: StableHlo.nullary main_v62 (iotaInDim S4000000 32 0)
  :: StableHlo.nullary main_c_18 (constantI S_ 32 0#32)
  :: StableHlo.unary main_c_18 main_v63 (broadcastInDim S4000000 ![] bcast_S_S4000000 : (⟨S_, .i32⟩ : BufTy).Contents (Elt F) → (⟨S4000000, .i32⟩ : BufTy).Contents (Elt F))
  :: StableHlo.binary main_v62 main_v63 main_v64 (cmpi .eq : (⟨S4000000, .i32⟩ : BufTy).Contents (Elt F) → (⟨S4000000, .i32⟩ : BufTy).Contents (Elt F) → (⟨S4000000, .i1⟩ : BufTy).Contents (Elt F))
  :: [] )

/-- Operations 44 to 45 of the tail. -/
abbrev tailB1 : List (HloOp τ sig (Elt F)) :=
  ( StableHlo.TRef.unary (.of main_v40 : StableHlo.TRef sig ⟨S4000000, .i32⟩) main_call2.v0 (extractStridedSlice S1 ![3999999] · slices_S4000000_S1_3999999)
  :: StableHlo.TRef.unary (.of main_v40 : StableHlo.TRef sig ⟨S4000000, .i32⟩) main_call2.v1 (extractStridedSlice S3999999 ![0] · slices_S4000000_S3999999_0)
  :: [] )

/-- Operations 46 to 57 of the tail. -/
abbrev tailB2 : List (HloOp τ sig (Elt F)) :=
  ( StableHlo.TRef.binary main_call2.v0 main_call2.v1 main_call2.v2 (fun a b => concatenate S4000000 0 [⟨S1, a⟩, ⟨S3999999, b⟩] concatenates_S1_S3999999_S4000000_d0)
  :: StableHlo.binary main_v40 main_v65 main_v66 (cmpi .ne : (⟨S4000000, .i32⟩ : BufTy).Contents (Elt F) → (⟨S4000000, .i32⟩ : BufTy).Contents (Elt F) → (⟨S4000000, .i1⟩ : BufTy).Contents (Elt F))
  :: StableHlo.binary main_v64 main_v66 main_v67 (ori : (⟨S4000000, .i1⟩ : BufTy).Contents (Elt F) → (⟨S4000000, .i1⟩ : BufTy).Contents (Elt F) → (⟨S4000000, .i1⟩ : BufTy).Contents (Elt F))
  :: StableHlo.binary main_v67 main_v61 main_v68 (andi : (⟨S4000000, .i1⟩ : BufTy).Contents (Elt F) → (⟨S4000000, .i1⟩ : BufTy).Contents (Elt F) → (⟨S4000000, .i1⟩ : BufTy).Contents (Elt F))
  :: StableHlo.unary main_v68 main_v69 ((extui 32 · natLt_1_32) : (⟨S4000000, .i1⟩ : BufTy).Contents (Elt F) → (⟨S4000000, .i32⟩ : BufTy).Contents (Elt F))
  :: StableHlo.TRef.nullary main_call3.call0.c (constantI S_ 32 0#32)
  :: StableHlo.TRef.unary main_call3.call0.c main_call3.call0.v0 (broadcastInDim S_ ![] bcast_S_S_)
  :: StableHlo.TRef.binary (.of main_v69 : StableHlo.TRef sig ⟨S4000000, .i32⟩) main_call3.call0.v0 main_call3.call0.v1 (fun x v => Host.reduceWindow IntOp.addi ![4000000] ![1] ![3999999] ![0] x v reduceWindows_S4000000_S4000000_w4000000s1p3999999_0 h_S_)
  :: StableHlo.nullary main_c_19 (constantI S_ 32 1#32)
  :: StableHlo.unary main_c_19 main_v71 (broadcastInDim S4000000 ![] bcast_S_S4000000 : (⟨S_, .i32⟩ : BufTy).Contents (Elt F) → (⟨S4000000, .i32⟩ : BufTy).Contents (Elt F))
  :: StableHlo.binary main_v70 main_v71 main_v72 (subi : (⟨S4000000, .i32⟩ : BufTy).Contents (Elt F) → (⟨S4000000, .i32⟩ : BufTy).Contents (Elt F) → (⟨S4000000, .i32⟩ : BufTy).Contents (Elt F))
  :: StableHlo.nullary main_c_20 (constantI S_ 32 0#32)
  :: [] )

/-- Operations 58 to 77 of the tail. -/
abbrev tailC : List (HloOp τ sig (Elt F)) :=
  ( StableHlo.TRef.unary (.of main_c_20 : StableHlo.TRef sig ⟨S_, .i32⟩) main_call4.v0 id
  :: StableHlo.TRef.unary main_call4.v0 main_call4.v1 (broadcastInDim S4000000 ![] bcast_S_S4000000)
  :: StableHlo.TRef.ternary (.of main_v68 : StableHlo.TRef sig ⟨S4000000, .i1⟩) (.of main_v62 : StableHlo.TRef sig ⟨S4000000, .i32⟩) main_call4.v1 main_call4.v2 select
  :: StableHlo.TRef.nullary main_call5.c (constantI S_ 32 2147483648#32)
  :: StableHlo.TRef.unary main_call5.c main_call5.v0 (broadcastInDim S_ ![] bcast_S_S_)
  :: StableHlo.TRef.binary (.of main_v73 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_)
  :: StableHlo.binary main_v62 main_v74 main_v75 (subi : (⟨S4000000, .i32⟩ : BufTy).Contents (Elt F) → (⟨S4000000, .i32⟩ : BufTy).Contents (Elt F) → (⟨S4000000, .i32⟩ : BufTy).Contents (Elt F))
  :: StableHlo.nullary main_c_21 (constantI S_ 32 0#32)
  :: StableHlo.unary main_c_21 main_v76 (broadcastInDim S4000000 ![] bcast_S_S4000000 : (⟨S_, .i32⟩ : BufTy).Contents (Elt F) → (⟨S4000000, .i32⟩ : BufTy).Contents (Elt F))
  :: StableHlo.binary main_v72 main_v76 main_v77 (cmpi .sge : (⟨S4000000, .i32⟩ : BufTy).Contents (Elt F) → (⟨S4000000, .i32⟩ : BufTy).Contents (Elt F) → (⟨S4000000, .i1⟩ : BufTy).Contents (Elt F))
  :: StableHlo.binary main_v61 main_v77 main_v78 (andi : (⟨S4000000, .i1⟩ : BufTy).Contents (Elt F) → (⟨S4000000, .i1⟩ : BufTy).Contents (Elt F) → (⟨S4000000, .i1⟩ : BufTy).Contents (Elt F))
  :: StableHlo.nullary main_c_22 (constantI S_ 32 60000#32)
  :: StableHlo.unary main_c_22 main_v79 (broadcastInDim S4000000 ![] bcast_S_S4000000 : (⟨S_, .i32⟩ : BufTy).Contents (Elt F) → (⟨S4000000, .i32⟩ : BufTy).Contents (Elt F))
  :: StableHlo.binary main_v72 main_v79 main_v80 (cmpi .slt : (⟨S4000000, .i32⟩ : BufTy).Contents (Elt F) → (⟨S4000000, .i32⟩ : BufTy).Contents (Elt F) → (⟨S4000000, .i1⟩ : BufTy).Contents (Elt F))
  :: StableHlo.binary main_v78 main_v80 main_v81 (andi : (⟨S4000000, .i1⟩ : BufTy).Contents (Elt F) → (⟨S4000000, .i1⟩ : BufTy).Contents (Elt F) → (⟨S4000000, .i1⟩ : BufTy).Contents (Elt F))
  :: StableHlo.nullary main_c_23 (constantI S_ 32 32#32)
  :: StableHlo.unary main_c_23 main_v82 (broadcastInDim S4000000 ![] bcast_S_S4000000 : (⟨S_, .i32⟩ : BufTy).Contents (Elt F) → (⟨S4000000, .i32⟩ : BufTy).Contents (Elt F))
  :: StableHlo.binary main_v75 main_v82 main_v83 (cmpi .slt : (⟨S4000000, .i32⟩ : BufTy).Contents (Elt F) → (⟨S4000000, .i32⟩ : BufTy).Contents (Elt F) → (⟨S4000000, .i1⟩ : BufTy).Contents (Elt F))
  :: StableHlo.binary main_v81 main_v83 main_v84 (andi : (⟨S4000000, .i1⟩ : BufTy).Contents (Elt F) → (⟨S4000000, .i1⟩ : BufTy).Contents (Elt F) → (⟨S4000000, .i1⟩ : BufTy).Contents (Elt F))
  :: StableHlo.nullary main_c_24 (constantI S_ 32 60000#32)
  :: [] )

/-- Operations 78 to 91 of the tail. -/
abbrev tailD : List (HloOp τ sig (Elt F)) :=
  ( StableHlo.TRef.unary (.of main_c_24 : StableHlo.TRef sig ⟨S_, .i32⟩) main_call6.v0 id
  :: StableHlo.TRef.unary main_call6.v0 main_call6.v1 (broadcastInDim S4000000 ![] bcast_S_S4000000)
  :: StableHlo.TRef.ternary (.of main_v84 : StableHlo.TRef sig ⟨S4000000, .i1⟩) (.of main_v72 : StableHlo.TRef sig ⟨S4000000, .i32⟩) main_call6.v1 main_call6.v2 select
  :: StableHlo.nullary main_c_25 (constantI S_ 32 0#32)
  :: StableHlo.TRef.unary (.of main_c_25 : StableHlo.TRef sig ⟨S_, .i32⟩) main_call7.v0 id
  :: StableHlo.TRef.unary main_call7.v0 main_call7.v1 (broadcastInDim S4000000 ![] bcast_S_S4000000)
  :: StableHlo.TRef.ternary (.of main_v84 : StableHlo.TRef sig ⟨S4000000, .i1⟩) (.of main_v75 : StableHlo.TRef sig ⟨S4000000, .i32⟩) main_call7.v1 main_call7.v2 select
  :: StableHlo.nullary main_cst_26 (constant S_ .f32 0x00000000#32)
  :: StableHlo.unary main_cst_26 main_v87 (broadcastInDim S60001x32x4 ![] bcast_S_S60001x32x4 : (⟨S_, .f32⟩ : BufTy).Contents (Elt F) → (⟨S60001x32x4, .f32⟩ : BufTy).Contents (Elt F))
  :: StableHlo.unary main_v84 main_v88 (broadcastInDim S4000000x1 ![0] bcast_S4000000_S4000000x1_0 : (⟨S4000000, .i1⟩ : BufTy).Contents (Elt F) → (⟨S4000000x1, .i1⟩ : BufTy).Contents (Elt F))
  :: StableHlo.nullary main_cst_27 (constant S_ .f32 0x00000000#32)
  :: StableHlo.TRef.unary (.of main_v88 : StableHlo.TRef sig ⟨S4000000x1, .i1⟩) main_call8.v0 (broadcastInDim S4000000x4 ![0, 1] bcast_S4000000x1_S4000000x4_0_1)
  :: StableHlo.TRef.unary (.of main_cst_27 : StableHlo.TRef sig ⟨S_, .f32⟩) main_call8.v1 (broadcastInDim S4000000x4 ![] bcast_S_S4000000x4)
  :: StableHlo.TRef.ternary main_call8.v0 (.of main_v47 : StableHlo.TRef sig ⟨S4000000x4, .f32⟩) main_call8.v1 main_call8.v2 select
  :: [] )

/-- Operations 92 to 107 of the tail. -/
abbrev tailE1 : List (HloOp τ sig (Elt F)) :=
  ( StableHlo.nullary main_c_28 (constantI S_ 32 0#32)
  :: StableHlo.unary main_c_28 main_v90 (broadcastInDim S4000000 ![] bcast_S_S4000000 : (⟨S_, .i32⟩ : BufTy).Contents (Elt F) → (⟨S4000000, .i32⟩ : BufTy).Contents (Elt F))
  :: StableHlo.binary main_v85 main_v90 main_v91 (cmpi .slt : (⟨S4000000, .i32⟩ : BufTy).Contents (Elt F) → (⟨S4000000, .i32⟩ : BufTy).Contents (Elt F) → (⟨S4000000, .i1⟩ : BufTy).Contents (Elt F))
  :: StableHlo.nullary main_c_29 (constantI S_ 32 60001#32)
  :: StableHlo.unary main_c_29 main_v92 (broadcastInDim S4000000 ![] bcast_S_S4000000 : (⟨S_, .i32⟩ : BufTy).Contents (Elt F) → (⟨S4000000, .i32⟩ : BufTy).Contents (Elt F))
  :: StableHlo.binary main_v85 main_v92 main_v93 (addi : (⟨S4000000, .i32⟩ : BufTy).Contents (Elt F) → (⟨S4000000, .i32⟩ : BufTy).Contents (Elt F) → (⟨S4000000, .i32⟩ : BufTy).Contents (Elt F))
  :: StableHlo.ternary main_v91 main_v93 main_v85 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.nullary main_c_30 (constantI S_ 32 0#32)
  :: StableHlo.unary main_c_30 main_v95 (broadcastInDim S4000000 ![] bcast_S_S4000000 : (⟨S_, .i32⟩ : BufTy).Contents (Elt F) → (⟨S4000000, .i32⟩ : BufTy).Contents (Elt F))
  :: StableHlo.binary main_v86 main_v95 main_v96 (cmpi .slt : (⟨S4000000, .i32⟩ : BufTy).Contents (Elt F) → (⟨S4000000, .i32⟩ : BufTy).Contents (Elt F) → (⟨S4000000, .i1⟩ : BufTy).Contents (Elt F))
  :: StableHlo.nullary main_c_31 (constantI S_ 32 32#32)
  :: StableHlo.unary main_c_31 main_v97 (broadcastInDim S4000000 ![] bcast_S_S4000000 : (⟨S_, .i32⟩ : BufTy).Contents (Elt F) → (⟨S4000000, .i32⟩ : BufTy).Contents (Elt F))
  :: StableHlo.binary main_v86 main_v97 main_v98 (addi : (⟨S4000000, .i32⟩ : BufTy).Contents (Elt F) → (⟨S4000000, .i32⟩ : BufTy).Contents (Elt F) → (⟨S4000000, .i32⟩ : BufTy).Contents (Elt F))
  :: StableHlo.ternary main_v96 main_v98 main_v86 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v94 main_v100 (broadcastInDim S4000000x1 ![0] bcast_S4000000_S4000000x1_0 : (⟨S4000000, .i32⟩ : BufTy).Contents (Elt F) → (⟨S4000000x1, .i32⟩ : BufTy).Contents (Elt F))
  :: StableHlo.unary main_v99 main_v101 (broadcastInDim S4000000x1 ![0] bcast_S4000000_S4000000x1_0 : (⟨S4000000, .i32⟩ : BufTy).Contents (Elt F) → (⟨S4000000x1, .i32⟩ : BufTy).Contents (Elt F))
  :: [] )

/-- Operations 108 to 112 of the tail. -/
abbrev tailE2 : List (HloOp τ sig (Elt F)) :=
  ( StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F))
  :: StableHlo.ternary main_v87 main_v102 main_v89 main_v103 ((fun x i u => Host.scatter scatter_S60001x32x4_S4000000x2_S4000000x4_1_01_01_1 (fun _ b => b) x i u) : (⟨S60001x32x4, .f32⟩ : BufTy).Contents (Elt F) → (⟨S4000000x2, .i32⟩ : BufTy).Contents (Elt F) → (⟨S4000000x4, .f32⟩ : BufTy).Contents (Elt F) → (⟨S60001x32x4, .f32⟩ : BufTy).Contents (Elt F))
  :: StableHlo.unary main_v103 main_v104 ((extractStridedSlice S60000x32x4 ![0, 0, 0] · slices_S60001x32x4_S60000x32x4_0_0_0) : (⟨S60001x32x4, .f32⟩ : BufTy).Contents (Elt F) → (⟨S60000x32x4, .f32⟩ : BufTy).Contents (Elt F))
  :: StableHlo.unary main_v104 main_v105 ((transpose S60000x4x32 [0, 2, 1] · transposes_S60000x32x4_S60000x4x32_0_2_1) : (⟨S60000x32x4, .f32⟩ : BufTy).Contents (Elt F) → (⟨S60000x4x32, .f32⟩ : BufTy).Contents (Elt F))
  :: StableHlo.nullary main_c_32 (constantI S_ 32 60000#32)
  :: [] )

/-- Operations 113 to 129 of the tail. -/
abbrev tailF : List (HloOp τ sig (Elt F)) :=
  ( StableHlo.TRef.unary (.of main_c_32 : StableHlo.TRef sig ⟨S_, .i32⟩) main_call9.v0 id
  :: StableHlo.TRef.unary main_call9.v0 main_call9.v1 (broadcastInDim S4000000 ![] bcast_S_S4000000)
  :: StableHlo.TRef.ternary (.of main_v81 : StableHlo.TRef sig ⟨S4000000, .i1⟩) (.of main_v72 : StableHlo.TRef sig ⟨S4000000, .i32⟩) main_call9.v1 main_call9.v2 select
  :: StableHlo.unary main_v81 main_v107 ((extui 32 · natLt_1_32) : (⟨S4000000, .i1⟩ : BufTy).Contents (Elt F) → (⟨S4000000, .i32⟩ : BufTy).Contents (Elt F))
  :: StableHlo.nullary main_c_33 (constantI S_ 32 0#32)
  :: StableHlo.unary main_c_33 main_v108 (broadcastInDim S60001 ![] bcast_S_S60001 : (⟨S_, .i32⟩ : BufTy).Contents (Elt F) → (⟨S60001, .i32⟩ : BufTy).Contents (Elt F))
  :: StableHlo.unary main_v106 main_v109 (broadcastInDim S4000000x1 ![0] bcast_S4000000_S4000000x1_0 : (⟨S4000000, .i32⟩ : BufTy).Contents (Elt F) → (⟨S4000000x1, .i32⟩ : BufTy).Contents (Elt F))
  :: StableHlo.ternary main_v108 main_v109 main_v107 main_v110 ((fun x i u => Host.scatter scatter_S60001_S4000000x1_S4000000_n_0_0_1 IntOp.addi x i u) : (⟨S60001, .i32⟩ : BufTy).Contents (Elt F) → (⟨S4000000x1, .i32⟩ : BufTy).Contents (Elt F) → (⟨S4000000, .i32⟩ : BufTy).Contents (Elt F) → (⟨S60001, .i32⟩ : BufTy).Contents (Elt F))
  :: StableHlo.unary main_v110 main_v111 ((extractStridedSlice S60000 ![0] · slices_S60001_S60000_0) : (⟨S60001, .i32⟩ : BufTy).Contents (Elt F) → (⟨S60000, .i32⟩ : BufTy).Contents (Elt F))
  :: StableHlo.nullary main_c_34 (constantI S_ 32 32#32)
  :: StableHlo.unary main_c_34 main_v112 (broadcastInDim S60000 ![] bcast_S_S60000 : (⟨S_, .i32⟩ : BufTy).Contents (Elt F) → (⟨S60000, .i32⟩ : BufTy).Contents (Elt F))
  :: StableHlo.binary main_v111 main_v112 main_v113 (minsi : (⟨S60000, .i32⟩ : BufTy).Contents (Elt F) → (⟨S60000, .i32⟩ : BufTy).Contents (Elt F) → (⟨S60000, .i32⟩ : BufTy).Contents (Elt F))
  :: StableHlo.nullary main_c_35 (constantI S_ 32 60000#32)
  :: StableHlo.unary main_c_35 main_v114 (broadcastInDim S4000000 ![] bcast_S_S4000000 : (⟨S_, .i32⟩ : BufTy).Contents (Elt F) → (⟨S4000000, .i32⟩ : BufTy).Contents (Elt F))
  :: StableHlo.binary main_v72 main_v114 main_v115 (cmpi .slt : (⟨S4000000, .i32⟩ : BufTy).Contents (Elt F) → (⟨S4000000, .i32⟩ : BufTy).Contents (Elt F) → (⟨S4000000, .i1⟩ : BufTy).Contents (Elt F))
  :: StableHlo.binary main_v68 main_v115 main_v116 (andi : (⟨S4000000, .i1⟩ : BufTy).Contents (Elt F) → (⟨S4000000, .i1⟩ : BufTy).Contents (Elt F) → (⟨S4000000, .i1⟩ : BufTy).Contents (Elt F))
  :: StableHlo.nullary main_c_36 (constantI S_ 32 60000#32)
  :: [] )

/-- Operations 130 to 144 of the tail. -/
abbrev tailG : List (HloOp τ sig (Elt F)) :=
  ( StableHlo.TRef.unary (.of main_c_36 : StableHlo.TRef sig ⟨S_, .i32⟩) main_call10.v0 id
  :: StableHlo.TRef.unary main_call10.v0 main_call10.v1 (broadcastInDim S4000000 ![] bcast_S_S4000000)
  :: StableHlo.TRef.ternary (.of main_v116 : StableHlo.TRef sig ⟨S4000000, .i1⟩) (.of main_v72 : StableHlo.TRef sig ⟨S4000000, .i32⟩) main_call10.v1 main_call10.v2 select
  :: StableHlo.nullary main_c_37 (constantI S_ 32 0#32)
  :: StableHlo.unary main_c_37 main_v118 (broadcastInDim S60001x3 ![] bcast_S_S60001x3 : (⟨S_, .i32⟩ : BufTy).Contents (Elt F) → (⟨S60001x3, .i32⟩ : BufTy).Contents (Elt F))
  :: StableHlo.nullary main_c_38 (constantI S_ 32 0#32)
  :: StableHlo.unary main_c_38 main_v119 (broadcastInDim S4000000 ![] bcast_S_S4000000 : (⟨S_, .i32⟩ : BufTy).Contents (Elt F) → (⟨S4000000, .i32⟩ : BufTy).Contents (Elt F))
  :: StableHlo.binary main_v117 main_v119 main_v120 (cmpi .slt : (⟨S4000000, .i32⟩ : BufTy).Contents (Elt F) → (⟨S4000000, .i32⟩ : BufTy).Contents (Elt F) → (⟨S4000000, .i1⟩ : BufTy).Contents (Elt F))
  :: StableHlo.nullary main_c_39 (constantI S_ 32 60001#32)
  :: StableHlo.unary main_c_39 main_v121 (broadcastInDim S4000000 ![] bcast_S_S4000000 : (⟨S_, .i32⟩ : BufTy).Contents (Elt F) → (⟨S4000000, .i32⟩ : BufTy).Contents (Elt F))
  :: StableHlo.binary main_v117 main_v121 main_v122 (addi : (⟨S4000000, .i32⟩ : BufTy).Contents (Elt F) → (⟨S4000000, .i32⟩ : BufTy).Contents (Elt F) → (⟨S4000000, .i32⟩ : BufTy).Contents (Elt F))
  :: StableHlo.ternary main_v120 main_v122 main_v117 main_v123 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
  :: StableHlo.unary main_v123 main_v124 (broadcastInDim S4000000x1 ![0] bcast_S4000000_S4000000x1_0 : (⟨S4000000, .i32⟩ : BufTy).Contents (Elt F) → (⟨S4000000x1, .i32⟩ : BufTy).Contents (Elt F))
  :: StableHlo.ternary main_v118 main_v124 main_v54 main_v125 ((fun x i u => Host.scatter scatter_S60001x3_S4000000x1_S4000000x3_1_0_0_1 (fun _ b => b) x i u) : (⟨S60001x3, .i32⟩ : BufTy).Contents (Elt F) → (⟨S4000000x1, .i32⟩ : BufTy).Contents (Elt F) → (⟨S4000000x3, .i32⟩ : BufTy).Contents (Elt F) → (⟨S60001x3, .i32⟩ : BufTy).Contents (Elt F))
  :: StableHlo.unary main_v125 main_v126 ((extractStridedSlice S60000x3 ![0, 0] · slices_S60001x3_S60000x3_0_0) : (⟨S60001x3, .i32⟩ : BufTy).Contents (Elt F) → (⟨S60000x3, .i32⟩ : BufTy).Contents (Elt F))
  :: [] )

end Cert.ReferenceIdeal.Gen.Hand

end
-- ==== Proof.LibAfter.lean ====
/-
  Running two lists of host operations one after the other is running their concatenation: the buffer contents after
  `l₁ ++ l₂` from `V` are the contents after `l₂` from the contents after `l₁` from `V`.
-/
import Idealize.ShloMosaic.Lib.StableHlo.Run

namespace Cert.LibAfter

open Idealize.ShloMosaic

/-- The fold of the operations' results over a concatenation is the fold over the second list started from the fold
    over the first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

end Cert.LibAfter
-- ==== Proof.TailStages.lean ====
/-
  The two programs' common tail of 144 host operations, cut into nine consecutive stages on each side, and the tactic
  that reads a buffer's value after a stage off the stage's operations on both sides and closes the resulting equation
  with the facts that hold before the stage.
-/
import proofs.«159783_j57397942944138_1_alg».proof.Proof.TailDefs
import proofs.«159783_j57397942944138_1_alg».proof.Proof.RefStages
import proofs.«159783_j57397942944138_1_alg».proof.Proof.LibAfter

noncomputable section

namespace Cert.Bridge

open Idealize.ShloMosaic Idealize.SL.Sem StableHlo

macro "kb(" b:term ")" : term => `(Proc.devRef (τ := Cert.KernelIdeal.τ) .tc ($b : Ref Cert.KernelIdeal.sig .tc))
macro "rb(" b:term ")" : term => `(Proc.devRef (τ := Cert.ReferenceIdeal.τ) .tc ($b : Ref Cert.ReferenceIdeal.sig .tc))

open Cert.KernelIdeal.Gen in
/-- The kernel program's stages. -/
def kA : List (HloOp Cert.KernelIdeal.τ Cert.KernelIdeal.sig (Elt Ideal)) := hostOps1_1 ++ hostOps1_2
open Cert.KernelIdeal.Gen in
/-- Stage B is cut before the roll's concatenation, so that its two operands are buffers of the state the second half starts from. -/
def kB1 : List (HloOp Cert.KernelIdeal.τ Cert.KernelIdeal.sig (Elt Ideal)) := hostOps1_3.take 2
open Cert.KernelIdeal.Gen in
def kB2 : List (HloOp Cert.KernelIdeal.τ Cert.KernelIdeal.sig (Elt Ideal)) := hostOps1_3.drop 2 ++ hostOps1_4 ++ hostOps1_5 ++ hostOps1_6
open Cert.KernelIdeal.Gen in
def kC : List (HloOp Cert.KernelIdeal.τ Cert.KernelIdeal.sig (Elt Ideal)) := hostOps1_7 ++ hostOps1_8 ++ hostOps1_9
open Cert.KernelIdeal.Gen in
def kD : List (HloOp Cert.KernelIdeal.τ Cert.KernelIdeal.sig (Elt Ideal)) := hostOps1_10 ++ hostOps1_11 ++ hostOps1_12 ++ hostOps1_13 ++ hostOps1_14
open Cert.KernelIdeal.Gen in
/-- Stage E is cut before the concatenation of the row and column indices, for the same reason. -/
def kE1 : List (HloOp Cert.KernelIdeal.τ Cert.KernelIdeal.sig (Elt Ideal)) := hostOps1_15.take 16
open Cert.KernelIdeal.Gen in
def kE2 : List (HloOp Cert.KernelIdeal.τ Cert.KernelIdeal.sig (Elt Ideal)) := hostOps1_15.drop 16
open Cert.KernelIdeal.Gen in
def kF : List (HloOp Cert.KernelIdeal.τ Cert.KernelIdeal.sig (Elt Ideal)) := hostOps1_16 ++ hostOps1_17
open Cert.KernelIdeal.Gen in
def kG : List (HloOp Cert.KernelIdeal.τ Cert.KernelIdeal.sig (Elt Ideal)) := hostOps1_18 ++ hostOps1_19

/-- The reference's stages, at the ideal instance. -/
def rA : List (HloOp Cert.ReferenceIdeal.τ Cert.ReferenceIdeal.sig (Elt Ideal)) := Cert.ReferenceIdeal.Gen.Hand.tailA
def rB1 : List (HloOp Cert.ReferenceIdeal.τ Cert.ReferenceIdeal.sig (Elt Ideal)) := Cert.ReferenceIdeal.Gen.Hand.tailB1
def rB2 : List (HloOp Cert.ReferenceIdeal.τ Cert.ReferenceIdeal.sig (Elt Ideal)) := Cert.ReferenceIdeal.Gen.Hand.tailB2
def rC : List (HloOp Cert.ReferenceIdeal.τ Cert.ReferenceIdeal.sig (Elt Ideal)) := Cert.ReferenceIdeal.Gen.Hand.tailC
def rD : List (HloOp Cert.ReferenceIdeal.τ Cert.ReferenceIdeal.sig (Elt Ideal)) := Cert.ReferenceIdeal.Gen.Hand.tailD
def rE1 : List (HloOp Cert.ReferenceIdeal.τ Cert.ReferenceIdeal.sig (Elt Ideal)) := Cert.ReferenceIdeal.Gen.Hand.tailE1
def rE2 : List (HloOp Cert.ReferenceIdeal.τ Cert.ReferenceIdeal.sig (Elt Ideal)) := Cert.ReferenceIdeal.Gen.Hand.tailE2
def rF : List (HloOp Cert.ReferenceIdeal.τ Cert.ReferenceIdeal.sig (Elt Ideal)) := Cert.ReferenceIdeal.Gen.Hand.tailF
def rG : List (HloOp Cert.ReferenceIdeal.τ Cert.ReferenceIdeal.sig (Elt Ideal)) := Cert.ReferenceIdeal.Gen.Hand.tailG

/-- Each tail is its nine stages in order. -/
theorem kTail_stages : kTail = kA ++ (kB1 ++ (kB2 ++ (kC ++ (kD ++ (kE1 ++ (kE2 ++ (kF ++ kG))))))) := rfl
theorem rTail_stages : (Cert.ReferenceIdeal.Gen.Hand.tailOps (F := Ideal)) = rA ++ (rB1 ++ (rB2 ++ (rC ++ (rD ++ (rE1 ++ (rE2 ++ (rF ++ rG))))))) := rfl

/-- Reads both sides of one stage's fact off the stage's operations and closes it with the facts before the stage. -/
macro "tail_stage" hs:(Lean.Parser.Tactic.simpLemma),* : tactic =>
  `(tactic|
    (simp only [kA, kB1, kB2, kC, kD, kE1, kE2, kF, kG, rA, rB1, rB2, rC, rD, rE1, rE2, rF, rG,
       List.take_succ_cons, List.take_zero, List.drop_succ_cons, List.drop_zero,
       Cert.KernelIdeal.Gen.hostOps1_1, Cert.KernelIdeal.Gen.hostOps1_2, Cert.KernelIdeal.Gen.hostOps1_3, Cert.KernelIdeal.Gen.hostOps1_4,
       Cert.KernelIdeal.Gen.hostOps1_5, Cert.KernelIdeal.Gen.hostOps1_6, Cert.KernelIdeal.Gen.hostOps1_7, Cert.KernelIdeal.Gen.hostOps1_8,
       Cert.KernelIdeal.Gen.hostOps1_9, Cert.KernelIdeal.Gen.hostOps1_10, Cert.KernelIdeal.Gen.hostOps1_11, Cert.KernelIdeal.Gen.hostOps1_12,
       Cert.KernelIdeal.Gen.hostOps1_13, Cert.KernelIdeal.Gen.hostOps1_14, Cert.KernelIdeal.Gen.hostOps1_15, Cert.KernelIdeal.Gen.hostOps1_16,
       Cert.KernelIdeal.Gen.hostOps1_17, Cert.KernelIdeal.Gen.hostOps1_18, Cert.KernelIdeal.Gen.hostOps1_19,
       Cert.ReferenceIdeal.Gen.Hand.tailA, Cert.ReferenceIdeal.Gen.Hand.tailB1, Cert.ReferenceIdeal.Gen.Hand.tailB2,
       Cert.ReferenceIdeal.Gen.Hand.tailC, Cert.ReferenceIdeal.Gen.Hand.tailD, Cert.ReferenceIdeal.Gen.Hand.tailE1,
       Cert.ReferenceIdeal.Gen.Hand.tailE2, Cert.ReferenceIdeal.Gen.Hand.tailF, Cert.ReferenceIdeal.Gen.Hand.tailG, List.cons_append, List.nil_append]
     after_results_simp
     try (simp only [$hs,*])
     try rfl))

/-- Only the reading: both sides of one stage's fact as the stage's operations' composed functions of the buffers before it. -/
macro "tail_open" : tactic =>
  `(tactic|
    (simp only [kA, kB1, kB2, kC, kD, kE1, kE2, kF, kG, rA, rB1, rB2, rC, rD, rE1, rE2, rF, rG,
       List.take_succ_cons, List.take_zero, List.drop_succ_cons, List.drop_zero,
       Cert.KernelIdeal.Gen.hostOps1_1, Cert.KernelIdeal.Gen.hostOps1_2, Cert.KernelIdeal.Gen.hostOps1_3, Cert.KernelIdeal.Gen.hostOps1_4,
       Cert.KernelIdeal.Gen.hostOps1_5, Cert.KernelIdeal.Gen.hostOps1_6, Cert.KernelIdeal.Gen.hostOps1_7, Cert.KernelIdeal.Gen.hostOps1_8,
       Cert.KernelIdeal.Gen.hostOps1_9, Cert.KernelIdeal.Gen.hostOps1_10, Cert.KernelIdeal.Gen.hostOps1_11, Cert.KernelIdeal.Gen.hostOps1_12,
       Cert.KernelIdeal.Gen.hostOps1_13, Cert.KernelIdeal.Gen.hostOps1_14, Cert.KernelIdeal.Gen.hostOps1_15, Cert.KernelIdeal.Gen.hostOps1_16,
       Cert.KernelIdeal.Gen.hostOps1_17, Cert.KernelIdeal.Gen.hostOps1_18, Cert.KernelIdeal.Gen.hostOps1_19,
       Cert.ReferenceIdeal.Gen.Hand.tailA, Cert.ReferenceIdeal.Gen.Hand.tailB1, Cert.ReferenceIdeal.Gen.Hand.tailB2,
       Cert.ReferenceIdeal.Gen.Hand.tailC, Cert.ReferenceIdeal.Gen.Hand.tailD, Cert.ReferenceIdeal.Gen.Hand.tailE1,
       Cert.ReferenceIdeal.Gen.Hand.tailE2, Cert.ReferenceIdeal.Gen.Hand.tailF, Cert.ReferenceIdeal.Gen.Hand.tailG, List.cons_append, List.nil_append]
     after_results_simp))

end Cert.Bridge

end
-- ==== Proof.TailA.lean ====
/-
  Stage A of the common tail: the stable sort of the linear cell indices and the gathers of the points, cells, indices and flags along the sorted order. Equal inputs give equal outputs: both sides are the same operations.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage A: the sort and the gathers along the sorted order -/

theorem stageA (WK : KV) (WR : RV)
    (h0 : WK kb(KernelIdeal.main_arg0) = WR rb(ReferenceIdeal.main_arg0))
    (h1 : WK kb(KernelIdeal.main_v0_0) = WR rb(ReferenceIdeal.main_v7))
    (h2 : WK kb(KernelIdeal.main_v1) = WR rb(ReferenceIdeal.main_v32))
    (h3 : WK kb(KernelIdeal.main_v3) = WR rb(ReferenceIdeal.main_v14)) :
    after kA WK kb(KernelIdeal.main_v11) = after rA WR rb(ReferenceIdeal.main_v40)
    ∧ after kA WK kb(KernelIdeal.main_v35) = after rA WR rb(ReferenceIdeal.main_v64)
    ∧ after kA WK kb(KernelIdeal.main_v32) = after rA WR rb(ReferenceIdeal.main_v61)
    ∧ after kA WK kb(KernelIdeal.main_v33) = after rA WR rb(ReferenceIdeal.main_v62)
    ∧ after kA WK kb(KernelIdeal.main_v18) = after rA WR rb(ReferenceIdeal.main_v47)
    ∧ after kA WK kb(KernelIdeal.main_v25) = after rA WR rb(ReferenceIdeal.main_v54) :=
  ⟨(by tail_stage h0, h1, h2, h3), (by tail_stage h0, h1, h2, h3), (by tail_stage h0, h1, h2, h3), (by tail_stage h0, h1, h2, h3),
   (by tail_stage h0, h1, h2, h3), (by tail_stage h0, h1, h2, h3)⟩

end Cert.Bridge

end
-- ==== Proof.TailB1.lean ====
/-
  Stage B of the common tail, first half: the roll of the sorted linear indices by one position begins with its two pieces, the last entry and all the others.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage B, first half: the two pieces of the rolled vector of sorted linear indices -/

theorem stageB1 (WK : KV) (WR : RV)
    (a11 : WK kb(KernelIdeal.main_v11) = WR rb(ReferenceIdeal.main_v40))
    (a35 : WK kb(KernelIdeal.main_v35) = WR rb(ReferenceIdeal.main_v64))
    (a32 : WK kb(KernelIdeal.main_v32) = WR rb(ReferenceIdeal.main_v61))
    (a33 : WK kb(KernelIdeal.main_v33) = WR rb(ReferenceIdeal.main_v62))
    (a18 : WK kb(KernelIdeal.main_v18) = WR rb(ReferenceIdeal.main_v47))
    (a25 : WK kb(KernelIdeal.main_v25) = WR rb(ReferenceIdeal.main_v54)) :
    after kB1 WK kb(KernelIdeal.main_call1_v0) = after rB1 WR rb(ReferenceIdeal.main_call2_v0)
    ∧ after kB1 WK kb(KernelIdeal.main_call1_v1) = after rB1 WR rb(ReferenceIdeal.main_call2_v1)
    ∧ after kB1 WK kb(KernelIdeal.main_v11) = after rB1 WR rb(ReferenceIdeal.main_v40)
    ∧ after kB1 WK kb(KernelIdeal.main_v35) = after rB1 WR rb(ReferenceIdeal.main_v64)
    ∧ after kB1 WK kb(KernelIdeal.main_v32) = after rB1 WR rb(ReferenceIdeal.main_v61)
    ∧ after kB1 WK kb(KernelIdeal.main_v33) = after rB1 WR rb(ReferenceIdeal.main_v62)
    ∧ after kB1 WK kb(KernelIdeal.main_v18) = after rB1 WR rb(ReferenceIdeal.main_v47)
    ∧ after kB1 WK kb(KernelIdeal.main_v25) = after rB1 WR rb(ReferenceIdeal.main_v54) :=
  ⟨(by tail_stage a11, a35, a32, a33, a18, a25), (by tail_stage a11, a35, a32, a33, a18, a25),
   (by tail_stage a11, a35, a32, a33, a18, a25), (by tail_stage a11, a35, a32, a33, a18, a25),
   (by tail_stage a11, a35, a32, a33, a18, a25), (by tail_stage a11, a35, a32, a33, a18, a25),
   (by tail_stage a11, a35, a32, a33, a18, a25), (by tail_stage a11, a35, a32, a33, a18, a25)⟩

end Cert.Bridge

end
-- ==== Proof.TailB2.lean ====
/-
  Stage B of the common tail, second half: which sorted points start a new cell (the index differs from its predecessor's, and the point is inside the grid) and the running count of those.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage B, second half: which sorted points start a new cell, and their running count

The rolled vector is the concatenation of the two pieces of the first half; a point starts a new cell when it is the
first of all or its linear index differs from the rolled one, and it is inside the grid. -/

theorem stageB2 (WK : KV) (WR : RV)
    (p0 : WK kb(KernelIdeal.main_call1_v0) = WR rb(ReferenceIdeal.main_call2_v0))
    (p1 : WK kb(KernelIdeal.main_call1_v1) = WR rb(ReferenceIdeal.main_call2_v1))
    (a11 : WK kb(KernelIdeal.main_v11) = WR rb(ReferenceIdeal.main_v40))
    (a35 : WK kb(KernelIdeal.main_v35) = WR rb(ReferenceIdeal.main_v64))
    (a32 : WK kb(KernelIdeal.main_v32) = WR rb(ReferenceIdeal.main_v61))
    (a33 : WK kb(KernelIdeal.main_v33) = WR rb(ReferenceIdeal.main_v62))
    (a18 : WK kb(KernelIdeal.main_v18) = WR rb(ReferenceIdeal.main_v47))
    (a25 : WK kb(KernelIdeal.main_v25) = WR rb(ReferenceIdeal.main_v54)) :
    after kB2 WK kb(KernelIdeal.main_c_10) = after rB2 WR rb(ReferenceIdeal.main_c_20)
    ∧ after kB2 WK kb(KernelIdeal.main_v39) = after rB2 WR rb(ReferenceIdeal.main_v68)
    ∧ after kB2 WK kb(KernelIdeal.main_v43) = after rB2 WR rb(ReferenceIdeal.main_v72)
    ∧ after kB2 WK kb(KernelIdeal.main_v33) = after rB2 WR rb(ReferenceIdeal.main_v62)
    ∧ after kB2 WK kb(KernelIdeal.main_v32) = after rB2 WR rb(ReferenceIdeal.main_v61)
    ∧ after kB2 WK kb(KernelIdeal.main_v18) = after rB2 WR rb(ReferenceIdeal.main_v47)
    ∧ after kB2 WK kb(KernelIdeal.main_v25) = after rB2 WR rb(ReferenceIdeal.main_v54) :=
  ⟨(by tail_stage p0, p1, a11, a35, a32, a33, a18, a25),
   (by tail_open; simp only [a11, a35, a32, a33, a18, a25]; rw [p0, p1]; try rfl),
   (by tail_open; simp only [a11, a35, a32, a33, a18, a25]; rw [p0, p1]; try rfl),
   (by tail_stage p0, p1, a11, a35, a32, a33, a18, a25), (by tail_stage p0, p1, a11, a35, a32, a33, a18, a25),
   (by tail_stage p0, p1, a11, a35, a32, a33, a18, a25), (by tail_stage p0, p1, a11, a35, a32, a33, a18, a25)⟩

end Cert.Bridge

end
-- ==== Proof.TailC.lean ====
/-
  Stage C of the common tail: the first position of each point's cell (a running maximum), the point's slot in its cell, and the flags admitting a point (cell among the first 60000, slot below 32).
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage C: the first position of a point's cell, its slot in the cell, and the admission flags -/

theorem stageC (WK : KV) (WR : RV)
    (b10 : WK kb(KernelIdeal.main_c_10) = WR rb(ReferenceIdeal.main_c_20))
    (b39 : WK kb(KernelIdeal.main_v39) = WR rb(ReferenceIdeal.main_v68))
    (b43 : WK kb(KernelIdeal.main_v43) = WR rb(ReferenceIdeal.main_v72))
    (b33 : WK kb(KernelIdeal.main_v33) = WR rb(ReferenceIdeal.main_v62))
    (b32 : WK kb(KernelIdeal.main_v32) = WR rb(ReferenceIdeal.main_v61))
    (b18 : WK kb(KernelIdeal.main_v18) = WR rb(ReferenceIdeal.main_v47))
    (b25 : WK kb(KernelIdeal.main_v25) = WR rb(ReferenceIdeal.main_v54)) :
    after kC WK kb(KernelIdeal.main_c_14) = after rC WR rb(ReferenceIdeal.main_c_24)
    ∧ after kC WK kb(KernelIdeal.main_v55) = after rC WR rb(ReferenceIdeal.main_v84)
    ∧ after kC WK kb(KernelIdeal.main_v46) = after rC WR rb(ReferenceIdeal.main_v75)
    ∧ after kC WK kb(KernelIdeal.main_v52) = after rC WR rb(ReferenceIdeal.main_v81)
    ∧ after kC WK kb(KernelIdeal.main_v43) = after rC WR rb(ReferenceIdeal.main_v72)
    ∧ after kC WK kb(KernelIdeal.main_v39) = after rC WR rb(ReferenceIdeal.main_v68)
    ∧ after kC WK kb(KernelIdeal.main_v18) = after rC WR rb(ReferenceIdeal.main_v47)
    ∧ after kC WK kb(KernelIdeal.main_v25) = after rC WR rb(ReferenceIdeal.main_v54) :=
  ⟨(by tail_stage b10, b39, b43, b33, b32, b18, b25), (by tail_stage b10, b39, b43, b33, b32, b18, b25),
   (by tail_stage b10, b39, b43, b33, b32, b18, b25), (by tail_stage b10, b39, b43, b33, b32, b18, b25),
   (by tail_stage b10, b39, b43, b33, b32, b18, b25), (by tail_stage b10, b39, b43, b33, b32, b18, b25),
   (by tail_stage b10, b39, b43, b33, b32, b18, b25), (by tail_stage b10, b39, b43, b33, b32, b18, b25)⟩

end Cert.Bridge

end
-- ==== Proof.TailD.lean ====
/-
  Stage D of the common tail: the row and the column each admitted point is written to, the zero buffer, and the values written.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage D: the row and column each admitted point is written to, and the values written -/

theorem stageD (WK : KV) (WR : RV)
    (c14 : WK kb(KernelIdeal.main_c_14) = WR rb(ReferenceIdeal.main_c_24))
    (c55 : WK kb(KernelIdeal.main_v55) = WR rb(ReferenceIdeal.main_v84))
    (c46 : WK kb(KernelIdeal.main_v46) = WR rb(ReferenceIdeal.main_v75))
    (c52 : WK kb(KernelIdeal.main_v52) = WR rb(ReferenceIdeal.main_v81))
    (c43 : WK kb(KernelIdeal.main_v43) = WR rb(ReferenceIdeal.main_v72))
    (c39 : WK kb(KernelIdeal.main_v39) = WR rb(ReferenceIdeal.main_v68))
    (c18 : WK kb(KernelIdeal.main_v18) = WR rb(ReferenceIdeal.main_v47))
    (c25 : WK kb(KernelIdeal.main_v25) = WR rb(ReferenceIdeal.main_v54)) :
    after kD WK kb(KernelIdeal.main_v56) = after rD WR rb(ReferenceIdeal.main_v85)
    ∧ after kD WK kb(KernelIdeal.main_v57) = after rD WR rb(ReferenceIdeal.main_v86)
    ∧ after kD WK kb(KernelIdeal.main_v58) = after rD WR rb(ReferenceIdeal.main_v87)
    ∧ after kD WK kb(KernelIdeal.main_v60) = after rD WR rb(ReferenceIdeal.main_v89)
    ∧ after kD WK kb(KernelIdeal.main_v52) = after rD WR rb(ReferenceIdeal.main_v81)
    ∧ after kD WK kb(KernelIdeal.main_v43) = after rD WR rb(ReferenceIdeal.main_v72)
    ∧ after kD WK kb(KernelIdeal.main_v39) = after rD WR rb(ReferenceIdeal.main_v68)
    ∧ after kD WK kb(KernelIdeal.main_v25) = after rD WR rb(ReferenceIdeal.main_v54) :=
  ⟨(by tail_stage c14, c55, c46, c52, c43, c39, c18, c25), (by tail_stage c14, c55, c46, c52, c43, c39, c18, c25),
   (by tail_stage c14, c55, c46, c52, c43, c39, c18, c25), (by tail_stage c14, c55, c46, c52, c43, c39, c18, c25),
   (by tail_stage c14, c55, c46, c52, c43, c39, c18, c25), (by tail_stage c14, c55, c46, c52, c43, c39, c18, c25),
   (by tail_stage c14, c55, c46, c52, c43, c39, c18, c25), (by tail_stage c14, c55, c46, c52, c43, c39, c18, c25)⟩

end Cert.Bridge

end
-- ==== Proof.TailE1.lean ====
/-
  Stage E of the common tail, first half: the row (cell) and column (slot) indices of the scatter, wrapped into range and made columns.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage E, first half: the row and the column of each scattered point, as columns -/

theorem stageE1 (WK : KV) (WR : RV)
    (d56 : WK kb(KernelIdeal.main_v56) = WR rb(ReferenceIdeal.main_v85))
    (d57 : WK kb(KernelIdeal.main_v57) = WR rb(ReferenceIdeal.main_v86))
    (d58 : WK kb(KernelIdeal.main_v58) = WR rb(ReferenceIdeal.main_v87))
    (d60 : WK kb(KernelIdeal.main_v60) = WR rb(ReferenceIdeal.main_v89))
    (d52 : WK kb(KernelIdeal.main_v52) = WR rb(ReferenceIdeal.main_v81))
    (d43 : WK kb(KernelIdeal.main_v43) = WR rb(ReferenceIdeal.main_v72))
    (d39 : WK kb(KernelIdeal.main_v39) = WR rb(ReferenceIdeal.main_v68))
    (d25 : WK kb(KernelIdeal.main_v25) = WR rb(ReferenceIdeal.main_v54)) :
    after kE1 WK kb(KernelIdeal.main_v71) = after rE1 WR rb(ReferenceIdeal.main_v100)
    ∧ after kE1 WK kb(KernelIdeal.main_v72) = after rE1 WR rb(ReferenceIdeal.main_v101)
    ∧ after kE1 WK kb(KernelIdeal.main_v58) = after rE1 WR rb(ReferenceIdeal.main_v87)
    ∧ after kE1 WK kb(KernelIdeal.main_v60) = after rE1 WR rb(ReferenceIdeal.main_v89)
    ∧ after kE1 WK kb(KernelIdeal.main_v52) = after rE1 WR rb(ReferenceIdeal.main_v81)
    ∧ after kE1 WK kb(KernelIdeal.main_v43) = after rE1 WR rb(ReferenceIdeal.main_v72)
    ∧ after kE1 WK kb(KernelIdeal.main_v39) = after rE1 WR rb(ReferenceIdeal.main_v68)
    ∧ after kE1 WK kb(KernelIdeal.main_v25) = after rE1 WR rb(ReferenceIdeal.main_v54) :=
  ⟨(by tail_stage d56, d57, d58, d60, d52, d43, d39, d25), (by tail_stage d56, d57, d58, d60, d52, d43, d39, d25),
   (by tail_stage d56, d57, d58, d60, d52, d43, d39, d25), (by tail_stage d56, d57, d58, d60, d52, d43, d39, d25),
   (by tail_stage d56, d57, d58, d60, d52, d43, d39, d25), (by tail_stage d56, d57, d58, d60, d52, d43, d39, d25),
   (by tail_stage d56, d57, d58, d60, d52, d43, d39, d25), (by tail_stage d56, d57, d58, d60, d52, d43, d39, d25)⟩

end Cert.Bridge

end
-- ==== Proof.TailE2.lean ====
/-
  Stage E of the common tail, second half: the scatter of the admitted points into the per-cell buffer, its first 60000 rows transposed: the first result.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage E, second half: the scatter of the admitted points into the per-cell buffer: the first result

The two index columns are concatenated into the `[N, 2]` table of positions, the points are scattered at them into the
zero buffer, and the first 60000 rows are transposed. -/

theorem stageE2 (WK : KV) (WR : RV)
    (e71 : WK kb(KernelIdeal.main_v71) = WR rb(ReferenceIdeal.main_v100))
    (e72 : WK kb(KernelIdeal.main_v72) = WR rb(ReferenceIdeal.main_v101))
    (e58 : WK kb(KernelIdeal.main_v58) = WR rb(ReferenceIdeal.main_v87))
    (e60 : WK kb(KernelIdeal.main_v60) = WR rb(ReferenceIdeal.main_v89))
    (e52 : WK kb(KernelIdeal.main_v52) = WR rb(ReferenceIdeal.main_v81))
    (e43 : WK kb(KernelIdeal.main_v43) = WR rb(ReferenceIdeal.main_v72))
    (e39 : WK kb(KernelIdeal.main_v39) = WR rb(ReferenceIdeal.main_v68))
    (e25 : WK kb(KernelIdeal.main_v25) = WR rb(ReferenceIdeal.main_v54)) :
    after kE2 WK kb(KernelIdeal.main_c_21) = after rE2 WR rb(ReferenceIdeal.main_c_32)
    ∧ after kE2 WK kb(KernelIdeal.main_v76) = after rE2 WR rb(ReferenceIdeal.main_v105)
    ∧ after kE2 WK kb(KernelIdeal.main_v52) = after rE2 WR rb(ReferenceIdeal.main_v81)
    ∧ after kE2 WK kb(KernelIdeal.main_v43) = after rE2 WR rb(ReferenceIdeal.main_v72)
    ∧ after kE2 WK kb(KernelIdeal.main_v39) = after rE2 WR rb(ReferenceIdeal.main_v68)
    ∧ after kE2 WK kb(KernelIdeal.main_v25) = after rE2 WR rb(ReferenceIdeal.main_v54) :=
  ⟨(by tail_stage e71, e72, e58, e60, e52, e43, e39, e25),
   (by tail_open; simp only [e58, e60, e52, e43, e39, e25]; rw [e71, e72]; rfl),
   (by tail_stage e71, e72, e58, e60, e52, e43, e39, e25), (by tail_stage e71, e72, e58, e60, e52, e43, e39, e25),
   (by tail_stage e71, e72, e58, e60, e52, e43, e39, e25), (by tail_stage e71, e72, e58, e60, e52, e43, e39, e25)⟩

end Cert.Bridge

end
-- ==== Proof.TailF.lean ====
/-
  Stage F of the common tail: the number of points of each cell, capped at 32: the third result.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage F: the number of points per cell: the third result -/

theorem stageF (WK : KV) (WR : RV)
    (e21 : WK kb(KernelIdeal.main_c_21) = WR rb(ReferenceIdeal.main_c_32))
    (e76 : WK kb(KernelIdeal.main_v76) = WR rb(ReferenceIdeal.main_v105))
    (e52 : WK kb(KernelIdeal.main_v52) = WR rb(ReferenceIdeal.main_v81))
    (e43 : WK kb(KernelIdeal.main_v43) = WR rb(ReferenceIdeal.main_v72))
    (e39 : WK kb(KernelIdeal.main_v39) = WR rb(ReferenceIdeal.main_v68))
    (e25 : WK kb(KernelIdeal.main_v25) = WR rb(ReferenceIdeal.main_v54)) :
    after kF WK kb(KernelIdeal.main_c_25) = after rF WR rb(ReferenceIdeal.main_c_36)
    ∧ after kF WK kb(KernelIdeal.main_v87) = after rF WR rb(ReferenceIdeal.main_v116)
    ∧ after kF WK kb(KernelIdeal.main_v84) = after rF WR rb(ReferenceIdeal.main_v113)
    ∧ after kF WK kb(KernelIdeal.main_v43) = after rF WR rb(ReferenceIdeal.main_v72)
    ∧ after kF WK kb(KernelIdeal.main_v25) = after rF WR rb(ReferenceIdeal.main_v54)
    ∧ after kF WK kb(KernelIdeal.main_v76) = after rF WR rb(ReferenceIdeal.main_v105) :=
  ⟨(by tail_stage e21, e76, e52, e43, e39, e25), (by tail_stage e21, e76, e52, e43, e39, e25), (by tail_stage e21, e76, e52, e43, e39, e25),
   (by tail_stage e21, e76, e52, e43, e39, e25), (by tail_stage e21, e76, e52, e43, e39, e25), (by tail_stage e21, e76, e52, e43, e39, e25)⟩

end Cert.Bridge

end
-- ==== Proof.TailG.lean ====
/-
  Stage G of the common tail: the scatter of each cell's coordinates into the table of cells: the second result.
-/
import proofs.«159783_j57397942944138_1_alg».proof.Proof.TailStages

set_option maxRecDepth 65536
-- a stage's value is a term of a few hundred operations on each side
set_option maxHeartbeats 4000000

noncomputable section

namespace Cert.Bridge

open Idealize.ShloMosaic Idealize.SL.Sem StableHlo

-- the sort, the gathers, the scatters and the two running reductions are compared by their arguments, never opened
attribute [local irreducible] Host.sort2 Host.gather Host.scatter Host.reduceWindow

/-! ## Stage G: the scatter of each cell's coordinates: the second result -/

theorem stageG (WK : KV) (WR : RV)
    (f25c : WK kb(KernelIdeal.main_c_25) = WR rb(ReferenceIdeal.main_c_36))
    (f87 : WK kb(KernelIdeal.main_v87) = WR rb(ReferenceIdeal.main_v116))
    (f84 : WK kb(KernelIdeal.main_v84) = WR rb(ReferenceIdeal.main_v113))
    (f43 : WK kb(KernelIdeal.main_v43) = WR rb(ReferenceIdeal.main_v72))
    (f25 : WK kb(KernelIdeal.main_v25) = WR rb(ReferenceIdeal.main_v54))
    (f76 : WK kb(KernelIdeal.main_v76) = WR rb(ReferenceIdeal.main_v105)) :
    after kG WK kb(KernelIdeal.main_v76) = after rG WR rb(ReferenceIdeal.main_v105)
    ∧ after kG WK kb(KernelIdeal.main_v97) = after rG WR rb(ReferenceIdeal.main_v126)
    ∧ after kG WK kb(KernelIdeal.main_v84) = after rG WR rb(ReferenceIdeal.main_v113) :=
  ⟨(by tail_stage f25c, f87, f84, f43, f25, f76), (by tail_stage f25c, f87, f84, f43, f25, f76), (by tail_stage f25c, f87, f84, f43, f25, f76)⟩

end Cert.Bridge

end
-- ==== Proof.TailAgree.lean ====
/-
  From the binned points on, the two programs are the same computation.

  Both tails are the same 144 host operations in the same order, on buffers that correspond one to one. They are cut
  here into nine consecutive stages (the stable sort of the linear cell indices with the gathers along the sorted
  order; the first-of-its-cell flags and their running count; the running maximum of first positions, the slot of a
  point in its cell and the three admission flags; the rows and columns of the scatters; the scatter of the points;
  the per-cell counts; the scatter of the cells). For each stage: if the two programs' buffers that the stage and the
  later stages read hold equal contents before it, then the buffers the later stages read (and the results already
  produced) hold equal contents after it. Each such fact is read off the stage's operations: the value of a buffer
  after the stage is the stage's operations' composed function of the buffers before it, the same function on both
  sides. Chaining the nine stages gives the three results.
-/
import proofs.«159783_j57397942944138_1_alg».proof.Proof.TailA
import proofs.«159783_j57397942944138_1_alg».proof.Proof.TailB1
import proofs.«159783_j57397942944138_1_alg».proof.Proof.TailB2
import proofs.«159783_j57397942944138_1_alg».proof.Proof.TailC
import proofs.«159783_j57397942944138_1_alg».proof.Proof.TailD
import proofs.«159783_j57397942944138_1_alg».proof.Proof.TailE1
import proofs.«159783_j57397942944138_1_alg».proof.Proof.TailE2
import proofs.«159783_j57397942944138_1_alg».proof.Proof.TailF
import proofs.«159783_j57397942944138_1_alg».proof.Proof.TailG

noncomputable section

namespace Cert.Bridge

open Idealize.ShloMosaic Idealize.SL.Sem StableHlo

/-! ## The chain -/

-- the contents after a stage are only ever named here, never computed
attribute [local irreducible] StableHlo.after

/-- From equal points, cells, linear indices and in-grid flags the two tails leave equal results. -/
theorem tail_all (WK : KV) (WR : RV)
    (h0 : WK kb(KernelIdeal.main_arg0) = WR rb(ReferenceIdeal.main_arg0))
    (h1 : WK kb(KernelIdeal.main_v0_0) = WR rb(ReferenceIdeal.main_v7))
    (h2 : WK kb(KernelIdeal.main_v1) = WR rb(ReferenceIdeal.main_v32))
    (h3 : WK kb(KernelIdeal.main_v3) = WR rb(ReferenceIdeal.main_v14)) :
    after kTail WK kb(KernelIdeal.main_v76) = after Cert.ReferenceIdeal.Gen.Hand.tailOps WR rb(ReferenceIdeal.main_v105)
    ∧ after kTail WK kb(KernelIdeal.main_v97) = after Cert.ReferenceIdeal.Gen.Hand.tailOps WR rb(ReferenceIdeal.main_v126)
    ∧ after kTail WK kb(KernelIdeal.main_v84) = after Cert.ReferenceIdeal.Gen.Hand.tailOps WR rb(ReferenceIdeal.main_v113) := by
  rw [kTail_stages, rTail_stages]
  simp only [Cert.LibAfter.after_append]
  -- after each stage the two programs' contents are named, and only the facts about them are kept
  obtain ⟨a11, a35, a32, a33, a18, a25⟩ := stageA WK WR h0 h1 h2 h3
  generalize after kA WK = K1 at *
  generalize after rA WR = R1 at *
  obtain ⟨p0, p1, a11, a35, a32, a33, a18, a25⟩ := stageB1 K1 R1 a11 a35 a32 a33 a18 a25
  generalize after kB1 K1 = K2 at *
  generalize after rB1 R1 = R2 at *
  obtain ⟨b10, b39, b43, b33, b32, b18, b25⟩ := stageB2 K2 R2 p0 p1 a11 a35 a32 a33 a18 a25
  generalize after kB2 K2 = K3 at *
  generalize after rB2 R2 = R3 at *
  obtain ⟨c14, c55, c46, c52, c43, c39, c18, c25⟩ := stageC K3 R3 b10 b39 b43 b33 b32 b18 b25
  generalize after kC K3 = K4 at *
  generalize after rC R3 = R4 at *
  obtain ⟨d56, d57, d58, d60, d52, d43, d39, d25⟩ := stageD K4 R4 c14 c55 c46 c52 c43 c39 c18 c25
  generalize after kD K4 = K5 at *
  generalize after rD R4 = R5 at *
  obtain ⟨e71, e72, e58, e60, e52, e43, e39, e25⟩ := stageE1 K5 R5 d56 d57 d58 d60 d52 d43 d39 d25
  generalize after kE1 K5 = K6 at *
  generalize after rE1 R5 = R6 at *
  obtain ⟨e21, e76, e52, e43, e39, e25⟩ := stageE2 K6 R6 e71 e72 e58 e60 e52 e43 e39 e25
  generalize after kE2 K6 = K7 at *
  generalize after rE2 R6 = R7 at *
  obtain ⟨f25c, f87, f84, f43, f25, f76⟩ := stageF K7 R7 e21 e76 e52 e43 e39 e25
  generalize after kF K7 = K8 at *
  generalize after rF R7 = R8 at *
  exact stageG K8 R8 f25c f87 f84 f43 f25 f76

/-- The three results, one by one. -/
theorem tail_voxels (WK : KV) (WR : RV)
    (h0 : WK kb(KernelIdeal.main_arg0) = WR rb(ReferenceIdeal.main_arg0))
    (h1 : WK kb(KernelIdeal.main_v0_0) = WR rb(ReferenceIdeal.main_v7))
    (h2 : WK kb(KernelIdeal.main_v1) = WR rb(ReferenceIdeal.main_v32))
    (h3 : WK kb(KernelIdeal.main_v3) = WR rb(ReferenceIdeal.main_v14)) :
    after kTail WK kb(KernelIdeal.main_v76) = after Cert.ReferenceIdeal.Gen.Hand.tailOps WR rb(ReferenceIdeal.main_v105) :=
  (tail_all WK WR h0 h1 h2 h3).1

theorem tail_indices (WK : KV) (WR : RV)
    (h0 : WK kb(KernelIdeal.main_arg0) = WR rb(ReferenceIdeal.main_arg0))
    (h1 : WK kb(KernelIdeal.main_v0_0) = WR rb(ReferenceIdeal.main_v7))
    (h2 : WK kb(KernelIdeal.main_v1) = WR rb(ReferenceIdeal.main_v32))
    (h3 : WK kb(KernelIdeal.main_v3) = WR rb(ReferenceIdeal.main_v14)) :
    after kTail WK kb(KernelIdeal.main_v97) = after Cert.ReferenceIdeal.Gen.Hand.tailOps WR rb(ReferenceIdeal.main_v126) :=
  (tail_all WK WR h0 h1 h2 h3).2.1

theorem tail_counts (WK : KV) (WR : RV)
    (h0 : WK kb(KernelIdeal.main_arg0) = WR rb(ReferenceIdeal.main_arg0))
    (h1 : WK kb(KernelIdeal.main_v0_0) = WR rb(ReferenceIdeal.main_v7))
    (h2 : WK kb(KernelIdeal.main_v1) = WR rb(ReferenceIdeal.main_v32))
    (h3 : WK kb(KernelIdeal.main_v3) = WR rb(ReferenceIdeal.main_v14)) :
    after kTail WK kb(KernelIdeal.main_v84) = after Cert.ReferenceIdeal.Gen.Hand.tailOps WR rb(ReferenceIdeal.main_v113) :=
  (tail_all WK WR h0 h1 h2 h3).2.2

end Cert.Bridge

end
-- ==== Proof.Algebraic.lean ====
/-
  The value claim: at the ideal instance the kernel program and the reference, started from memories that agree on the
  points, end with the same three results.

  The kernel program's results are its host suffix applied to what the call leaves in its arrays: the points
  unchanged, the array of cells and the column of linear cell indices (the specification's, block by block). Its
  first stretch turns the column into a vector and recovers the in-grid flags from the sentinel. The reference's
  first 46 operations compute the same cells, flags and linear indices from the same points. From there on both
  programs apply the same 144 operations to equal values, so the results are equal.
-/
import proofs.«159783_j57397942944138_1_alg».proof.Proof.KIFrame
import proofs.«159783_j57397942944138_1_alg».proof.Proof.KIValue
import proofs.«159783_j57397942944138_1_alg».proof.Proof.KFront
import proofs.«159783_j57397942944138_1_alg».proof.Proof.RefRun
import proofs.«159783_j57397942944138_1_alg».proof.Proof.RefFront
import proofs.«159783_j57397942944138_1_alg».proof.Proof.TailAgree
import proofs.«159783_j57397942944138_1_alg».proof.Proof.LibAfter
import proofs.«159783_j57397942944138_1_alg».proof.Defs
import proofs.«159783_j57397942944138_1_alg».proof.Proof.Gen.Pre_finite_inputs

set_option maxRecDepth 16384

noncomputable section

namespace Cert.Bridge

open Idealize.ShloMosaic Idealize.ShloMosaic.TcCoe Idealize.SL.Sem StableHlo
open Cert.KernelIdeal.Gen Cert.KernelIdeal.Gen.Hand

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the call leaves on core `c`: its three arrays at the proof data's final contents, everything else as launched. -/
abbrev left (c : Dev Cert.KernelIdeal.nD) : KV :=
  Pipeline.withArrays (Cert.KernelIdeal.cfgs 0).spec c (V0 m c) fun w => (dats m 0 c).arrAt w (Cert.KernelIdeal.cfgs 0).N

theorem left_arg0 (c : Dev Cert.KernelIdeal.nD) : left m c (Proc.devRef .tc Cert.KernelIdeal.main_arg0) = V m c Cert.KernelIdeal.main_arg0 :=
  (Pipeline.withArrays_arr Cert.KernelIdeal.spec0 launch0.win.arr_inj c _ _ 0).trans (final0 m c)

theorem left_cells (c : Dev Cert.KernelIdeal.nD) :
    left m c (Proc.devRef .tc Cert.KernelIdeal.main_v0_0) = Cert.Voxel.cellsOf (F := Ideal) (V m c Cert.KernelIdeal.main_arg0) :=
  (Pipeline.withArrays_arr Cert.KernelIdeal.spec0 launch0.win.arr_inj c _ _ 1).trans (final1 m c)

theorem left_bin (c : Dev Cert.KernelIdeal.nD) :
    left m c (Proc.devRef .tc Cert.KernelIdeal.main_v0_1) = Cert.Voxel.binCol (F := Ideal) (V m c Cert.KernelIdeal.main_arg0) :=
  (Pipeline.withArrays_arr Cert.KernelIdeal.spec0 launch0.win.arr_inj c _ _ 2).trans (final2 m c)

/-- The reference's points on core `c` are the kernel program's. -/
theorem pts_eq (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    launchContents m' c (Proc.devRef .tc Cert.ReferenceIdeal.main_arg0) = V m c Cert.KernelIdeal.main_arg0 := hagree

theorem agree0 (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after hostOps1 (left m c) (Proc.devRef .tc Cert.KernelIdeal.main_arg0)
      = after Cert.ReferenceIdeal.Gen.Hand.frontOps (launchContents m' c) (Proc.devRef .tc Cert.ReferenceIdeal.main_arg0) := by
  rw [kfront_arg0, left_arg0, Cert.ReferenceIdeal.Gen.Hand.front_arg0]; exact (pts_eq m m' c hagree).symm

theorem agree1 (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after hostOps1 (left m c) (Proc.devRef .tc Cert.KernelIdeal.main_v0_0)
      = after Cert.ReferenceIdeal.Gen.Hand.frontOps (launchContents m' c) (Proc.devRef .tc Cert.ReferenceIdeal.main_v7) := by
  rw [kfront_cells, left_cells, Cert.ReferenceIdeal.Gen.Hand.front_cells, pts_eq m m' c hagree]

theorem agree2 (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after hostOps1 (left m c) (Proc.devRef .tc Cert.KernelIdeal.main_v1)
      = after Cert.ReferenceIdeal.Gen.Hand.frontOps (launchContents m' c) (Proc.devRef .tc Cert.ReferenceIdeal.main_v32) := by
  rw [kfront_bin (left m c) _ (left_bin m c), Cert.ReferenceIdeal.Gen.Hand.front_bin, pts_eq m m' c hagree]

theorem agree3 (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after hostOps1 (left m c) (Proc.devRef .tc Cert.KernelIdeal.main_v3)
      = after Cert.ReferenceIdeal.Gen.Hand.frontOps (launchContents m' c) (Proc.devRef .tc Cert.ReferenceIdeal.main_v14) := by
  rw [kfront_valid (left m c) _ (left_bin m c), Cert.ReferenceIdeal.Gen.Hand.front_valid, pts_eq m m' c hagree]

/-- The reference's first result is the kernel program's. -/
theorem voxels_eq (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.Gen.Hand.ops (launchContents m' c) (Proc.devRef .tc Cert.ReferenceIdeal.main_v105)
      = Pipeline.afterTail₀ Cert.KernelIdeal.cfgs (dats m) 0 (V0 m) tailOps c Cert.KernelIdeal.main_v76 := by
  unfold Pipeline.afterTail₀
  rw [Cert.ReferenceIdeal.Gen.Hand.ops_split, Cert.LibAfter.after_append, tailOps_flatten, Cert.LibAfter.after_append]
  exact (tail_voxels _ _ (agree0 m m' c hagree) (agree1 m m' c hagree) (agree2 m m' c hagree) (agree3 m m' c hagree)).symm

/-- The second. -/
theorem indices_eq (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.Gen.Hand.ops (launchContents m' c) (Proc.devRef .tc Cert.ReferenceIdeal.main_v126)
      = Pipeline.afterTail₀ Cert.KernelIdeal.cfgs (dats m) 0 (V0 m) tailOps c Cert.KernelIdeal.main_v97 := by
  unfold Pipeline.afterTail₀
  rw [Cert.ReferenceIdeal.Gen.Hand.ops_split, Cert.LibAfter.after_append, tailOps_flatten, Cert.LibAfter.after_append]
  exact (tail_indices _ _ (agree0 m m' c hagree) (agree1 m m' c hagree) (agree2 m m' c hagree) (agree3 m m' c hagree)).symm

/-- The third. -/
theorem counts_eq (c : Dev Cert.KernelIdeal.nD) (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.Gen.Hand.ops (launchContents m' c) (Proc.devRef .tc Cert.ReferenceIdeal.main_v113)
      = Pipeline.afterTail₀ Cert.KernelIdeal.cfgs (dats m) 0 (V0 m) tailOps c Cert.KernelIdeal.main_v84 := by
  unfold Pipeline.afterTail₀
  rw [Cert.ReferenceIdeal.Gen.Hand.ops_split, Cert.LibAfter.after_append, tailOps_flatten, Cert.LibAfter.after_append]
  exact (tail_counts _ _ (agree0 m m' c hagree) (agree1 m m' c hagree) (agree2 m m' c hagree) (agree3 m m' c hagree)).symm

/-- The three results are bypassing buffers of the call: unscoped, and no window's array. -/
theorem rest_v76 : Cert.KernelIdeal.main_v76 ∈ Pipeline.restRefs Cert.KernelIdeal.sig (Cert.KernelIdeal.cfgs 0).spec :=
  Pipeline.mem_restRefs_of _ (by decide) (by decide)
theorem rest_v97 : Cert.KernelIdeal.main_v97 ∈ Pipeline.restRefs Cert.KernelIdeal.sig (Cert.KernelIdeal.cfgs 0).spec :=
  Pipeline.mem_restRefs_of _ (by decide) (by decide)
theorem rest_v84 : Cert.KernelIdeal.main_v84 ∈ Pipeline.restRefs Cert.KernelIdeal.sig (Cert.KernelIdeal.cfgs 0).spec :=
  Pipeline.mem_restRefs_of _ (by decide) (by decide)

/-- The algebraic claim. -/
theorem algebraic : Cert.algebraic_KernelIdeal_ReferenceIdeal := by
  intro m ρ m' ρ' _ hagree
  refine ⟨fun c => Pipeline.afterTail₀ Cert.KernelIdeal.cfgs (dats m) 0 (V0 m) tailOps c Cert.KernelIdeal.main_v76,
    fun c => Pipeline.afterTail₀ Cert.KernelIdeal.cfgs (dats m) 0 (V0 m) tailOps c Cert.KernelIdeal.main_v97,
    fun c => Pipeline.afterTail₀ Cert.KernelIdeal.cfgs (dats m) 0 (V0 m) tailOps c Cert.KernelIdeal.main_v84, ?_, ?_⟩
  · refine (θ_run Cert.KernelIdeal.defs _ _).mono (fun r h c => ⟨(h c).2 _ rest_v76, (h c).2 _ rest_v97, (h c).2 _ rest_v84, ?_⟩) (run_main m ρ)
    exact ((h c).1 0).trans (((dats m 0 c).arrAt_in 0 rfl _).trans ((A_eq m c 0).trans (V_main_arg0 m c)))
  · refine (θ_run Cert.ReferenceIdeal.defs _ _).mono (fun r h c => ⟨?_, ?_, ?_, ?_⟩) (Cert.ReferenceIdeal.Gen.Hand.run m' ρ')
    · exact (h c _).trans (voxels_eq m m' c (hagree c))
    · exact (h c _).trans (indices_eq m m' c (hagree c))
    · exact (h c _).trans (counts_eq m m' c (hagree c))
    · exact (h c _).trans (Cert.ReferenceIdeal.Gen.Hand.arg0_kept _)

end Cert.Bridge

end
-- ==== Proof.lean ====
/-
  Voxelization of a point cloud: a Pallas kernel that bins 4 000 000 points into an 800 × 800 × 160 grid of cells
  (20 blocks of 200 000 points), followed by the host operations that group the points by cell, against the plain
  reference that bins on the host and then applies the same grouping.

  The certificate's five claims:
  * the three frames: each program runs to the end, faults nowhere and leaves the points unchanged. For the two
    kernel programs this is the pipeline's frame run (one call, then 148 host operations that write no array of the
    call); for the reference it is the run of a straight line of 190 host operations;
  * the idealization changed nothing (no rewrite was applied), so `preserves` is trivial;
  * the value claim: the call's two output arrays hold, block by block, the cell of every coordinate
    `⌊(x − lo) / 0.05⌋` and the linear cell index `k₀ + 800·k₁ + 640000·k₂` (the sentinel outside the grid), which is
    what the reference's first operations compute; inside the grid the linear index is below the sentinel, so the
    kernel program's in-grid flag, recovered by comparing with the sentinel, is the reference's; and from there both
    programs apply the same operations to equal values.
-/
import proofs.«159783_j57397942944138_1_alg».proof.Defs
import proofs.«159783_j57397942944138_1_alg».proof.Proof.Gen.Kernel
import proofs.«159783_j57397942944138_1_alg».proof.Proof.Gen.KernelIdeal
import proofs.«159783_j57397942944138_1_alg».proof.Proof.Gen.ReferenceIdeal
import proofs.«159783_j57397942944138_1_alg».proof.Proof.Gen.Pre_finite_inputs
import proofs.«159783_j57397942944138_1_alg».proof.Proof.KFrame
import proofs.«159783_j57397942944138_1_alg».proof.Proof.KIFrame
import proofs.«159783_j57397942944138_1_alg».proof.Proof.RefRun
import proofs.«159783_j57397942944138_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.Hand.frame m ρ,
    fun m ρ _ => Cert.KernelIdeal.Gen.Hand.frame m ρ,
    fun m ρ _ => Cert.ReferenceIdeal.Gen.Hand.frame m ρ,
    trivial,
    Cert.Bridge.algebraic⟩

end Cert.Proof

end
